-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v104) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x3200000 : Shape := ⟨2, ![2, 3200000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S_ : Shape := ⟨0, ![]⟩
abbrev S1x3200000 : Shape := ⟨2, ![1, 3200000]⟩
abbrev S3200000 : Shape := ⟨1, ![3200000]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_
  slices_S2x3200000_S1x3200000_0_0 : S2x3200000.Slices ![0, 0] S1x3200000
  shapeCasts_S1x3200000_S3200000 : S1x3200000.ShapeCasts S3200000
  bcast_S_S3200000 : S_.BroadcastsInDim S3200000 (![] : Fin 0 → Fin S3200000.rank)
  reducesTo_S3200000_S_d0 : S3200000.ReducesTo [0] S_

variable [Facts]

def fn_part2 {F : FTy → Type} [FloatOps F] (main_arg1 : IVec S2x3200000 32) (main_v33 : IVec S_ 1) : IVec S_ 1 :=
  let main_v34 : IVec S1x3200000 32 := (extractStridedSlice S1x3200000 ![0, 0] · slices_S2x3200000_S1x3200000_0_0) main_arg1
  let main_v35 : IVec S3200000 32 := shapeCast S3200000 main_v34 shapeCasts_S1x3200000_S3200000
  let main_c_12 : IVec S_ 32 := constantI S_ 32 0#32
  let main_v36 : IVec S3200000 32 := broadcastInDim S3200000 ![] bcast_S_S3200000 main_c_12
  let main_v37 : IVec S3200000 1 := cmpi .sge main_v35 main_v36
  let main_c_13 : IVec S_ 1 := constantI S_ 1 1#1
  let main_v38 : IVec S_ 1 := (fun x v => Host.reduce IntOp.andi x v reducesTo_S3200000_S_d0 h_S_) main_v37 main_c_13
  let main_v39 : IVec S_ 1 := andi main_v33 main_v38
  main_v39

def fn_part1 {F : FTy → Type} [FloatOps F] (main_arg1 : IVec S2x3200000 32) (main_arg5 : FVec F S32 .f32) (main_arg6 : FVec F S32x1 .f32) (main_arg7 : FVec F S1 .f32) (main_v13 : IVec S_ 1) (main_v16 : IVec S64x32 1) : IVec S_ 1 :=
  let main_c_5 : IVec S_ 1 := constantI S_ 1 1#1
  let main_v17 : IVec S_ 1 := (fun x v => Host.reduce IntOp.andi x v reducesTo_S64x32_S_d0_1 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32x1 .f32 := Host.absf main_arg6
  let main_cst_8 : FVec F S_ .f32 := constant S_ .f32 0x7F800000#32
  let main_v25 : FVec F S32x1 .f32 := broadcastInDim S32x1 ![] bcast_S_S32x1 main_cst_8
  let main_v26 : IVec S32x1 1 := cmpf .olt main_v24 main_v25
  let main_c_9 : IVec S_ 1 := constantI S_ 1 1#1
  let main_v27 : IVec S_ 1 := (fun x v => Host.reduce IntOp.andi x v reducesTo_S32x1_S_d0_1 h_S_) main_v26 main_c_9
  let main_v28 : IVec S_ 1 := andi main_v23 main_v27
  let main_v29 : FVec F S1 .f32 := Host.absf main_arg7
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  fn_part2 (F := F) main_arg1 main_v33

def fn {F : FTy → Type} [FloatOps F] (main_arg0 : FVec F S100000x128 .f32) (main_arg1 : IVec S2x3200000 32) (main_arg2 : FVec F S128x64 .f32) (main_arg3 : FVec F S64 .f32) (main_arg4 : FVec F S64x32 .f32) (main_arg5 : FVec F S32 .f32) (main_arg6 : FVec F S32x1 .f32) (main_arg7 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x32 .f32 := Host.absf main_arg4
  let main_cst_4 : FVec F S_ .f32 := constant S_ .f32 0x7F800000#32
  let main_v15 : FVec F S64x32 .f32 := broadcastInDim S64x32 ![] bcast_S_S64x32 main_cst_4
  let main_v16 : IVec S64x32 1 := cmpf .olt main_v14 main_v15
  fn_part1 (F := F) main_arg1 main_arg5 main_arg6 main_arg7 main_v13 main_v16
-- ==== Kernel.lean ====
abbrev S100000x128 : Shape := ⟨2, ![100000, 128]⟩
abbrev S2x3200000 : Shape := ⟨2, ![2, 3200000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S1x3200000 : Shape := ⟨2, ![1, 3200000]⟩
abbrev S3200000 : Shape := ⟨1, ![3200000]⟩
abbrev S_ : Shape := ⟨0, ![]⟩
abbrev S100000 : Shape := ⟨1, ![100000]⟩
abbrev S3200000x1 : Shape := ⟨2, ![3200000, 1]⟩
abbrev S100000x1 : Shape := ⟨2, ![100000, 1]⟩
abbrev S100000x64 : Shape := ⟨2, ![100000, 64]⟩
abbrev S5000x128 : Shape := ⟨2, ![5000, 128]⟩
abbrev S5000x1 : Shape := ⟨2, ![5000, 1]⟩
abbrev S5000x64 : Shape := ⟨2, ![5000, 64]⟩
abbrev S3200000x64 : Shape := ⟨2, ![3200000, 64]⟩
abbrev S1x64 : Shape := ⟨2, ![1, 64]⟩
abbrev S100000x32 : Shape := ⟨2, ![100000, 32]⟩
abbrev S5000x32 : Shape := ⟨2, ![5000, 32]⟩
abbrev S3200000x32 : Shape := ⟨2, ![3200000, 32]⟩
abbrev S1x32 : Shape := ⟨2, ![1, 32]⟩
abbrev S1x1 : Shape := ⟨2, ![1, 1]⟩

abbrev nBuf : Space → Nat
  | .hbm => 43
  | .vmem => 34
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S128x64, .f32⟩
  | .hbm, ⟨3, _⟩ => ⟨S64, .f32⟩
  | .hbm, ⟨4, _⟩ => ⟨S64x32, .f32⟩
  | .hbm, ⟨5, _⟩ => ⟨S32, .f32⟩
  | .hbm, ⟨6, _⟩ => ⟨S32x1, .f32⟩
  | .hbm, ⟨7, _⟩ => ⟨S1, .f32⟩
  | .hbm, ⟨8, _⟩ => ⟨S1x3200000, .i32⟩
  | .hbm, ⟨9, _⟩ => ⟨S3200000, .i32⟩
  | .hbm, ⟨10, _⟩ => ⟨S1x3200000, .i32⟩
  | .hbm, ⟨11, _⟩ => ⟨S3200000, .i32⟩
  | .hbm, ⟨12, _⟩ => ⟨S_, .f32⟩
  | .hbm, ⟨13, _⟩ => ⟨S3200000, .f32⟩
  | .hbm, ⟨14, _⟩ => ⟨S_, .f32⟩
  | .hbm, ⟨15, _⟩ => ⟨S100000, .f32⟩
  | .hbm, ⟨16, _⟩ => ⟨S3200000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S100000, .f32⟩
  | .hbm, ⟨22, _⟩ => ⟨S100000x1, .f32⟩
  | .hbm, ⟨23, _⟩ => ⟨S100000x64, .f32⟩
  | .hbm, ⟨24, _⟩ => ⟨S3200000x1, .i32⟩
  | .hbm, ⟨25, _⟩ => ⟨S3200000x64, .f32⟩
  | .hbm, ⟨26, _⟩ => ⟨S_, .f32⟩
  | .hbm, ⟨27, _⟩ => ⟨S100000x64, .f32⟩
  | .hbm, ⟨28, _⟩ => ⟨S3200000x1, .i32⟩
  | .hbm, ⟨29, _⟩ => ⟨S100000x64, .f32⟩
  | .hbm, ⟨30, _⟩ => ⟨S1x64, .f32⟩
  | .hbm, ⟨31, _⟩ => ⟨S100000x64, .f32⟩
  | .hbm, ⟨32, _⟩ => ⟨S100000x32, .f32⟩
  | .hbm, ⟨33, _⟩ => ⟨S3200000x1, .i32⟩
  | .hbm, ⟨34, _⟩ => ⟨S3200000x32, .f32⟩
  | .hbm, ⟨35, _⟩ => ⟨S_, .f32⟩
  | .hbm, ⟨36, _⟩ => ⟨S100000x32, .f32⟩
  | .hbm, ⟨37, _⟩ => ⟨S3200000x1, .i32⟩
  | .hbm, ⟨38, _⟩ => ⟨S100000x32, .f32⟩
  | .hbm, ⟨39, _⟩ => ⟨S1x32, .f32⟩
  | .hbm, ⟨40, _⟩ => ⟨S1x1, .f32⟩
  | .hbm, ⟨41, _⟩ => ⟨S100000x1, .f32⟩
  | .hbm, ⟨42, _⟩ => ⟨S100000, .f32⟩
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S5000x1, .f32⟩
  | .local _ .vmem, ⟨4, _⟩ => ⟨S5000x1, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x1, .f32⟩
  | .local _ .vmem, ⟨12, _⟩ => ⟨S5000x1, .f32⟩
  | .local _ .vmem, ⟨13, _⟩ => ⟨S1x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S5000x64, .f32⟩
  | .local _ .vmem, ⟨18, _⟩ => ⟨S64x32, .f32⟩
  | .local _ .vmem, ⟨19, _⟩ => ⟨S5000x1, .f32⟩
  | .local _ .vmem, ⟨20, _⟩ => ⟨S5000x1, .f32⟩
  | .local _ .vmem, ⟨21, _⟩ => ⟨S5000x32, .f32⟩
  | .local _ .vmem, ⟨22, _⟩ => ⟨S5000x32, .f32⟩
  | .local _ .vmem, ⟨23, _⟩ => ⟨S5000x32, .f32⟩
  | .local _ .vmem, ⟨24, _⟩ => ⟨S5000x32, .f32⟩
  | .local _ .vmem, ⟨25, _⟩ => ⟨S5000x32, .f32⟩
  | .local _ .vmem, ⟨26, _⟩ => ⟨S5000x32, .f32⟩
  | .local _ .vmem, ⟨27, _⟩ => ⟨S5000x1, .f32⟩
  | .local _ .vmem, ⟨28, _⟩ => ⟨S5000x1, .f32⟩
  | .local _ .vmem, ⟨29, _⟩ => ⟨S1x32, .f32⟩
  | .local _ .vmem, ⟨30, _⟩ => ⟨S32x1, .f32⟩
  | .local _ .vmem, ⟨31, _⟩ => ⟨S1x1, .f32⟩
  | .local _ .vmem, ⟨32, _⟩ => ⟨S5000x1, .f32⟩
  | .local _ .vmem, ⟨33, _⟩ => ⟨S5000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_call0_v0 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_call1_v0 : Ref sig .tc := ⟨.hbm, 33, rfl⟩
abbrev main_v20 : Ref sig .tc := ⟨.hbm, 34, rfl⟩
abbrev main_cst_3 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg2_1 : Ref sig .tc := ⟨.vmem, 20, rfl⟩
abbrev cc2_stg3_0 : Ref sig .tc := ⟨.vmem, 21, rfl⟩
abbrev cc2_stg3_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg1_1 : Ref sig .tc := ⟨.vmem, 26, rfl⟩
abbrev cc3_stg2_0 : Ref sig .tc := ⟨.vmem, 27, rfl⟩
abbrev cc3_stg2_1 : Ref sig .tc := ⟨.vmem, 28, rfl⟩
abbrev cc3_stg3_0 : Ref sig .tc := ⟨.vmem, 29, rfl⟩
abbrev cc3_stg4_0 : Ref sig .tc := ⟨.vmem, 30, rfl⟩
abbrev cc3_stg5_0 : Ref sig .tc := ⟨.vmem, 31, rfl⟩
abbrev cc3_stg6_0 : Ref sig .tc := ⟨.vmem, 32, rfl⟩
abbrev cc3_stg6_1 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem2_1 : DmaSem sig := 20
abbrev cc2_sem3_0 : DmaSem sig := 21
abbrev cc2_sem3_1 : DmaSem sig := 22
abbrev cc3_sem0_0 : DmaSem sig := 23
abbrev cc3_sem0_1 : DmaSem sig := 24
abbrev cc3_sem1_0 : DmaSem sig := 25
abbrev cc3_sem1_1 : DmaSem sig := 26
abbrev cc3_sem2_0 : DmaSem sig := 27
abbrev cc3_sem2_1 : DmaSem sig := 28
abbrev cc3_sem3_0 : DmaSem sig := 29
abbrev cc3_sem4_0 : DmaSem sig := 30
abbrev cc3_sem5_0 : DmaSem sig := 31
abbrev cc3_sem6_0 : DmaSem sig := 32
abbrev cc3_sem6_1 : DmaSem sig := 33

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S5000x32 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x32 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x32 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x32 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S32x1 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x1 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S5000x1 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  shapeCasts_S100000_S100000x1 : S100000.ShapeCasts S100000x1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  inb_S5000x64_S5000x64_0_0 : ∀ a, (![0, 0] : Fin 2 → Nat) a + S5000x64.size a ≤ S5000x64.size a
  h_S5000x64 : 0 < S5000x64.numel
  bcast_S_S100000x64 : S_.BroadcastsInDim S100000x64 (![] : Fin 0 → Fin S100000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x32_S64x32_0_0 : ∀ a, (![0, 0] : Fin 2 → Nat) a + S64x32.size a ≤ S64x32.size a
  h_S64x32 : 0 < S64x32.numel
  broadcasts_S5000x1_S5000x32 : S5000x1.Broadcasts S5000x32
  inb_S5000x32_S5000x32_0_0 : ∀ a, (![0, 0] : Fin 2 → Nat) a + S5000x32.size a ≤ S5000x32.size a
  h_S5000x32 : 0 < S5000x32.numel
  bcast_S_S100000x32 : S_.BroadcastsInDim S100000x32 (![] : Fin 0 → Fin S100000x32.rank)
  shapeCasts_S32_S1x32 : S32.ShapeCasts S1x32
  shapeCasts_S1_S1x1 : S1.ShapeCasts S1x1
  shapeCasts_S5000x32_S5000x32 : S5000x32.ShapeCasts S5000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  inb_S32x1_S32x1_0_0 : ∀ a, (![0, 0] : Fin 2 → Nat) a + S32x1.size a ≤ S32x1.size a
  h_S32x1 : 0 < S32x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  shapeCasts_S100000x1_S100000 : S100000x1.ShapeCasts S100000
  scatter_S100000_S3200000x1_S3200000_n_0_0_1_wf : ScatterDims.WF S100000 S3200000x1 S3200000 [] [0] [0] 1
  dot_S5000x128_S128x64_S5000x64_1_0_0_1_n_n_wf : DotDims.WF S5000x128 S128x64 S5000x64 [1] [0] [0] [1] [] []
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  dot_S5000x64_S64x32_S5000x32_1_0_0_1_n_n_wf : DotDims.WF S5000x64 S64x32 S5000x32 [1] [0] [0] [1] [] []
  gather_S100000x32_S3200000x1_S3200000x32_1_0_n_n_0_1_132_wf : GatherDims.WF S100000x32 S3200000x1 S3200000x32 [1] [0] [] [0] [] 1 ![1, 32]
  scatter_S100000x32_S3200000x1_S3200000x32_1_0_0_1_wf : ScatterDims.WF S100000x32 S3200000x1 S3200000x32 [1] [0] [0] 1
  dot_S5000x32_S32x1_S5000x1_1_0_0_1_n_n_wf : DotDims.WF S5000x32 S32x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S100000x64.size a
  hwx0_3 : ∀ i : grid0.Coords, EltTy.bits .f32 = 32 ∨ (Rect.block (s := S100000x64) S5000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x64.size a ≤ S100000x64.size a
  hwx1_4 : ∀ i : grid1.Coords, EltTy.bits .f32 = 32 ∨ (Rect.block (s := S100000x64) S5000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x32.size a ≤ S64x32.size a
  hwx2_1 : ∀ i : grid2.Coords, EltTy.bits .f32 = 32 ∨ (Rect.block (s := S64x32) S64x32.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S100000x1.size a
  hwx2_2 : ∀ i : grid2.Coords, EltTy.bits .f32 = 32 ∨ (Rect.block (s := S100000x1) S5000x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x32.size a ≤ S100000x32.size a
  hwx2_3 : ∀ i : grid2.Coords, EltTy.bits .f32 = 32 ∨ (Rect.block (s := S100000x32) S5000x32.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x32.size a ≤ S100000x32.size a
  hwx3_0 : ∀ i : grid3.Coords, EltTy.bits .f32 = 32 ∨ (Rect.block (s := S100000x32) S5000x32.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x32.size a ≤ S100000x32.size a
  hwx3_1 : ∀ i : grid3.Coords, EltTy.bits .f32 = 32 ∨ (Rect.block (s := S100000x32) S5000x32.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S100000x1.size a
  hwx3_2 : ∀ i : grid3.Coords, EltTy.bits .f32 = 32 ∨ (Rect.block (s := S100000x1) S5000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x32.size a ≤ S1x32.size a
  hwx3_3 : ∀ i : grid3.Coords, EltTy.bits .f32 = 32 ∨ (Rect.block (s := S1x32) S1x32.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S32x1.size a ≤ S32x1.size a
  hwx3_4 : ∀ i : grid3.Coords, EltTy.bits .f32 = 32 ∨ (Rect.block (s := S32x1) S32x1.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x1.size a ≤ S1x1.size a
  hwx3_5 : ∀ i : grid3.Coords, EltTy.bits .f32 = 32 ∨ (Rect.block (s := S1x1) S1x1.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S5000x1.size a ≤ S100000x1.size a
  hwx3_6 : ∀ i : grid3.Coords, EltTy.bits .f32 = 32 ∨ (Rect.block (s := S100000x1) S5000x1.size (cc3_transform_6 i) (hinb3_6 i)).WholeWords (EltTy.packing .f32)

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def dot_S5000x64_S64x32_S5000x32_1_0_0_1_n_n : DotDims S5000x64 S64x32 S5000x32 where
  lhsContracting := [1]
  rhsContracting := [0]
  lhsNonContracting := [0]
  rhsNonContracting := [1]
  lhsBatch := []
  rhsBatch := []
  wf := dot_S5000x64_S64x32_S5000x32_1_0_0_1_n_n_wf
def gather_S100000x32_S3200000x1_S3200000x32_1_0_n_n_0_1_132 : GatherDims S100000x32 S3200000x1 S3200000x32 where
  offsetDims := [1]
  collapsedSliceDims := [0]
  operandBatchingDims := []
  startIndicesBatchingDims := []
  startIndexMap := [0]
  indexVectorDim := 1
  sliceSizes := ![1, 32]
  wf := gather_S100000x32_S3200000x1_S3200000x32_1_0_n_n_0_1_132_wf
def scatter_S100000x32_S3200000x1_S3200000x32_1_0_0_1 : ScatterDims S100000x32 S3200000x1 S3200000x32 where
  updateWindowDims := [1]
  insertedWindowDims := [0]
  scatterDimsToOperandDims := [0]
  indexVectorDim := 1
  wf := scatter_S100000x32_S3200000x1_S3200000x32_1_0_0_1_wf
def dot_S5000x32_S32x1_S5000x1_1_0_0_1_n_n : DotDims S5000x32 S32x1 S5000x1 where
  lhsContracting := [1]
  rhsContracting := [0]
  lhsNonContracting := [0]
  rhsNonContracting := [1]
  lhsBatch := []
  rhsBatch := []
  wf := dot_S5000x32_S32x1_S5000x1_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v12) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v16) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v11) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v17) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v18) S5000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v18) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S64x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v11) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v19) S5000x32.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v23) S5000x32.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v19) S5000x32.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v11) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v24) S1x32.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg6) S32x1.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v25) S1x1.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v26) S5000x1.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x3200000 : Shape := ⟨2, ![2, 3200000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S1x3200000 : Shape := ⟨2, ![1, 3200000]⟩
abbrev S3200000 : Shape := ⟨1, ![3200000]⟩
abbrev S100000x64 : Shape := ⟨2, ![100000, 64]⟩
abbrev S_ : Shape := ⟨0, ![]⟩
abbrev S100000 : Shape := ⟨1, ![100000]⟩
abbrev S3200000x1 : Shape := ⟨2, ![3200000, 1]⟩
abbrev S3200000x64 : Shape := ⟨2, ![3200000, 64]⟩
abbrev S100000x1 : Shape := ⟨2, ![100000, 1]⟩
abbrev S1x64 : Shape := ⟨2, ![1, 64]⟩
abbrev S100000x32 : Shape := ⟨2, ![100000, 32]⟩
abbrev S3200000x32 : Shape := ⟨2, ![3200000, 32]⟩
abbrev S1x32 : Shape := ⟨2, ![1, 32]⟩
abbrev S1x1 : Shape := ⟨2, ![1, 1]⟩

abbrev nBuf : Space → Nat
  | .hbm => 139
  | .vmem => 0
  | .smem => 0
  | _ => 0

abbrev hbmTy0_0 (i : Nat) : BufTy := match i % 128 with
  | 0 => ⟨S100000x128, .f32⟩
  | 1 => ⟨S2x3200000, .i32⟩
  | 2 => ⟨S128x64, .f32⟩
  | 3 => ⟨S64, .f32⟩
  | 4 => ⟨S64x32, .f32⟩
  | 5 => ⟨S32, .f32⟩
  | 6 => ⟨S32x1, .f32⟩
  | 7 => ⟨S1, .f32⟩
  | 8 => ⟨S1x3200000, .i32⟩
  | 9 => ⟨S3200000, .i32⟩
  | 10 => ⟨S1x3200000, .i32⟩
  | 11 => ⟨S3200000, .i32⟩
  | 12 => ⟨S100000x64, .f32⟩
  | 13 => ⟨S_, .f32⟩
  | 14 => ⟨S3200000, .f32⟩
  | 15 => ⟨S_, .f32⟩
  | 16 => ⟨S100000, .f32⟩
  | 17 => ⟨S3200000x1, .i32⟩
  | 18 => ⟨S100000, .f32⟩
  | 19 => ⟨S_, .f32⟩
  | 20 => ⟨S100000, .f32⟩
  | 21 => ⟨S100000, .f32⟩
  | 22 => ⟨S100000, .f32⟩
  | 23 => ⟨S_, .i32⟩
  | 24 => ⟨S3200000, .i32⟩
  | 25 => ⟨S3200000, .i1⟩
  | 26 => ⟨S_, .i32⟩
  | 27 => ⟨S3200000, .i32⟩
  | 28 => ⟨S3200000, .i32⟩
  | 29 => ⟨S3200000, .i32⟩
  | 30 => ⟨S3200000x1, .i32⟩
  | 31 => ⟨S3200000, .f32⟩
  | 32 => ⟨S_, .i32⟩
  | 33 => ⟨S3200000, .i32⟩
  | 34 => ⟨S3200000, .i1⟩
  | 35 => ⟨S_, .i32⟩
  | 36 => ⟨S3200000, .i32⟩
  | 37 => ⟨S3200000, .i32⟩
  | 38 => ⟨S3200000, .i32⟩
  | 39 => ⟨S3200000x1, .i32⟩
  | 40 => ⟨S3200000, .f32⟩
  | 41 => ⟨S3200000, .f32⟩
  | 42 => ⟨S_, .i32⟩
  | 43 => ⟨S3200000, .i32⟩
  | 44 => ⟨S3200000, .i1⟩
  | 45 => ⟨S_, .i32⟩
  | 46 => ⟨S3200000, .i32⟩
  | 47 => ⟨S3200000, .i32⟩
  | 48 => ⟨S3200000, .i32⟩
  | 49 => ⟨S3200000x1, .i32⟩
  | 50 => ⟨S3200000x64, .f32⟩
  | 51 => ⟨S3200000x1, .f32⟩
  | 52 => ⟨S3200000x64, .f32⟩
  | 53 => ⟨S3200000x64, .f32⟩
  | 54 => ⟨S_, .f32⟩
  | 55 => ⟨S100000x64, .f32⟩
  | 56 => ⟨S3200000x1, .i32⟩
  | 57 => ⟨S100000x64, .f32⟩
  | 58 => ⟨S100000, .f32⟩
  | 59 => ⟨S100000x1, .f32⟩
  | 60 => ⟨S100000x64, .f32⟩
  | 61 => ⟨S100000x64, .f32⟩
  | 62 => ⟨S100000x64, .f32⟩
  | 63 => ⟨S1x64, .f32⟩
  | 64 => ⟨S100000x64, .f32⟩
  | 65 => ⟨S100000x64, .f32⟩
  | 66 => ⟨S_, .f32⟩
  | 67 => ⟨S100000x64, .f32⟩
  | 68 => ⟨S100000x64, .f32⟩
  | 69 => ⟨S100000x32, .f32⟩
  | 70 => ⟨S_, .f32⟩
  | 71 => ⟨S3200000, .f32⟩
  | 72 => ⟨S_, .f32⟩
  | 73 => ⟨S100000, .f32⟩
  | 74 => ⟨S3200000x1, .i32⟩
  | 75 => ⟨S100000, .f32⟩
  | 76 => ⟨S_, .f32⟩
  | 77 => ⟨S100000, .f32⟩
  | 78 => ⟨S100000, .f32⟩
  | 79 => ⟨S100000, .f32⟩
  | 80 => ⟨S_, .i32⟩
  | 81 => ⟨S3200000, .i32⟩
  | 82 => ⟨S3200000, .i1⟩
  | 83 => ⟨S_, .i32⟩
  | 84 => ⟨S3200000, .i32⟩
  | 85 => ⟨S3200000, .i32⟩
  | 86 => ⟨S3200000, .i32⟩
  | 87 => ⟨S3200000x1, .i32⟩
  | 88 => ⟨S3200000, .f32⟩
  | 89 => ⟨S_, .i32⟩
  | 90 => ⟨S3200000, .i32⟩
  | 91 => ⟨S3200000, .i1⟩
  | 92 => ⟨S_, .i32⟩
  | 93 => ⟨S3200000, .i32⟩
  | 94 => ⟨S3200000, .i32⟩
  | 95 => ⟨S3200000, .i32⟩
  | 96 => ⟨S3200000x1, .i32⟩
  | 97 => ⟨S3200000, .f32⟩
  | 98 => ⟨S3200000, .f32⟩
  | 99 => ⟨S_, .i32⟩
  | 100 => ⟨S3200000, .i32⟩
  | 101 => ⟨S3200000, .i1⟩
  | 102 => ⟨S_, .i32⟩
  | 103 => ⟨S3200000, .i32⟩
  | 104 => ⟨S3200000, .i32⟩
  | 105 => ⟨S3200000, .i32⟩
  | 106 => ⟨S3200000x1, .i32⟩
  | 107 => ⟨S3200000x32, .f32⟩
  | 108 => ⟨S3200000x1, .f32⟩
  | 109 => ⟨S3200000x32, .f32⟩
  | 110 => ⟨S3200000x32, .f32⟩
  | 111 => ⟨S_, .f32⟩
  | 112 => ⟨S100000x32, .f32⟩
  | 113 => ⟨S3200000x1, .i32⟩
  | 114 => ⟨S100000x32, .f32⟩
  | 115 => ⟨S100000, .f32⟩
  | 116 => ⟨S100000x1, .f32⟩
  | 117 => ⟨S100000x32, .f32⟩
  | 118 => ⟨S100000x32, .f32⟩
  | 119 => ⟨S100000x32, .f32⟩
  | 120 => ⟨S1x32, .f32⟩
  | 121 => ⟨S100000x32, .f32⟩
  | 122 => ⟨S100000x32, .f32⟩
  | 123 => ⟨S_, .f32⟩
  | 124 => ⟨S100000x32, .f32⟩
  | 125 => ⟨S100000x32, .f32⟩
  | 126 => ⟨S100000x1, .f32⟩
  | 127 => ⟨S1x1, .f32⟩
  | _ => ⟨S100000x128, .f32⟩

abbrev hbmTy0_1 (i : Nat) : BufTy := match i % 128 with
  | 0 => ⟨S100000x1, .f32⟩
  | 1 => ⟨S100000x1, .f32⟩
  | 2 => ⟨S100000x1, .f32⟩
  | 3 => ⟨S100000x1, .f32⟩
  | 4 => ⟨S_, .f32⟩
  | 5 => ⟨S100000x1, .f32⟩
  | 6 => ⟨S100000x1, .f32⟩
  | 7 => ⟨S_, .f32⟩
  | 8 => ⟨S100000x1, .f32⟩
  | 9 => ⟨S100000x1, .f32⟩
  | 10 => ⟨S100000, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c : Ref sig .tc := ⟨.hbm, 23, rfl⟩
abbrev main_v12 : Ref sig .tc := ⟨.hbm, 24, rfl⟩
abbrev main_v13 : Ref sig .tc := ⟨.hbm, 25, rfl⟩
abbrev main_c_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c_3 : Ref sig .tc := ⟨.hbm, 32, rfl⟩
abbrev main_v19 : Ref sig .tc := ⟨.hbm, 33, rfl⟩
abbrev main_v20 : Ref sig .tc := ⟨.hbm, 34, rfl⟩
abbrev main_c_4 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_c_5 : Ref sig .tc := ⟨.hbm, 42, rfl⟩
abbrev main_v27 : Ref sig .tc := ⟨.hbm, 43, rfl⟩
abbrev main_v28 : Ref sig .tc := ⟨.hbm, 44, rfl⟩
abbrev main_c_6 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_7 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_call0_cst : Ref sig .tc := ⟨.hbm, 66, rfl⟩
abbrev main_call0_v0 : Ref sig .tc := ⟨.hbm, 67, rfl⟩
abbrev main_v48 : Ref sig .tc := ⟨.hbm, 68, rfl⟩
abbrev main_v49 : Ref sig .tc := ⟨.hbm, 69, rfl⟩
abbrev main_cst_8 : Ref sig .tc := ⟨.hbm, 70, rfl⟩
abbrev main_v50 : Ref sig .tc := ⟨.hbm, 71, rfl⟩
abbrev main_cst_9 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_cst_10 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_c_11 : Ref sig .tc := ⟨.hbm, 80, rfl⟩
abbrev main_v57 : Ref sig .tc := ⟨.hbm, 81, rfl⟩
abbrev main_v58 : Ref sig .tc := ⟨.hbm, 82, rfl⟩
abbrev main_c_12 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_c_13 : Ref sig .tc := ⟨.hbm, 89, rfl⟩
abbrev main_v64 : Ref sig .tc := ⟨.hbm, 90, rfl⟩
abbrev main_v65 : Ref sig .tc := ⟨.hbm, 91, rfl⟩
abbrev main_c_14 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_c_15 : Ref sig .tc := ⟨.hbm, 99, rfl⟩
abbrev main_v72 : Ref sig .tc := ⟨.hbm, 100, rfl⟩
abbrev main_v73 : Ref sig .tc := ⟨.hbm, 101, rfl⟩
abbrev main_c_16 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_cst_17 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_call1_cst : Ref sig .tc := ⟨.hbm, 123, rfl⟩
abbrev main_call1_v0 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_cst_18 : Ref sig .tc := ⟨.hbm, 132, rfl⟩
abbrev main_v100 : Ref sig .tc := ⟨.hbm, 133, rfl⟩
abbrev main_v101 : Ref sig .tc := ⟨.hbm, 134, rfl⟩
abbrev main_cst_19 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  bcast_S3200000x1_S3200000x64_0_1 : S3200000x1.BroadcastsInDim S3200000x64 (![0, 1] : Fin 2 → Fin S3200000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S3200000x1_S3200000x32_0_1 : S3200000x1.BroadcastsInDim S3200000x32 (![0, 1] : Fin 2 → Fin S3200000x32.rank)
  bcast_S_S100000x32 : S_.BroadcastsInDim S100000x32 (![] : Fin 0 → Fin S100000x32.rank)
  bcast_S100000x1_S100000x32_0_1 : S100000x1.BroadcastsInDim S100000x32 (![0, 1] : Fin 2 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  bcast_S_S100000x1 : S_.BroadcastsInDim S100000x1 (![] : Fin 0 → Fin S100000x1.rank)
  shapeCasts_S100000x1_S100000 : S100000x1.ShapeCasts S100000
  dot_S100000x128_S128x64_S100000x64_1_0_0_1_n_n_wf : DotDims.WF S100000x128 S128x64 S100000x64 [1] [0] [0] [1] [] []
  scatter_S100000_S3200000x1_S3200000_n_0_0_1_wf : ScatterDims.WF S100000 S3200000x1 S3200000 [] [0] [0] 1
  gather_S100000_S3200000x1_S3200000_n_0_n_n_0_1_1_wf : GatherDims.WF S100000 S3200000x1 S3200000 [] [0] [] [0] [] 1 ![1]
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  dot_S100000x64_S64x32_S100000x32_1_0_0_1_n_n_wf : DotDims.WF S100000x64 S64x32 S100000x32 [1] [0] [0] [1] [] []
  gather_S100000x32_S3200000x1_S3200000x32_1_0_n_n_0_1_132_wf : GatherDims.WF S100000x32 S3200000x1 S3200000x32 [1] [0] [] [0] [] 1 ![1, 32]
  scatter_S100000x32_S3200000x1_S3200000x32_1_0_0_1_wf : ScatterDims.WF S100000x32 S3200000x1 S3200000x32 [1] [0] [0] 1
  dot_S100000x32_S32x1_S100000x1_1_0_0_1_n_n_wf : DotDims.WF S100000x32 S32x1 S100000x1 [1] [0] [0] [1] [] []

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def gather_S100000x32_S3200000x1_S3200000x32_1_0_n_n_0_1_132 : GatherDims S100000x32 S3200000x1 S3200000x32 where
  offsetDims := [1]
  collapsedSliceDims := [0]
  operandBatchingDims := []
  startIndicesBatchingDims := []
  startIndexMap := [0]
  indexVectorDim := 1
  sliceSizes := ![1, 32]
  wf := gather_S100000x32_S3200000x1_S3200000x32_1_0_n_n_0_1_132_wf
def scatter_S100000x32_S3200000x1_S3200000x32_1_0_0_1 : ScatterDims S100000x32 S3200000x1 S3200000x32 where
  updateWindowDims := [1]
  insertedWindowDims := [0]
  scatterDimsToOperandDims := [0]
  indexVectorDim := 1
  wf := scatter_S100000x32_S3200000x1_S3200000x32_1_0_0_1_wf
def dot_S100000x32_S32x1_S100000x1_1_0_0_1_n_n : DotDims S100000x32 S32x1 S100000x1 where
  lhsContracting := [1]
  rhsContracting := [0]
  lhsNonContracting := [0]
  rhsNonContracting := [1]
  lhsBatch := []
  rhsBatch := []
  wf := dot_S100000x32_S32x1_S100000x1_1_0_0_1_n_n_wf

class Facts : Prop extends Facts₀ where

variable [Facts]
-- ==== Proof.Spec.lean ====
/-
  The mathematics of a two-layer graph convolution with a sigmoid head, as functions of arrays read index by index over the
  extended reals, in the two arrangements the two programs compute it in.

  A node table `[n, k]` is multiplied by a weight `[k, c]` (`prod`).  ONE arrangement scales every row `p` of the product by
  a per-node factor `d p` at once (`scaledProd`); for every node `r` it adds up the scaled rows of the source nodes of the
  edges that END at `r` (`gatherSum` over `edgeSum`: the edges `e` whose end number, read as a signed integer, is `r`), adds
  the node's own scaled row, scales the sum by `d r` again, adds a bias and cuts the negative part off (`combine`); its
  head multiplies the second layer's `combine` by a column weight, adds a bias and applies the logistic function (`head`).
  THE OTHER arrangement weighs every edge's unscaled source row by the product of the two end nodes' factors before it
  adds them up, counts a negative node number from the end of the table (`wrapN`), adds the node's own row weighed by the
  square of its factor (`combineR`), and spells the logistic function out as a quotient (`headR`).
-/
import Mathlib.Algebra.BigOperators.Group.Finset.Defs
import Idealize.ShloMosaic.Lib.ValueIdx
import Idealize.ShloMosaic.PureOps.Ideal

noncomputable section

namespace Cert.Gcn

open Idealize.ShloMosaic Idealize.ShloMosaic.ValueIdx

/-- A table of extended reals with `n` rows and `c` columns. -/
abbrev Mat (n c : ℕ) : Type := (⟨2, ![n, c]⟩ : Shape).Idx → EReal

/-- Row `p` of `x` against column `q` of `W`. -/
def prod {n k c : ℕ} (x : Mat n k) (W : Mat k c) : Mat n c :=
  fun i => ∑ j : Fin k, x (ix2 (n0 := n) (i 0) j) * W (ix2 (n1 := c) j (i 1))

theorem prod_ix2 {n k c : ℕ} (x : Mat n k) (W : Mat k c) (p : Fin n) (q : Fin c) :
    prod x W (ix2 p q) = ∑ j : Fin k, x (ix2 p j) * W (ix2 j q) := rfl

/-- Row `p` of `x` against column `q` of `W`, scaled by the row's factor `d p`. -/
def scaledProd {n k c : ℕ} (x : Mat n k) (W : Mat k c) (d : Mat n 1) : Mat n c :=
  fun i => (∑ j : Fin k, x (ix2 (n0 := n) (i 0) j) * W (ix2 (n1 := c) j (i 1))) * d (ix2 (n0 := n) (i 0) (0 : Fin 1))

theorem scaledProd_ix2 {n k c : ℕ} (x : Mat n k) (W : Mat k c) (d : Mat n 1) (p : Fin n) (q : Fin c) :
    scaledProd x W d (ix2 p q) = (∑ j : Fin k, x (ix2 p j) * W (ix2 j q)) * d (ix2 p (0 : Fin 1)) := rfl

/-- The node's factor times (what its incoming edges brought plus its own scaled row), plus the bias, cut off below at zero. -/
def combine {n c : ℕ} (s hp : Mat n c) (d : Mat n 1) (b : Mat 1 c) : Mat n c :=
  fun i => max (d (ix2 (n0 := n) (i 0) (0 : Fin 1)) * (s i + hp i) + b (ix2 (n1 := c) (0 : Fin 1) (i 1))) 0

theorem combine_ix2 {n c : ℕ} (s hp : Mat n c) (d : Mat n 1) (b : Mat 1 c) (p : Fin n) (q : Fin c) :
    combine s hp d b (ix2 p q)
      = max (d (ix2 p (0 : Fin 1)) * (s (ix2 p q) + hp (ix2 p q)) + b (ix2 (0 : Fin 1) q)) 0 := rfl

/-- The logistic function of (row `p` of the second layer's `combine` against the column weight, plus the bias). -/
def head {n c : ℕ} (s hp : Mat n c) (d : Mat n 1) (b : Mat 1 c) (wfc : Mat c 1) (bfc : Mat 1 1) : Mat n 1 :=
  fun i => Ideal.logistic ((∑ j : Fin c, combine s hp d b (ix2 (n0 := n) (i 0) j) * wfc (ix2 j (0 : Fin 1)))
    + bfc (ix2 (0 : Fin 1) (0 : Fin 1)))

theorem head_ix2 {n c : ℕ} (s hp : Mat n c) (d : Mat n 1) (b : Mat 1 c) (wfc : Mat c 1) (bfc : Mat 1 1) (p : Fin n) :
    head s hp d b wfc bfc (ix2 p (0 : Fin 1))
      = Ideal.logistic ((∑ j : Fin c, combine s hp d b (ix2 p j) * wfc (ix2 j (0 : Fin 1)))
          + bfc (ix2 (0 : Fin 1) (0 : Fin 1))) := rfl

/-- The sum of `g e` over the edges `e` whose end number `idx e`, read as a signed integer, is the node `r`. -/
def edgeSum {E N : ℕ} (idx : Fin E → BitVec 32) (g : Fin E → EReal) (r : Fin N) : EReal :=
  ∑ e ∈ Finset.univ.filter (fun e : Fin E => (idx e).toInt = (r.val : Int)), g e

/-- A node number read as a signed integer and clamped into the table of 100000 nodes. -/
def clampN (w : BitVec 32) : Fin 100000 := ⟨min w.toInt.toNat (100000 - 1), by omega⟩

/-- A negative node number counts from the end of the table of 100000 nodes. -/
def wrapN (w : BitVec 32) : BitVec 32 := Scalar.select (IntOp.cmpi .slt w 0#32) (IntOp.addi w 100000#32) w

/-- For every node, the sum over the edges ending there of the row of `hp` of the edge's (clamped) start node. -/
def gatherSum {c : ℕ} (src dst : Fin 3200000 → BitVec 32) (hp : Mat 100000 c) : Mat 100000 c :=
  fun i => edgeSum dst (fun e => hp (ix2 (clampN (src e)) (i 1))) (i 0)

theorem gatherSum_ix2 {c : ℕ} (src dst : Fin 3200000 → BitVec 32) (hp : Mat 100000 c) (r : Fin 100000) (q : Fin c) :
    gatherSum src dst hp (ix2 r q) = edgeSum dst (fun e => hp (ix2 (clampN (src e)) q)) r := rfl

/-- The other arrangement of one layer: every edge's source row of `P` weighed by the two end nodes' factors, the node's
    own row weighed by the square of its factor, the bias, cut off below at zero. -/
def combineR {c : ℕ} (src dst : Fin 3200000 → BitVec 32) (P : Mat 100000 c) (dv : Fin 100000 → EReal) (b : Fin c → EReal) :
    Mat 100000 c :=
  fun i => max ((edgeSum dst (fun e => P (ix2 (clampN (wrapN (src e))) (i 1))
        * (dv (clampN (wrapN (src e))) * dv (clampN (wrapN (dst e))))) (i 0)
      + P i * (dv (i 0) * dv (i 0))) + b (i 1)) 0

theorem combineR_ix2 {c : ℕ} (src dst : Fin 3200000 → BitVec 32) (P : Mat 100000 c) (dv : Fin 100000 → EReal)
    (b : Fin c → EReal) (r : Fin 100000) (q : Fin c) :
    combineR src dst P dv b (ix2 r q)
      = max ((edgeSum dst (fun e => P (ix2 (clampN (wrapN (src e))) q)
            * (dv (clampN (wrapN (src e))) * dv (clampN (wrapN (dst e))))) r
          + P (ix2 r q) * (dv r * dv r)) + b q) 0 := rfl

/-- The other arrangement of the head: the quotient `1 / (1 + e^(-y))` of the row's product with the column weight plus the bias. -/
def headR {c : ℕ} (R : Mat 100000 c) (wfc : Mat c 1) (bfc : EReal) (p : Fin 100000) : EReal :=
  Ideal.div 1 (1 + Ideal.exp (-((∑ j : Fin c, R (ix2 p j) * wfc (ix2 j (0 : Fin 1))) + bfc)))

end Cert.Gcn

end
-- ==== Proof.LibRowGather.lean ====
/-
  A row gather read at an index.

  jnp's `table[idx]` of a matrix `table : [N, C]` at a vector of row numbers lowers to a `stablehlo.gather` whose
  start indices are the column `[n, 1]` of row numbers: operand axis 0 is collapsed and is the one start-indexed axis,
  axis 1 of the result is the one offset axis and carries the whole row (slice sizes `[1, C]`). Result element
  `(k, q)` is then the table's entry `(r, q)`, where `r` is the `k`-th row number read as a signed integer and
  clamped into `[0, N - 1]`: a row gather never reads outside the table, a negative row number reads row 0 and one
  past the end reads the last row.
-/
import Idealize.ShloMosaic.Lib.ValueIdx

noncomputable section

namespace Idealize.ShloMosaic.RowGather

open Idealize.ShloMosaic Idealize.ShloMosaic.ValueIdx

variable {α : Type}

/-- The dimension numbers of a row gather from a table `[N, C]` by a column `[n, 1]` of row numbers into `[n, C]`; their
    conditions `wf` are decided on a program's literal shapes. -/
abbrev rowDims (N C n : Nat)
    (wf : GatherDims.WF ⟨2, ![N, C]⟩ ⟨2, ![n, 1]⟩ ⟨2, ![n, C]⟩ [1] [0] [] [0] [] 1 ![1, C]) :
    GatherDims ⟨2, ![N, C]⟩ ⟨2, ![n, 1]⟩ ⟨2, ![n, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(k, q)`: the table at row `idx[k, 0]`, read signed and clamped into `[0, N - 1]`, and
    column `q`. On the row axis the start is the clamped row number and nothing is added to it (the axis is collapsed and
    there is no batching axis); on the column axis the start is zero (the axis is not start-indexed) and the offset is
    the result's own column. -/
theorem gather_rows_apply {N C n w : Nat} (hN : 0 < N)
    (wf : GatherDims.WF ⟨2, ![N, C]⟩ ⟨2, ![n, 1]⟩ ⟨2, ![n, C]⟩ [1] [0] [] [0] [] 1 ![1, C])
    (x : (⟨2, ![N, C]⟩ : Shape).Idx → α) (idx : IVec ⟨2, ![n, 1]⟩ w) (k : Fin n) (q : Fin C) :
    Host.gather (rowDims N C n wf) x idx (ix2 k q)
      = x (ix2 ⟨min (idx (ix2 k (0 : Fin 1))).toInt.toNat (N - 1), by omega⟩ q) := by
  unfold Host.gather
  congr 1
  funext a
  refine Fin.ext ?_
  match a with
  | ⟨0, _⟩ =>
    show (rowDims N C n wf).start (ix2 k q) idx 0 + (rowDims N C n wf).batchCoord (ix2 k q) 0
        + (rowDims N C n wf).offCoord (ix2 k q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N C n wf).startIndexMap from List.mem_singleton.mpr rfl)]
    have hsi : (rowDims N C n wf).siIdx (ix2 k q) ⟨List.idxOf (0 : Fin 2) (rowDims N C n wf).startIndexMap,
        List.idxOf_lt_length_iff.2 (List.mem_singleton.mpr rfl)⟩ = ix2 k (0 : Fin 1) := by
      funext b; refine Fin.ext ?_
      match b with
      | ⟨0, _⟩ => rfl
      | ⟨1, _⟩ => rfl
    rw [hsi]
    rfl
  | ⟨1, _⟩ =>
    show (rowDims N C n wf).start (ix2 k q) idx 1 + (rowDims N C n wf).batchCoord (ix2 k q) 1
        + (rowDims N C n wf).offCoord (ix2 k q) 1 = q.val
    rw [GatherDims.batchCoord_eq_zero _ _ _ List.not_mem_nil]
    unfold GatherDims.start
    have h1 : ¬ (1 : Fin 2) ∈ ([0] : List (Fin 2)) := by decide
    rw [dif_neg (show ¬ (1 : Fin 2) ∈ (rowDims N C n wf).startIndexMap from h1)]
    unfold GatherDims.offCoord
    rw [dif_pos ((GatherDims.mem_sKept _ _).mpr ⟨h1, List.not_mem_nil⟩), Nat.zero_add]
    rfl

end Idealize.ShloMosaic.RowGather

end
-- ==== Proof.LibRowScatter.lean ====
/-
  A row scatter-add read at an index, over the extended reals.

  jax's `segment_sum(upd, ids, N)` of updates `upd : [n, C]` lowers to a `stablehlo.scatter` with an `add` body whose scatter
  indices are the column `[n, 1]` of row numbers: operand axis 0 is the one inserted window axis and the one scattered axis,
  update axis 1 is the one window axis and carries the whole row. Update element `(e, p)` lands on operand element `(r, p)`
  exactly when the `e`-th row number, read as a signed integer and NOT clamped, is `r`; a row number outside `[0, N)` drops
  its row. Result element `(r, q)` is then the operand's plus the sum of `upd (e, q)` over the rows `e` numbered `r`.
-/
import Mathlib.Algebra.BigOperators.Group.Finset.Defs
import Idealize.ShloMosaic.Lib.ValueIdx
import Idealize.ShloMosaic.PureOps.Ideal

noncomputable section

namespace Idealize.ShloMosaic.RowScatter

open Idealize.ShloMosaic Idealize.ShloMosaic.ValueIdx

/-- The dimension numbers of a row scatter into a table `[N, C]` of updates `[n, C]` by a column `[n, 1]` of row numbers;
    their conditions `wf` are decided on a program's literal shapes. -/
abbrev rowDims (N C n : Nat)
    (wf : ScatterDims.WF ⟨2, ![N, C]⟩ ⟨2, ![n, 1]⟩ ⟨2, ![n, C]⟩ [1] [0] [0] 1) :
    ScatterDims ⟨2, ![N, C]⟩ ⟨2, ![n, 1]⟩ ⟨2, ![n, C]⟩ where
  updateWindowDims := [1]
  insertedWindowDims := [0]
  scatterDimsToOperandDims := [0]
  indexVectorDim := 1
  wf := wf

/-- On the row axis the window starts at the update row's number, read signed off the column of row numbers: the axis is the
    one the map names, and the scatter-indices index read is the update's row with `0` on the index vector's axis. -/
theorem start_row {N C n w : Nat}
    (wf : ScatterDims.WF ⟨2, ![N, C]⟩ ⟨2, ![n, 1]⟩ ⟨2, ![n, C]⟩ [1] [0] [0] 1)
    (idx : IVec ⟨2, ![n, 1]⟩ w) (e : Fin n) (p : Fin C) :
    (rowDims N C n wf).start (ix2 e p) idx 0 = (idx (ix2 e (0 : Fin 1))).toInt := by
  unfold ScatterDims.start
  rw [dif_pos (show (0 : Fin 2) ∈ (rowDims N C n wf).scatterDimsToOperandDims from List.mem_singleton.mpr rfl)]
  have hsi : (rowDims N C n wf).siIdx (ix2 e p) ⟨List.idxOf (0 : Fin 2) (rowDims N C n wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the column axis the window starts at zero: the map does not name that axis. -/
theorem start_col {N C n w : Nat}
    (wf : ScatterDims.WF ⟨2, ![N, C]⟩ ⟨2, ![n, 1]⟩ ⟨2, ![n, C]⟩ [1] [0] [0] 1)
    (idx : IVec ⟨2, ![n, 1]⟩ w) (e : Fin n) (p : Fin C) :
    (rowDims N C n wf).start (ix2 e p) idx 1 = 0 := by
  unfold ScatterDims.start
  have h1 : ¬ (1 : Fin 2) ∈ ([0] : List (Fin 2)) := by decide
  rw [dif_neg (show ¬ (1 : Fin 2) ∈ (rowDims N C n wf).scatterDimsToOperandDims from h1)]

/-- The row axis is the inserted window axis: its window coordinate is zero. -/
theorem window_row {N C n : Nat}
    (wf : ScatterDims.WF ⟨2, ![N, C]⟩ ⟨2, ![n, 1]⟩ ⟨2, ![n, C]⟩ [1] [0] [0] 1) (e : Fin n) (p : Fin C) :
    (rowDims N C n wf).window (ix2 e p) 0 = 0 := by
  unfold ScatterDims.window
  have h0 : ¬ (0 : Fin 2) ∈ ([1] : List (Fin 2)) := by decide
  rw [dif_neg (show ¬ (0 : Fin 2) ∈ (rowDims N C n wf).sKept from h0)]

/-- The column axis is the one kept operand axis: its window coordinate is the update's own column. -/
theorem window_col {N C n : Nat}
    (wf : ScatterDims.WF ⟨2, ![N, C]⟩ ⟨2, ![n, 1]⟩ ⟨2, ![n, C]⟩ [1] [0] [0] 1) (e : Fin n) (p : Fin C) :
    (rowDims N C n wf).window (ix2 e p) 1 = p.val := by
  unfold ScatterDims.window
  rw [dif_pos (show (1 : Fin 2) ∈ (rowDims N C n wf).sKept from List.mem_singleton.mpr rfl)]
  rfl

/-- Where an update element lands: `(e, p)` lands on `(r, q)` exactly when row `e`'s number, read signed, is `r`, and the
    columns agree. -/
theorem resultIdx?_eq_some_iff {N C n w : Nat}
    (wf : ScatterDims.WF ⟨2, ![N, C]⟩ ⟨2, ![n, 1]⟩ ⟨2, ![n, C]⟩ [1] [0] [0] 1)
    (idx : IVec ⟨2, ![n, 1]⟩ w) (e : Fin n) (p : Fin C) (r : Fin N) (q : Fin C) :
    (rowDims N C n wf).resultIdx? (ix2 e p) idx = some (ix2 r q)
      ↔ (idx (ix2 e (0 : Fin 1))).toInt = (r.val : Int) ∧ p = q := by
  have hs0 := start_row wf idx e p
  have hs1 := start_col wf idx e p
  have hw0 := window_row wf e p
  have hw1 := window_col wf e p
  unfold ScatterDims.resultIdx?
  constructor
  · intro h
    split at h
    · rename_i hb
      have hf := Option.some.inj h
      have h0 := congrArg Fin.val (congrFun hf 0)
      have h1 := congrArg Fin.val (congrFun hf 1)
      have hb0 := (hb 0).1
      simp only [hs0, hw0] at h0 hb0
      simp only [hs1, hw1] at h1
      change ((idx (ix2 e (0 : Fin 1))).toInt + ((0 : Nat) : Int)).toNat = r.val at h0
      change ((0 : Int) + (p.val : Int)).toNat = q.val at h1
      refine ⟨by omega, Fin.ext (by omega)⟩
    · exact absurd h (by simp)
  · rintro ⟨hr, rfl⟩
    have hb : ∀ a, 0 ≤ (rowDims N C n wf).start (ix2 e p) idx a + (rowDims N C n wf).window (ix2 e p) a
        ∧ (rowDims N C n wf).start (ix2 e p) idx a + (rowDims N C n wf).window (ix2 e p) a
          < (⟨2, ![N, C]⟩ : Shape).size a := by
      intro a
      match a with
      | ⟨0, _⟩ =>
        have hN : r.val < N := r.isLt
        show 0 ≤ (rowDims N C n wf).start (ix2 e p) idx 0 + (rowDims N C n wf).window (ix2 e p) 0
          ∧ (rowDims N C n wf).start (ix2 e p) idx 0 + (rowDims N C n wf).window (ix2 e p) 0 < (N : Int)
        rw [hs0, hw0, hr]; omega
      | ⟨1, _⟩ =>
        have hC : p.val < C := p.isLt
        show 0 ≤ (rowDims N C n wf).start (ix2 e p) idx 1 + (rowDims N C n wf).window (ix2 e p) 1
          ∧ (rowDims N C n wf).start (ix2 e p) idx 1 + (rowDims N C n wf).window (ix2 e p) 1 < (C : Int)
        rw [hs1, hw1]; omega
    rw [dif_pos hb]
    congr 1
    funext a
    refine Fin.ext ?_
    match a with
    | ⟨0, _⟩ =>
      show ((rowDims N C n wf).start (ix2 e p) idx 0 + (rowDims N C n wf).window (ix2 e p) 0).toNat = r.val
      rw [hs0, hw0, hr]; omega
    | ⟨1, _⟩ =>
      show ((rowDims N C n wf).start (ix2 e p) idx 1 + (rowDims N C n wf).window (ix2 e p) 1).toNat = p.val
      rw [hs1, hw1]; omega

/-- THE ROW SCATTER-ADD READ AT `(r, q)`: the operand's element plus the sum, over the update rows `e` whose row number read
    signed is `r`, of the update's element `(e, q)`. The update elements landing on `(r, q)` are exactly the `(e, q)` with
    row `e` numbered `r`, one for each such row: the sum over them is re-indexed by the row. -/
theorem scatterAdd_rows_apply {N C n w : Nat}
    (wf : ScatterDims.WF ⟨2, ![N, C]⟩ ⟨2, ![n, 1]⟩ ⟨2, ![n, C]⟩ [1] [0] [0] 1)
    (x : (⟨2, ![N, C]⟩ : Shape).Idx → EReal) (idx : IVec ⟨2, ![n, 1]⟩ w)
    (upd : (⟨2, ![n, C]⟩ : Shape).Idx → EReal) (r : Fin N) (q : Fin C) :
    Ideal.hostScatterAdd (rowDims N C n wf) x idx upd (ix2 r q)
      = x (ix2 r q) + ∑ e ∈ Finset.univ.filter (fun e : Fin n => (idx (ix2 e (0 : Fin 1))).toInt = (r.val : Int)),
          upd (ix2 e q) := by
  unfold Ideal.hostScatterAdd
  congr 1
  symm
  refine Finset.sum_nbij' (fun e : Fin n => ix2 e q) (fun j => (j 0 : Fin n)) ?_ ?_ ?_ ?_ ?_
  · intro e he
    rw [Finset.mem_filter] at he ⊢
    exact ⟨Finset.mem_univ _, (resultIdx?_eq_some_iff wf idx e q r q).mpr ⟨he.2, rfl⟩⟩
  · intro j hj
    obtain ⟨e, p, rfl⟩ : ∃ (e : Fin n) (p : Fin C), j = ix2 e p := ⟨j 0, j 1, eq_ix2 j⟩
    rw [Finset.mem_filter] at hj
    exact Finset.mem_filter.mpr ⟨Finset.mem_univ e, ((resultIdx?_eq_some_iff wf idx e p r q).mp hj.2).1⟩
  · intro e _
    rfl
  · intro j hj
    obtain ⟨e, p, rfl⟩ : ∃ (e : Fin n) (p : Fin C), j = ix2 e p := ⟨j 0, j 1, eq_ix2 j⟩
    rw [Finset.mem_filter] at hj
    have hpq := ((resultIdx?_eq_some_iff wf idx e p r q).mp hj.2).2
    subst hpq
    rfl
  · intro e _
    rfl

end Idealize.ShloMosaic.RowScatter

end
-- ==== Proof.GatherSum.lean ====
/-
  A row scatter-add of a row gather is the sum, over the edges ending at a node, of the gathered rows.

  The edge list gives every edge a start number and an end number.  Gathering the rows of a table at the start numbers
  (each read signed and clamped into the table) and adding the gathered row of every edge onto the row its end number names
  (read signed; an end number outside the table drops the edge), from a table of zeros, leaves at node `r` and column `q`
  the sum over the edges ending at `r` of the table's entry at the edge's clamped start node and column `q`.
-/
import proofs.«408456_j58695023067297_3_alg».proof.Proof.Spec
import proofs.«408456_j58695023067297_3_alg».proof.Proof.LibRowGather
import proofs.«408456_j58695023067297_3_alg».proof.Proof.LibRowScatter

noncomputable section

namespace Cert.Gcn

open Idealize.ShloMosaic Idealize.ShloMosaic.ValueIdx

theorem scatter_gather_eq {C : ℕ}
    (wfS : ScatterDims.WF ⟨2, ![100000, C]⟩ ⟨2, ![3200000, 1]⟩ ⟨2, ![3200000, C]⟩ [1] [0] [0] 1)
    (wfG : GatherDims.WF ⟨2, ![100000, C]⟩ ⟨2, ![3200000, 1]⟩ ⟨2, ![3200000, C]⟩ [1] [0] [] [0] [] 1 ![1, C])
    (Z : Mat 100000 C) (hZ : ∀ i, Z i = 0) (dcol scol : IVec ⟨2, ![3200000, 1]⟩ 32) (hp : Mat 100000 C) :
    Ideal.hostScatterAdd (RowScatter.rowDims 100000 C 3200000 wfS) Z dcol
        (Host.gather (RowGather.rowDims 100000 C 3200000 wfG) hp scol)
      = gatherSum (fun e => scol (ix2 e (0 : Fin 1))) (fun e => dcol (ix2 e (0 : Fin 1))) hp := by
  funext i
  obtain ⟨r, q, rfl⟩ : ∃ (r : Fin 100000) (q : Fin C), i = ix2 r q := ⟨i 0, i 1, eq_ix2 i⟩
  rw [RowScatter.scatterAdd_rows_apply, hZ, zero_add, gatherSum_ix2]
  unfold edgeSum
  refine Finset.sum_congr rfl fun e _ => ?_
  rw [RowGather.gather_rows_apply (by decide)]
  rfl

end Cert.Gcn

end
-- ==== Proof.KWalk.lean ====
/-
  The kernel program's result as one function of its argument arrays.

  The program runs four tiled passes among stretches of whole-array operations.  Given what each pass leaves in its output
  array as a function of the arrays it reads (the four hypotheses `hf0 … hf3`), the contents of every buffer at every
  boundary between stretches and passes are followed from the launch memory to the result: the per-node factor `dinv`, the
  two rows of the edge list and the parameters are written once before the first pass and never again; the first pass
  scales the product of the features with the first weight; the edges' gathered rows are added up per end node; the second
  pass combines; the third scales the next product; the rows are gathered and added up again; the fourth pass combines and
  applies the head.
-/
import proofs.«408456_j58695023067297_3_alg».proof.Proof.Gen.KernelIdeal.Frame
import proofs.«408456_j58695023067297_3_alg».proof.Proof.Spec
import proofs.«408456_j58695023067297_3_alg».proof.Proof.GatherSum
import Idealize.ShloMosaic.Lib.StableHlo.Run
import Idealize.ShloMosaic.Lib.Pipeline.Value
import Idealize.ShloMosaic.Lib.ValueIdx
import Idealize.ShloMosaic.PureOps.Ideal.Laws

set_option maxRecDepth 16384

noncomputable section

namespace Cert.KernelIdeal.KValue

open Cert.KernelIdeal Cert.KernelIdeal.Gen Cert.Gcn
open Idealize.ShloMosaic Idealize.ShloMosaic.TcCoe Idealize.ShloMosaic.ValueIdx Idealize.ShloMosaic.StableHlo
open Idealize.SL.Sem
open Idealize.ShloMosaic.Pipeline (Dat Cfg Window)

variable (m : (ℓ : Loc nD τ sig) → Buf (Elt Ideal) ℓ) (ρ : Dev nD → PrngReg)

/-! ## A pass leaves every array but its output as it found it -/

theorem keep0 (c : Dev nD) (b : Ref sig .tc) (hb : b ≠ main_v12) :
    W2 m ρ c (Proc.devRef .tc b) = W1 m ρ c (Proc.devRef .tc b) := by
  by_cases h0 : b = main_arg0
  · subst h0; exact (W2_arr m ρ c 0).trans (((dat0 (V1 m ρ) c).arrAt_in 0 rfl _).trans (A_eq0 (V1 m ρ) c 0))
  by_cases h1 : b = main_arg2
  · subst h1; exact (W2_arr m ρ c 1).trans (((dat0 (V1 m ρ) c).arrAt_in 1 rfl _).trans (A_eq0 (V1 m ρ) c 1))
  by_cases h2 : b = main_v11
  · subst h2; exact (W2_arr m ρ c 2).trans (((dat0 (V1 m ρ) c).arrAt_in 2 rfl _).trans (A_eq0 (V1 m ρ) c 2))
  refine W2_of_ne m ρ c b fun w => ?_
  match w with
  | ⟨0, _⟩ => exact fun e => h0 e.symm
  | ⟨1, _⟩ => exact fun e => h1 e.symm
  | ⟨2, _⟩ => exact fun e => h2 e.symm
  | ⟨3, _⟩ => exact fun e => hb e.symm

theorem keep1 (c : Dev nD) (b : Ref sig .tc) (hb : b ≠ main_v18) :
    W5 m ρ c (Proc.devRef .tc b) = W4 m ρ c (Proc.devRef .tc b) := by
  by_cases h0 : b = main_v16
  · subst h0; exact (W5_arr m ρ c 0).trans (((dat1 (V4 m ρ) c).arrAt_in 0 rfl _).trans (A_eq1 (V4 m ρ) c 0))
  by_cases h1 : b = main_v12
  · subst h1; exact (W5_arr m ρ c 1).trans (((dat1 (V4 m ρ) c).arrAt_in 1 rfl _).trans (A_eq1 (V4 m ρ) c 1))
  by_cases h2 : b = main_v11
  · subst h2; exact (W5_arr m ρ c 2).trans (((dat1 (V4 m ρ) c).arrAt_in 2 rfl _).trans (A_eq1 (V4 m ρ) c 2))
  by_cases h3 : b = main_v17
  · subst h3; exact (W5_arr m ρ c 3).trans (((dat1 (V4 m ρ) c).arrAt_in 3 rfl _).trans (A_eq1 (V4 m ρ) c 3))
  refine W5_of_ne m ρ c b fun w => ?_
  match w with
  | ⟨0, _⟩ => exact fun e => h0 e.symm
  | ⟨1, _⟩ => exact fun e => h1 e.symm
  | ⟨2, _⟩ => exact fun e => h2 e.symm
  | ⟨3, _⟩ => exact fun e => h3 e.symm
  | ⟨4, _⟩ => exact fun e => hb e.symm

theorem keep2 (c : Dev nD) (b : Ref sig .tc) (hb : b ≠ main_v19) :
    W6 m ρ c (Proc.devRef .tc b) = W5 m ρ c (Proc.devRef .tc b) := by
  by_cases h0 : b = main_v18
  · subst h0; exact (W6_arr m ρ c 0).trans (((dat2 (V5 m ρ) c).arrAt_in 0 rfl _).trans (A_eq2 (V5 m ρ) c 0))
  by_cases h1 : b = main_arg4
  · subst h1; exact (W6_arr m ρ c 1).trans (((dat2 (V5 m ρ) c).arrAt_in 1 rfl _).trans (A_eq2 (V5 m ρ) c 1))
  by_cases h2 : b = main_v11
  · subst h2; exact (W6_arr m ρ c 2).trans (((dat2 (V5 m ρ) c).arrAt_in 2 rfl _).trans (A_eq2 (V5 m ρ) c 2))
  refine W6_of_ne m ρ c b fun w => ?_
  match w with
  | ⟨0, _⟩ => exact fun e => h0 e.symm
  | ⟨1, _⟩ => exact fun e => h1 e.symm
  | ⟨2, _⟩ => exact fun e => h2 e.symm
  | ⟨3, _⟩ => exact fun e => hb e.symm

/-! ## The whole-array stretches between the passes -/

/-- Opens the literal operation lists and reads a buffer after a stretch: an operation's result at its own buffer, any
    other buffer as it was. -/
macro "host_walk" : tactic =>
  `(tactic| (dsimp only [hostOps0, hostOps1, hostOps1_1, hostOps3, hostOps3_1, hostOps4]; after_results))

/-- Before the first pass nothing writes an argument. -/
theorem W1_arg0 (c : Dev nD) : W1 m ρ c (Proc.devRef .tc main_arg0) = m ((c : Thread nD τ).loc main_arg0) := by
  show StableHlo.after hostOps0 (W0 m ρ c) (Proc.devRef .tc main_arg0) = _
  host_walk
theorem W1_arg2 (c : Dev nD) : W1 m ρ c (Proc.devRef .tc main_arg2) = m ((c : Thread nD τ).loc main_arg2) := by
  show StableHlo.after hostOps0 (W0 m ρ c) (Proc.devRef .tc main_arg2) = _
  host_walk
theorem W1_arg3 (c : Dev nD) : W1 m ρ c (Proc.devRef .tc main_arg3) = m ((c : Thread nD τ).loc main_arg3) := by
  show StableHlo.after hostOps0 (W0 m ρ c) (Proc.devRef .tc main_arg3) = _
  host_walk
theorem W1_arg4 (c : Dev nD) : W1 m ρ c (Proc.devRef .tc main_arg4) = m ((c : Thread nD τ).loc main_arg4) := by
  show StableHlo.after hostOps0 (W0 m ρ c) (Proc.devRef .tc main_arg4) = _
  host_walk
theorem W1_arg5 (c : Dev nD) : W1 m ρ c (Proc.devRef .tc main_arg5) = m ((c : Thread nD τ).loc main_arg5) := by
  show StableHlo.after hostOps0 (W0 m ρ c) (Proc.devRef .tc main_arg5) = _
  host_walk
theorem W1_arg6 (c : Dev nD) : W1 m ρ c (Proc.devRef .tc main_arg6) = m ((c : Thread nD τ).loc main_arg6) := by
  show StableHlo.after hostOps0 (W0 m ρ c) (Proc.devRef .tc main_arg6) = _
  host_walk
theorem W1_arg7 (c : Dev nD) : W1 m ρ c (Proc.devRef .tc main_arg7) = m ((c : Thread nD τ).loc main_arg7) := by
  show StableHlo.after hostOps0 (W0 m ρ c) (Proc.devRef .tc main_arg7) = _
  host_walk

/-- Between the first and the second pass: the gathered rows added up per end node. -/
theorem W4_v16 (c : Dev nD) : W4 m ρ c (Proc.devRef .tc main_v16)
    = Host.scatterAdd (F := Ideal) scatter_S100000x64_S3200000x1_S3200000x64_1_0_0_1
        (broadcastInDim S100000x64 ![] bcast_S_S100000x64 (constant (F := Ideal) S_ .f32 0x00000000#32))
        (broadcastInDim S3200000x1 ![0] bcast_S3200000_S3200000x1_0 (W2 m ρ c (Proc.devRef .tc main_v3)))
        (Host.gather gather_S100000x64_S3200000x1_S3200000x64_1_0_n_n_0_1_164 (W2 m ρ c (Proc.devRef .tc main_v12))
          (broadcastInDim S3200000x1 ![0] bcast_S3200000_S3200000x1_0 (W2 m ρ c (Proc.devRef .tc main_v1)))) := by
  show StableHlo.after hostOps1_1 (StableHlo.after hostOps1 (W2 m ρ c)) (Proc.devRef .tc main_v16) = _
  host_walk
  rfl

/-- The first layer's bias as a one-row table. -/
theorem W4_v17 (c : Dev nD) : W4 m ρ c (Proc.devRef .tc main_v17)
    = shapeCast S1x64 (W2 m ρ c (Proc.devRef .tc main_arg3)) shapeCasts_S64_S1x64 := by
  show StableHlo.after hostOps1_1 (StableHlo.after hostOps1 (W2 m ρ c)) (Proc.devRef .tc main_v17) = _
  host_walk
  rfl

/-- Between the third and the fourth pass: the gathered rows added up per end node again. -/
theorem W8_v23 (c : Dev nD) : W8 m ρ c (Proc.devRef .tc main_v23)
    = Host.scatterAdd (F := Ideal) scatter_S100000x32_S3200000x1_S3200000x32_1_0_0_1
        (broadcastInDim S100000x32 ![] bcast_S_S100000x32 (constant (F := Ideal) S_ .f32 0x00000000#32))
        (broadcastInDim S3200000x1 ![0] bcast_S3200000_S3200000x1_0 (W6 m ρ c (Proc.devRef .tc main_v3)))
        (Host.gather gather_S100000x32_S3200000x1_S3200000x32_1_0_n_n_0_1_132 (W6 m ρ c (Proc.devRef .tc main_v19))
          (broadcastInDim S3200000x1 ![0] bcast_S3200000_S3200000x1_0 (W6 m ρ c (Proc.devRef .tc main_v1)))) := by
  show StableHlo.after hostOps3_1 (StableHlo.after hostOps3 (W6 m ρ c)) (Proc.devRef .tc main_v23) = _
  host_walk
  rfl
theorem W8_v24 (c : Dev nD) : W8 m ρ c (Proc.devRef .tc main_v24)
    = shapeCast S1x32 (W6 m ρ c (Proc.devRef .tc main_arg5)) shapeCasts_S32_S1x32 := by
  show StableHlo.after hostOps3_1 (StableHlo.after hostOps3 (W6 m ρ c)) (Proc.devRef .tc main_v24) = _
  host_walk
  rfl
theorem W8_v25 (c : Dev nD) : W8 m ρ c (Proc.devRef .tc main_v25)
    = shapeCast S1x1 (W6 m ρ c (Proc.devRef .tc main_arg7)) shapeCasts_S1_S1x1 := by
  show StableHlo.after hostOps3_1 (StableHlo.after hostOps3 (W6 m ρ c)) (Proc.devRef .tc main_v25) = _
  host_walk
  rfl

/-- A buffer that the operations between the first and the second pass do not write keeps its contents. -/
theorem W4_same (c : Dev nD) (b : Ref sig .tc)
    (hb : b ∉ [main_call0_v0, main_v13, main_cst_2, main_v14, main_v15, main_v16, main_v17]) :
    W4 m ρ c (Proc.devRef .tc b) = W2 m ρ c (Proc.devRef .tc b) := by
  show StableHlo.after hostOps1_1 (StableHlo.after hostOps1 (W2 m ρ c)) (Proc.devRef .tc b) = _
  rw [StableHlo.after_of_writes_sub hostOps1_1 _ ?_ hb, StableHlo.after_of_writes_sub hostOps1 _ ?_ hb]
  all_goals
    simp only [hostOps1, hostOps1_1, List.Forall, StableHlo.nullary_writes, StableHlo.unary_writes,
      StableHlo.binary_writes, StableHlo.ternary_writes, StableHlo.reshape_writes, Finset.singleton_subset_iff,
      List.mem_toFinset]
    repeat' apply And.intro
    all_goals exact List.mem_map_of_mem (by decide)

/-- A buffer that the operations between the third and the fourth pass do not write keeps its contents. -/
theorem W8_same (c : Dev nD) (b : Ref sig .tc)
    (hb : b ∉ [main_call1_v0, main_v20, main_cst_3, main_v21, main_v22, main_v23, main_v24, main_v25]) :
    W8 m ρ c (Proc.devRef .tc b) = W6 m ρ c (Proc.devRef .tc b) := by
  show StableHlo.after hostOps3_1 (StableHlo.after hostOps3 (W6 m ρ c)) (Proc.devRef .tc b) = _
  rw [StableHlo.after_of_writes_sub hostOps3_1 _ ?_ hb, StableHlo.after_of_writes_sub hostOps3 _ ?_ hb]
  all_goals
    simp only [hostOps3, hostOps3_1, List.Forall, StableHlo.nullary_writes, StableHlo.unary_writes,
      StableHlo.binary_writes, StableHlo.ternary_writes, StableHlo.reshape_writes, Finset.singleton_subset_iff,
      List.mem_toFinset]
    repeat' apply And.intro
    all_goals exact List.mem_map_of_mem (by decide)

/-- A buffer written only before the first pass keeps its contents up to each later boundary. -/
theorem W4_to_W1 (c : Dev nD) (b : Ref sig .tc) (h0 : b ≠ main_v12)
    (h4 : b ∉ [main_call0_v0, main_v13, main_cst_2, main_v14, main_v15, main_v16, main_v17]) :
    W4 m ρ c (Proc.devRef .tc b) = W1 m ρ c (Proc.devRef .tc b) :=
  (W4_same m ρ c b h4).trans (keep0 m ρ c b h0)
theorem W5_to_W1 (c : Dev nD) (b : Ref sig .tc) (h0 : b ≠ main_v12)
    (h4 : b ∉ [main_call0_v0, main_v13, main_cst_2, main_v14, main_v15, main_v16, main_v17]) (h1 : b ≠ main_v18) :
    W5 m ρ c (Proc.devRef .tc b) = W1 m ρ c (Proc.devRef .tc b) :=
  (keep1 m ρ c b h1).trans (W4_to_W1 m ρ c b h0 h4)
theorem W6_to_W1 (c : Dev nD) (b : Ref sig .tc) (h0 : b ≠ main_v12)
    (h4 : b ∉ [main_call0_v0, main_v13, main_cst_2, main_v14, main_v15, main_v16, main_v17]) (h1 : b ≠ main_v18)
    (h2 : b ≠ main_v19) :
    W6 m ρ c (Proc.devRef .tc b) = W1 m ρ c (Proc.devRef .tc b) :=
  (keep2 m ρ c b h2).trans (W5_to_W1 m ρ c b h0 h4 h1)

/-- After the last pass the result is the last pass's one-column output, flattened. -/
theorem W10_v27 (c : Dev nD) : W10 m ρ c (Proc.devRef .tc main_v27)
    = shapeCast S100000 (W9 m ρ c (Proc.devRef .tc main_v26)) shapeCasts_S100000x1_S100000 := by
  show StableHlo.after hostOps4 (W9 m ρ c) (Proc.devRef .tc main_v27) = _
  host_walk
  rfl

/-! ## The arrays the passes read and write, and the result -/

section Main

variable (hf0 : ∀ (V : (c : Dev nD) → (b : Ref sig .tc) → Buf (Elt Ideal) ((c : Thread nD τ).loc b)) (c : Dev nD),
    (dat0 (F := Ideal) V c).arrAt 3 cfg0.N = scaledProd (V c main_arg0) (V c main_arg2) (V c main_v11))
variable (hf1 : ∀ (V : (c : Dev nD) → (b : Ref sig .tc) → Buf (Elt Ideal) ((c : Thread nD τ).loc b)) (c : Dev nD),
    (dat1 (F := Ideal) V c).arrAt 4 cfg1.N = combine (V c main_v16) (V c main_v12) (V c main_v11) (V c main_v17))
variable (hf2 : ∀ (V : (c : Dev nD) → (b : Ref sig .tc) → Buf (Elt Ideal) ((c : Thread nD τ).loc b)) (c : Dev nD),
    (dat2 (F := Ideal) V c).arrAt 3 cfg2.N = scaledProd (V c main_v18) (V c main_arg4) (V c main_v11))
variable (hf3 : ∀ (V : (c : Dev nD) → (b : Ref sig .tc) → Buf (Elt Ideal) ((c : Thread nD τ).loc b)) (c : Dev nD),
    (dat3 (F := Ideal) V c).arrAt 6 cfg3.N
      = head (V c main_v23) (V c main_v19) (V c main_v11) (V c main_v24) (V c main_arg6) (V c main_v25))

/-- The per-node factor as a one-column table, as the operations before the first pass leave it. -/
def Dk (c : Dev nD) : Mat 100000 1 := W1 m ρ c (Proc.devRef .tc main_v11)
/-- The edges' start numbers and end numbers, as the gathers and scatters read them. -/
def srcK (c : Dev nD) : Fin 3200000 → BitVec 32 := fun e =>
  (broadcastInDim S3200000x1 ![0] bcast_S3200000_S3200000x1_0 (W1 m ρ c (Proc.devRef .tc main_v1)) : IVec S3200000x1 32) (ix2 e (0 : Fin 1))
def dstK (c : Dev nD) : Fin 3200000 → BitVec 32 := fun e =>
  (broadcastInDim S3200000x1 ![0] bcast_S3200000_S3200000x1_0 (W1 m ρ c (Proc.devRef .tc main_v3)) : IVec S3200000x1 32) (ix2 e (0 : Fin 1))
/-- The biases as one-row tables. -/
def B1 (c : Dev nD) : Mat 1 64 := shapeCast S1x64 (m ((c : Thread nD τ).loc main_arg3)) shapeCasts_S64_S1x64
def B2 (c : Dev nD) : Mat 1 32 := shapeCast S1x32 (m ((c : Thread nD τ).loc main_arg5)) shapeCasts_S32_S1x32
def Bfc (c : Dev nD) : Mat 1 1 := shapeCast S1x1 (m ((c : Thread nD τ).loc main_arg7)) shapeCasts_S1_S1x1
/-- The first pass's output, the second's, the third's and the fourth's. -/
def HP1 (c : Dev nD) : Mat 100000 64 :=
  scaledProd (m ((c : Thread nD τ).loc main_arg0)) (m ((c : Thread nD τ).loc main_arg2)) (Dk m ρ c)
def H1 (c : Dev nD) : Mat 100000 64 :=
  combine (gatherSum (srcK m ρ c) (dstK m ρ c) (HP1 m ρ c)) (HP1 m ρ c) (Dk m ρ c) (B1 m c)
def HP2 (c : Dev nD) : Mat 100000 32 := scaledProd (H1 m ρ c) (m ((c : Thread nD τ).loc main_arg4)) (Dk m ρ c)
def OUT (c : Dev nD) : Mat 100000 1 :=
  head (gatherSum (srcK m ρ c) (dstK m ρ c) (HP2 m ρ c)) (HP2 m ρ c) (Dk m ρ c) (B2 m c) (m ((c : Thread nD τ).loc main_arg6)) (Bfc m c)

include hf0 in
theorem v12_eq (c : Dev nD) : W2 m ρ c (Proc.devRef .tc main_v12) = HP1 m ρ c := by
  refine (W2_arr m ρ c 3).trans ((hf0 (V1 m ρ) c).trans ?_)
  show scaledProd (W1 m ρ c (Proc.devRef .tc main_arg0)) (W1 m ρ c (Proc.devRef .tc main_arg2)) (W1 m ρ c (Proc.devRef .tc main_v11)) = _
  rw [W1_arg0, W1_arg2]
  rfl

/-- A table of zeros. -/
theorem zeros64 (i : S100000x64.Idx) :
    broadcastInDim S100000x64 ![] bcast_S_S100000x64 (constant (F := Ideal) S_ .f32 0x00000000#32) i = 0 :=
  (broadcastInDim_apply _ bcast_S_S100000x64 _ i ix0 (fun a => a.elim0)).trans Ideal.ofBits_zero_f32
theorem zeros32 (i : S100000x32.Idx) :
    broadcastInDim S100000x32 ![] bcast_S_S100000x32 (constant (F := Ideal) S_ .f32 0x00000000#32) i = 0 :=
  (broadcastInDim_apply _ bcast_S_S100000x32 _ i ix0 (fun a => a.elim0)).trans Ideal.ofBits_zero_f32

include hf0 in
theorem v16_eq (c : Dev nD) : W4 m ρ c (Proc.devRef .tc main_v16) = gatherSum (srcK m ρ c) (dstK m ρ c) (HP1 m ρ c) := by
  rw [W4_v16, keep0 m ρ c main_v3 (by decide), keep0 m ρ c main_v1 (by decide), v12_eq m ρ hf0 c]
  exact scatter_gather_eq scatter_S100000x64_S3200000x1_S3200000x64_1_0_0_1.wf
    gather_S100000x64_S3200000x1_S3200000x64_1_0_n_n_0_1_164.wf _ zeros64 _ _ _

include hf0 hf1 in
theorem v18_eq (c : Dev nD) : W5 m ρ c (Proc.devRef .tc main_v18) = H1 m ρ c := by
  refine (W5_arr m ρ c 4).trans ((hf1 (V4 m ρ) c).trans ?_)
  show combine (W4 m ρ c (Proc.devRef .tc main_v16)) (W4 m ρ c (Proc.devRef .tc main_v12))
    (W4 m ρ c (Proc.devRef .tc main_v11)) (W4 m ρ c (Proc.devRef .tc main_v17)) = _
  rw [v16_eq m ρ hf0 c, W4_same m ρ c main_v12 (by decide), v12_eq m ρ hf0 c,
    W4_to_W1 m ρ c main_v11 (by decide) (by decide), W4_v17, keep0 m ρ c main_arg3 (by decide), W1_arg3]
  rfl

include hf0 hf1 hf2 in
theorem v19_eq (c : Dev nD) : W6 m ρ c (Proc.devRef .tc main_v19) = HP2 m ρ c := by
  refine (W6_arr m ρ c 3).trans ((hf2 (V5 m ρ) c).trans ?_)
  show scaledProd (W5 m ρ c (Proc.devRef .tc main_v18)) (W5 m ρ c (Proc.devRef .tc main_arg4))
    (W5 m ρ c (Proc.devRef .tc main_v11)) = _
  rw [v18_eq m ρ hf0 hf1 c, W5_to_W1 m ρ c main_arg4 (by decide) (by decide) (by decide), W1_arg4,
    W5_to_W1 m ρ c main_v11 (by decide) (by decide) (by decide)]
  rfl

include hf0 hf1 hf2 in
theorem v23_eq (c : Dev nD) : W8 m ρ c (Proc.devRef .tc main_v23) = gatherSum (srcK m ρ c) (dstK m ρ c) (HP2 m ρ c) := by
  rw [W8_v23, W6_to_W1 m ρ c main_v3 (by decide) (by decide) (by decide) (by decide),
    W6_to_W1 m ρ c main_v1 (by decide) (by decide) (by decide) (by decide), v19_eq m ρ hf0 hf1 hf2 c]
  exact scatter_gather_eq scatter_S100000x32_S3200000x1_S3200000x32_1_0_0_1.wf
    gather_S100000x32_S3200000x1_S3200000x32_1_0_n_n_0_1_132.wf _ zeros32 _ _ _

include hf0 hf1 hf2 hf3 in
theorem v26_eq (c : Dev nD) : W9 m ρ c (Proc.devRef .tc main_v26) = OUT m ρ c := by
  refine (W9_arr m ρ c 6).trans ((hf3 (V8 m ρ) c).trans ?_)
  show head (W8 m ρ c (Proc.devRef .tc main_v23)) (W8 m ρ c (Proc.devRef .tc main_v19))
    (W8 m ρ c (Proc.devRef .tc main_v11)) (W8 m ρ c (Proc.devRef .tc main_v24))
    (W8 m ρ c (Proc.devRef .tc main_arg6)) (W8 m ρ c (Proc.devRef .tc main_v25)) = _
  rw [v23_eq m ρ hf0 hf1 hf2 c, W8_same m ρ c main_v19 (by decide), v19_eq m ρ hf0 hf1 hf2 c,
    W8_same m ρ c main_v11 (by decide), W6_to_W1 m ρ c main_v11 (by decide) (by decide) (by decide) (by decide),
    W8_v24, W6_to_W1 m ρ c main_arg5 (by decide) (by decide) (by decide) (by decide), W1_arg5,
    W8_same m ρ c main_arg6 (by decide), W6_to_W1 m ρ c main_arg6 (by decide) (by decide) (by decide) (by decide), W1_arg6,
    W8_v25, W6_to_W1 m ρ c main_arg7 (by decide) (by decide) (by decide) (by decide), W1_arg7]
  rfl

include hf0 hf1 hf2 hf3 in
/-- THE RESULT: the fourth pass's one-column output, flattened. -/
theorem result_eq (c : Dev nD) : W10 m ρ c (Proc.devRef .tc main_v27)
    = shapeCast S100000 (OUT m ρ c) shapeCasts_S100000x1_S100000 := by
  rw [W10_v27, v26_eq m ρ hf0 hf1 hf2 hf3 c]

end Main

end Cert.KernelIdeal.KValue

end
-- ==== Proof.Region0.lean ====
/-
  The first layer's node table times its weight, every row scaled by the node's factor: the whole array the first
  matmul-and-scale region leaves, read off its twenty row blocks of 5000 nodes.
-/
import proofs.«408456_j58695023067297_3_alg».proof.Proof.Gen.KernelIdeal.Frame
import proofs.«408456_j58695023067297_3_alg».proof.Proof.Spec
import Idealize.ShloMosaic.Lib.Pipeline.Value
import Idealize.ShloMosaic.Lib.ValueIdx
import Idealize.ShloMosaic.PureOps.Ideal.Laws

noncomputable section

namespace Cert.KernelIdeal.Region0

open Cert.KernelIdeal Cert.KernelIdeal.Gen Idealize.ShloMosaic Idealize.ShloMosaic.TcCoe Idealize.SL.Sem
open Idealize.ShloMosaic.ValueIdx
open Idealize.ShloMosaic.Pipeline (Dat)

/-! ## The block's product at an index -/

/-- The left operand of the block's product is read at the output's row, -/
theorem lhs_row (i : S5000x64.Idx) (q : dot_S5000x128_S128x64_S5000x64_1_0_0_1_n_n.contr.Idx) :
    (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
/-- and at the summation index on its second axis; -/
theorem lhs_col (i : S5000x64.Idx) (q : dot_S5000x128_S128x64_S5000x64_1_0_0_1_n_n.contr.Idx) :
    (dot_S5000x128_S128x64_S5000x64_1_0_0_1_n_n.lhsIdx i q 1).val = (q ⟨0, by decide⟩).val :=
  dot_S5000x128_S128x64_S5000x64_1_0_0_1_n_n.lhsIdx_val_of_single rfl i q
/-- the right operand at the summation index on its first axis -/
theorem rhs_row (i : S5000x64.Idx) (q : dot_S5000x128_S128x64_S5000x64_1_0_0_1_n_n.contr.Idx) :
    (dot_S5000x128_S128x64_S5000x64_1_0_0_1_n_n.rhsIdx i q 0).val = (q ⟨0, by decide⟩).val :=
  dot_S5000x128_S128x64_S5000x64_1_0_0_1_n_n.rhsIdx_val_of_single rfl i q
/-- and at the output's column. -/
theorem rhs_col (i : S5000x64.Idx) (q : dot_S5000x128_S128x64_S5000x64_1_0_0_1_n_n.contr.Idx) :
    (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- What the body stores, at row `p` and column `q` of the block: row `p` of the node block against column `q` of the
    weight, times the row's factor. -/
theorem pay_ix2 (x0 : Vec Ideal S5000x128 .f32) (x1 : Vec Ideal S128x64 .f32) (x2 : Vec Ideal S5000x1 .f32)
    (p : Fin 5000) (q : Fin 64) :
    k0_pay1 x0 x1 x2 (ix2 p q) = (∑ j : Fin 128, x0 (ix2 p j) * x1 (ix2 j q)) * x2 (ix2 p (0 : Fin 1)) := by
  unfold k0_pay1
  rw [mulf_apply]
  refine congrArg₂ (· * ·) ?_ ?_
  · refine (Ideal.matmul_constant_zero_apply dot_S5000x128_S128x64_S5000x64_1_0_0_1_n_n none _ _ (ix2 p q)).trans ?_
    rw [← Equiv.sum_comp (ValueIdx.contrEquiv1 dot_S5000x128_S128x64_S5000x64_1_0_0_1_n_n 128 rfl rfl).symm]
    refine Finset.sum_congr rfl fun k _ => ?_
    have hk := ValueIdx.contrEquiv1_symm_val dot_S5000x128_S128x64_S5000x64_1_0_0_1_n_n 128 rfl rfl k
    have el : dot_S5000x128_S128x64_S5000x64_1_0_0_1_n_n.lhsIdx (ix2 p q)
        ((ValueIdx.contrEquiv1 dot_S5000x128_S128x64_S5000x64_1_0_0_1_n_n 128 rfl rfl).symm k) = ix2 p k :=
      funext fun a => Fin.ext (by
        match a with
        | ⟨0, _⟩ => exact lhs_row _ _
        | ⟨1, _⟩ => exact (lhs_col _ _).trans hk)
    have er : dot_S5000x128_S128x64_S5000x64_1_0_0_1_n_n.rhsIdx (ix2 p q)
        ((ValueIdx.contrEquiv1 dot_S5000x128_S128x64_S5000x64_1_0_0_1_n_n 128 rfl rfl).symm k) = ix2 k q :=
      funext fun a => Fin.ext (by
        match a with
        | ⟨0, _⟩ => exact (rhs_row _ _).trans hk
        | ⟨1, _⟩ => exact rhs_col _ _)
    rw [truncf_apply, truncf_apply, el, er]
  · rw [shapeCast_self]
    exact broadcastTo_apply x2 broadcasts_S5000x1_S5000x64 (ix2 p q) (ix2 p (0 : Fin 1)) (fun a => by
      match a with
      | ⟨0, _⟩ => rfl
      | ⟨1, _⟩ => rfl)

/-- A block whose row `p` is row `r` of the node table and of the factors, and whose weight is the whole weight, stores
    at row `p` what the scaled product has at row `r`. -/
theorem pay_of_rows (A0 : Cert.Gcn.Mat 100000 128) (A1 : Cert.Gcn.Mat 128 64) (A2 : Cert.Gcn.Mat 100000 1)
    (x0 : Vec Ideal S5000x128 .f32) (x1 : Vec Ideal S128x64 .f32) (x2 : Vec Ideal S5000x1 .f32)
    (r : Fin 100000) (p : Fin 5000) (q : Fin 64)
    (h0 : ∀ j : Fin 128, x0 (ix2 p j) = A0 (ix2 r j))
    (h1 : ∀ j : Fin 128, x1 (ix2 j q) = A1 (ix2 j q))
    (h2 : x2 (ix2 p (0 : Fin 1)) = A2 (ix2 r (0 : Fin 1))) :
    k0_pay1 x0 x1 x2 (ix2 p q) = Cert.Gcn.scaledProd A0 A1 A2 (ix2 r q) := by
  rw [pay_ix2, Cert.Gcn.scaledProd_ix2, h2]
  exact congrArg (· * A2 (ix2 r (0 : Fin 1))) (Finset.sum_congr rfl fun j _ => by rw [h0 j, h1 j])

/-! ## From the blocks to the array -/

variable (V : (c : Dev nD) → (b : Ref sig .tc) → Buf (Elt Ideal) ((c : Thread nD τ).loc b))

theorem zero_offsets : (![0, 0] : Fin 2 → Nat) = fun _ => 0 := funext fun a => by fin_cases a <;> rfl

/-- The block numbers over the grid: the node table's and the factors' row block is the output's, which is the grid
    point's own number; every column block, and the weight's only block, is the first. -/
theorem block_numbers : ∀ t : Fin cfg0.N,
    win0_0.index t (0 : Fin 2) = win0_3.index t (0 : Fin 2) ∧ win0_0.index t (1 : Fin 2) = 0
    ∧ win0_1.index t (0 : Fin 2) = 0 ∧ win0_1.index t (1 : Fin 2) = 0
    ∧ win0_2.index t (0 : Fin 2) = win0_3.index t (0 : Fin 2) ∧ win0_2.index t (1 : Fin 2) = 0
    ∧ win0_3.index t (0 : Fin 2) = t.val ∧ win0_3.index t (1 : Fin 2) = 0 ∧ t.val ≤ 19 :=
  (by decide +kernel : ∀ t : Fin grid0.N, _)

/-- What grid point `t` writes back is its block of the scaled product of the arrays the region finds. -/
theorem flushed_eq (c : Dev nD) (t : Fin cfg0.N) :
    (dat0 (F := Ideal) V c).flushed 3 t
      = ((cfg0.win 3).blk t).view.read (Elt Ideal) (Cert.Gcn.scaledProd (V c main_arg0) (V c main_arg2) (V c main_v11)) := by
  show (cfg0.win 3).cut (grid0.coords t) ((dat0 V c).after 3 t) = _
  rw [after0_3]
  unfold out0_3
  rw [View.canon_unit_zero zero_offsets]
  simp only [View.ld_unit_zero (S := S5000x128) zero_offsets, View.ld_unit_zero (S := S128x64) zero_offsets,
    View.ld_unit_zero (S := S5000x1) zero_offsets]
  obtain ⟨e00, e01, e10, e11, e20, e21, e30, e31, ht⟩ := block_numbers t
  funext j
  obtain ⟨p, q, rfl⟩ : ∃ (p : Fin 5000) (q : Fin 64), j = ix2 p q := ⟨j 0, j 1, eq_ix2 j⟩
  have hp : p.val < 5000 := p.isLt
  -- the block's row `p` is the array's row `t * 5000 + p`
  have hr : ((cfg0.win 3).blk t).view.emb (ix2 p q) = ix2 (⟨t.val * 5000 + p.val, by omega⟩ : Fin 100000) q :=
    funext fun a => Fin.ext (by
      match a with
      | ⟨0, _⟩ => show win0_3.index t (0 : Fin 2) * 5000 + 1 * p.val = t.val * 5000 + p.val; omega
      | ⟨1, _⟩ => show win0_3.index t (1 : Fin 2) * 64 + 1 * q.val = q.val; omega)
  have hx : (cfg0.win 3).xinj (grid0.coords t) (ix2 p q) = ix2 p q :=
    funext fun a => by match a with | ⟨0, _⟩ => rfl | ⟨1, _⟩ => rfl
  refine (congrArg (k0_pay1 (iblk0 V c 0 t) (iblk0 V c 1 t) (iblk0 V c 2 t)) hx).trans ?_
  refine (pay_of_rows (V c main_arg0) (V c main_arg2) (V c main_v11) (iblk0 V c 0 t) (iblk0 V c 1 t) (iblk0 V c 2 t)
    ⟨t.val * 5000 + p.val, by omega⟩ p q ?_ ?_ ?_).trans ?_
  · intro j
    show V c main_arg0 (((cfg0.win 0).blk t).view.emb (ix2 p j)) = _
    refine congrArg (V c main_arg0) (funext fun a => Fin.ext ?_)
    match a with
    | ⟨0, _⟩ => show win0_0.index t (0 : Fin 2) * 5000 + 1 * p.val = t.val * 5000 + p.val; omega
    | ⟨1, _⟩ => show win0_0.index t (1 : Fin 2) * 128 + 1 * j.val = j.val; omega
  · intro j
    show V c main_arg2 (((cfg0.win 1).blk t).view.emb (ix2 j q)) = _
    refine congrArg (V c main_arg2) (funext fun a => Fin.ext ?_)
    match a with
    | ⟨0, _⟩ => show win0_1.index t (0 : Fin 2) * 128 + 1 * j.val = j.val; omega
    | ⟨1, _⟩ => show win0_1.index t (1 : Fin 2) * 64 + 1 * q.val = q.val; omega
  · show V c main_v11 (((cfg0.win 2).blk t).view.emb (ix2 p (0 : Fin 1))) = _
    refine congrArg (V c main_v11) (funext fun a => Fin.ext ?_)
    match a with
    | ⟨0, _⟩ => show win0_2.index t (0 : Fin 2) * 5000 + 1 * p.val = t.val * 5000 + p.val; omega
    | ⟨1, _⟩ => show win0_2.index t (1 : Fin 2) * 1 + 1 * (0 : Fin 1).val = (0 : Fin 1).val; omega
  · exact (congrArg (Cert.Gcn.scaledProd (V c main_arg0) (V c main_arg2) (V c main_v11)) hr).symm

/-- An index of the array is in grid point `t`'s block iff each coordinate is in the block's range on its axis. -/
theorem mem_block (t : Fin cfg0.N) (i : S100000x64.Idx) :
    i ∈ ((cfg0.win 3).blk t).view.set ↔ ∀ a : Fin 2, win0_3.index t a * S5000x64.size a ≤ (i a).val
      ∧ (i a).val < win0_3.index t a * S5000x64.size a + S5000x64.size a := by
  show i ∈ ((View.whole main_v12).slice (win0_3.rect t)).set ↔ _
  rw [View.set_slice_whole, Rect.mem_set_unit]
  exact Iff.rfl

/-- Every block of twenty row blocks is some grid point's. -/
theorem block_onto : ∀ b : Fin 20, ∃ t : Fin cfg0.N, win0_3.index t = ![b.val, 0] :=
  (by decide +kernel : ∀ b : Fin 20, ∃ t : Fin grid0.N, win0_3.index t = ![b.val, 0])

/-- Row `r` of the array is in the block of row block `r / 5000`: the blocks cover the array. -/
theorem cover (i : S100000x64.Idx) :
    ∃ t : Fin cfg0.N, (cfg0.win 3).flush t = true ∧ i ∈ ((cfg0.win 3).blk t).view.set := by
  have hi0 : (i 0).val < 100000 := (i 0).isLt
  have hi1 : (i 1).val < 64 := (i 1).isLt
  obtain ⟨t, ht⟩ := block_onto ⟨(i 0).val / 5000, by omega⟩
  have q0 : win0_3.index t (0 : Fin 2) = (i 0).val / 5000 := congrFun ht 0
  have q1 : win0_3.index t (1 : Fin 2) = 0 := congrFun ht 1
  refine ⟨t, flush0_3 t, ?_⟩
  rw [mem_block]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 64 ≤ (i 1).val ∧ (i 1).val < win0_3.index t (1 : Fin 2) * 64 + 64; omega

/-- THE ARRAY the region leaves: the node table times the weight, every row scaled by its node's factor. -/
theorem final0 (c : Dev nD) :
    (dat0 (F := Ideal) V c).arrAt 3 cfg0.N = Cert.Gcn.scaledProd (V c main_arg0) (V c main_arg2) (V c main_v11) :=
  (dat0 (F := Ideal) V c).arrAt_eq_of_cover 3 (Cert.Gcn.scaledProd (V c main_arg0) (V c main_arg2) (V c main_v11))
    (fun t _ => flushed_eq V c t) cover

end Cert.KernelIdeal.Region0

end
-- ==== Proof.Region1.lean ====
/-
  The first combine region of the kernel, as one function of whole tables: the region's grid walks twenty row blocks of
  5000 rows; at each point the body reads the point's blocks of the edge sums `s`, of the node's own scaled rows `h'`,
  of the per-node factors `d`, and the whole bias row `b`, and stores `max (d · (s + h') + b) 0` into the point's
  block of the output.  Read index by index that payload is `Cert.Gcn.combine` of the four tables at the block's place in
  the table; the twenty blocks cover the table, so after the region the output table is `combine s h' d b`.
-/
import proofs.«408456_j58695023067297_3_alg».proof.Proof.Gen.KernelIdeal.Frame
import proofs.«408456_j58695023067297_3_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.Gcn.Region1

open Cert.Gcn Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-! ## The payload at an index -/

/-- A column `[a, 1]` broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The body's payload at row `p`, column `q` of a block: the row's factor times the sum of the two tables' entries,
    plus the bias of the column, cut off below at zero. -/
theorem pay_ix2 (v0 : Vec Ideal S5000x1 .f32) (v2 v4 : Vec Ideal S5000x64 .f32) (v9 : Vec Ideal S1x64 .f32)
    (p : Fin 5000) (q : Fin 64) :
    k1_pay1 (F := Ideal) v0 v2 v4 v9 (ix2 p q)
      = max (v0 (ix2 p (0 : Fin 1)) * (v2 (ix2 p q) + v4 (ix2 p q)) + v9 (ix2 (0 : Fin 1) q)) 0 := by
  unfold k1_pay1
  simp only [shapeCast_self]
  rw [maximumf_apply, addf_apply, mulf_apply, addf_apply, broadcast_apply, broadcastTo_1b_ab_apply,
    broadcastTo_a1_ab_apply]
  exact congrArg (max _) Ideal.ofBits_zero_f32

/-- The same at any index of the block, read through its two coordinates. -/
theorem pay_at (v0 : Vec Ideal S5000x1 .f32) (v2 v4 : Vec Ideal S5000x64 .f32) (v9 : Vec Ideal S1x64 .f32)
    (j : S5000x64.Idx) :
    k1_pay1 (F := Ideal) v0 v2 v4 v9 j
      = max (v0 (ix2 (j 0) (0 : Fin 1)) * (v2 j + v4 j) + v9 (ix2 (0 : Fin 1) (j 1))) 0 := by
  obtain ⟨p, q, rfl⟩ : ∃ (p : Fin 5000) (q : Fin 64), j = ix2 p q := ⟨j 0, j 1, eq_ix2 j⟩
  exact pay_ix2 v0 v2 v4 v9 p q

/-- The payload of four blocks at a block index is `combine` of four tables at an array index, when each block's entry
    the payload reads is the table's entry `combine` reads. -/
theorem pay_eq_combine (s hp : Mat 100000 64) (d : Mat 100000 1) (b : Mat 1 64)
    (x0 x1 : Vec Ideal S5000x64 .f32) (x2 : Vec Ideal S5000x1 .f32) (x3 : Vec Ideal S1x64 .f32)
    (j : S5000x64.Idx) (i : S100000x64.Idx)
    (h0 : x0 j = s i) (h1 : x1 j = hp i) (h2 : x2 (ix2 (j 0) (0 : Fin 1)) = d (ix2 (i 0) (0 : Fin 1)))
    (h3 : x3 (ix2 (0 : Fin 1) (j 1)) = b (ix2 (0 : Fin 1) (i 1))) :
    k1_pay1 (F := Ideal) x2 x0 x1 x3 j = combine s hp d b i := by
  rw [pay_at, h0, h1, h2, h3]
  rfl

/-! ## The blocks of the windows -/

theorem zeros : (![0, 0] : Fin 2 → Nat) = fun _ => 0 :=
  funext fun a => match a with | ⟨0, _⟩ => rfl | ⟨1, _⟩ => rfl

/-- The index maps over the grid: the three row-blocked inputs and the output are at row block `t`, column block `0`;
    the bias is at block `(0, 0)` at every point. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- An entry of the block of the first table at point `t` is the table's entry at the block's offset plus the entry's
    place in the block. -/
theorem blk_s (c : Dev nD) (t : Fin cfg1.N) (x : S5000x64.Idx) (k : S100000x64.Idx)
    (hk0 : (k 0).val = win1_0.index t (0 : Fin 2) * 5000 + (x 0).val)
    (hk1 : (k 1).val = win1_0.index t (1 : Fin 2) * 64 + (x 1).val) :
    (iblk1 V c 0 t : Vec Ideal S5000x64 .f32) x = (V c main_v16 : S100000x64.Idx → EReal) k := by
  unfold iblk1
  rw [View.read_apply]
  show V c main_v16 _ = V c main_v16 _
  congr 1
  funext a
  apply Fin.ext
  match a with
  | ⟨0, _⟩ => show win1_0.index t (0 : Fin 2) * 5000 + 1 * (x 0).val = (k 0).val; omega
  | ⟨1, _⟩ => show win1_0.index t (1 : Fin 2) * 64 + 1 * (x 1).val = (k 1).val; omega

theorem blk_hp (c : Dev nD) (t : Fin cfg1.N) (x : S5000x64.Idx) (k : S100000x64.Idx)
    (hk0 : (k 0).val = win1_1.index t (0 : Fin 2) * 5000 + (x 0).val)
    (hk1 : (k 1).val = win1_1.index t (1 : Fin 2) * 64 + (x 1).val) :
    (iblk1 V c 1 t : Vec Ideal S5000x64 .f32) x = (V c main_v12 : S100000x64.Idx → EReal) k := by
  unfold iblk1
  rw [View.read_apply]
  show V c main_v12 _ = V c main_v12 _
  congr 1
  funext a
  apply Fin.ext
  match a with
  | ⟨0, _⟩ => show win1_1.index t (0 : Fin 2) * 5000 + 1 * (x 0).val = (k 0).val; omega
  | ⟨1, _⟩ => show win1_1.index t (1 : Fin 2) * 64 + 1 * (x 1).val = (k 1).val; omega

theorem blk_d (c : Dev nD) (t : Fin cfg1.N) (x : S5000x1.Idx) (k : S100000x1.Idx)
    (hk0 : (k 0).val = win1_2.index t (0 : Fin 2) * 5000 + (x 0).val)
    (hk1 : (k 1).val = win1_2.index t (1 : Fin 2) * 1 + (x 1).val) :
    (iblk1 V c 2 t : Vec Ideal S5000x1 .f32) x = (V c main_v11 : S100000x1.Idx → EReal) k := by
  unfold iblk1
  rw [View.read_apply]
  show V c main_v11 _ = V c main_v11 _
  congr 1
  funext a
  apply Fin.ext
  match a with
  | ⟨0, _⟩ => show win1_2.index t (0 : Fin 2) * 5000 + 1 * (x 0).val = (k 0).val; omega
  | ⟨1, _⟩ => show win1_2.index t (1 : Fin 2) * 1 + 1 * (x 1).val = (k 1).val; omega

theorem blk_b (c : Dev nD) (t : Fin cfg1.N) (x : S1x64.Idx) (k : S1x64.Idx)
    (hk0 : (k 0).val = win1_3.index t (0 : Fin 2) * 1 + (x 0).val)
    (hk1 : (k 1).val = win1_3.index t (1 : Fin 2) * 64 + (x 1).val) :
    (iblk1 V c 3 t : Vec Ideal S1x64 .f32) x = (V c main_v17 : S1x64.Idx → EReal) k := by
  unfold iblk1
  rw [View.read_apply]
  show V c main_v17 _ = V c main_v17 _
  congr 1
  funext a
  apply Fin.ext
  match a with
  | ⟨0, _⟩ => show win1_3.index t (0 : Fin 2) * 1 + 1 * (x 0).val = (k 0).val; omega
  | ⟨1, _⟩ => show win1_3.index t (1 : Fin 2) * 64 + 1 * (x 1).val = (k 1).val; omega

/-! ## What a point writes back, the cover, the array -/

/-- The whole output table: `combine` of the four input tables as the region finds them. -/
abbrev G (c : Dev nD) : Mat 100000 64 :=
  combine (V c main_v16) (V c main_v12) (V c main_v11) (V c main_v17)

/-- What point `t` writes back is block `t` of `combine` of the four tables. -/
theorem flushed_eq (c : Dev nD) (t : Fin cfg1.N) :
    (dat1 (F := Ideal) V c).flushed 4 t = ((cfg1.win 4).blk t).view.read (Elt Ideal) (G V c) := by
  show (cfg1.win 4).cut (grid1.coords t) ((dat1 V c).after 4 t) = _
  rw [after1_4]
  unfold out1_4
  rw [View.canon_unit_zero zeros]
  simp only [View.ld_unit_zero (S := S5000x64) zeros, View.ld_unit_zero (S := S5000x1) zeros,
    View.ld_unit_zero (S := S1x64) zeros]
  obtain ⟨e00, e01, e10, e11, e20, e21, e30, e31, e40, e41⟩ := idx_facts t
  funext j
  show k1_pay1 (F := Ideal) (iblk1 V c 2 t) (iblk1 V c 0 t) (iblk1 V c 1 t) (iblk1 V c 3 t) j
    = G V c (((cfg1.win 4).blk t).view.emb j)
  have hi0 : ((((cfg1.win 4).blk t).view.emb j) 0).val = win1_4.index t (0 : Fin 2) * 5000 + 1 * (j 0).val := rfl
  have hi1 : ((((cfg1.win 4).blk t).view.emb j) 1).val = win1_4.index t (1 : Fin 2) * 64 + 1 * (j 1).val := rfl
  refine pay_eq_combine _ _ _ _ _ _ _ _ j _ ?_ ?_ ?_ ?_
  · exact blk_s V c t j _ (by rw [hi0]; omega) (by rw [hi1]; omega)
  · exact blk_hp V c t j _ (by rw [hi0]; omega) (by rw [hi1]; omega)
  · exact blk_d V c t _ _ (by show _ = _ + (j 0).val; rw [hi0]; omega) (by show (0 : Nat) = _ + 0; omega)
  · exact blk_b V c t _ _ (by show (0 : Nat) = _ + 0; omega) (by show _ = _ + (j 1).val; rw [hi1]; omega)

/-- An index of the table is in point `t`'s block iff each coordinate is in the block's range on its axis. -/
theorem mem_blk (t : Fin cfg1.N) (i : S100000x64.Idx) :
    i ∈ ((cfg1.win 4).blk t).view.set ↔ ∀ a : Fin 2, win1_4.index t a * S5000x64.size a ≤ (i a).val
      ∧ (i a).val < win1_4.index t a * S5000x64.size a + S5000x64.size a := by
  show i ∈ ((View.whole main_v18).slice (win1_4.rect t)).set ↔ _
  rw [View.set_slice_whole, Rect.mem_set_unit]
  exact Iff.rfl

/-- Row `r` of the table is in the block of point `r / 5000`. -/
theorem cover (i : S100000x64.Idx) :
    ∃ t : Fin cfg1.N, (cfg1.win 4).flush t = true ∧ i ∈ ((cfg1.win 4).blk t).view.set := by
  have hi0 : (i 0).val < 100000 := (i 0).isLt
  have hi1 : (i 1).val < 64 := (i 1).isLt
  let t : Fin cfg1.N := ⟨(i 0).val / 5000, by show _ < 20; omega⟩
  obtain ⟨-, -, -, -, -, -, -, -, e40, e41⟩ := idx_facts t
  refine ⟨t, flush1_4 t, ?_⟩
  rw [mem_blk]
  intro a
  match a with
  | ⟨0, _⟩ =>
    show win1_4.index t (0 : Fin 2) * 5000 ≤ (i 0).val ∧ (i 0).val < win1_4.index t (0 : Fin 2) * 5000 + 5000
    rw [e40]; show (i 0).val / 5000 * 5000 ≤ (i 0).val ∧ (i 0).val < (i 0).val / 5000 * 5000 + 5000; omega
  | ⟨1, _⟩ =>
    show win1_4.index t (1 : Fin 2) * 64 ≤ (i 1).val ∧ (i 1).val < win1_4.index t (1 : Fin 2) * 64 + 64
    rw [e41]; omega

/-- After the region the output table is `combine` of the four input tables as the region found them. -/
theorem final1 (c : Dev nD) : (dat1 (F := Ideal) V c).arrAt 4 cfg1.N
    = combine (V c main_v16) (V c main_v12) (V c main_v11) (V c main_v17) :=
  (dat1 (F := Ideal) V c).arrAt_eq_of_cover 4 (G V c) (fun t _ => flushed_eq V c t) cover

end Cert.Gcn.Region1

end
-- ==== Proof.Region2.lean ====
/-
  The second layer's node table times its weight, every row scaled by the node's factor: the whole array the second
  matmul-and-scale region leaves, read off its twenty row blocks of 5000 nodes.
-/
import proofs.«408456_j58695023067297_3_alg».proof.Proof.Gen.KernelIdeal.Frame
import proofs.«408456_j58695023067297_3_alg».proof.Proof.Spec
import Idealize.ShloMosaic.Lib.Pipeline.Value
import Idealize.ShloMosaic.Lib.ValueIdx
import Idealize.ShloMosaic.PureOps.Ideal.Laws

noncomputable section

namespace Cert.KernelIdeal.Region2

open Cert.KernelIdeal Cert.KernelIdeal.Gen Idealize.ShloMosaic Idealize.ShloMosaic.TcCoe Idealize.SL.Sem
open Idealize.ShloMosaic.ValueIdx
open Idealize.ShloMosaic.Pipeline (Dat)

/-! ## The block's product at an index -/

/-- The left operand of the block's product is read at the output's row, -/
theorem lhs_row (i : S5000x32.Idx) (q : dot_S5000x64_S64x32_S5000x32_1_0_0_1_n_n.contr.Idx) :
    (dot_S5000x64_S64x32_S5000x32_1_0_0_1_n_n.lhsIdx i q 0).val = (i 0).val := by
  unfold DotDims.lhsIdx
  rw [dif_neg (show ¬(0 : Fin S5000x64.rank) ∈ dot_S5000x64_S64x32_S5000x32_1_0_0_1_n_n.lhsBatch by decide), dif_pos (show (0 : Fin S5000x64.rank) ∈ dot_S5000x64_S64x32_S5000x32_1_0_0_1_n_n.lhsNonContracting by decide)]
  rfl
/-- and at the summation index on its second axis; -/
theorem lhs_col (i : S5000x32.Idx) (q : dot_S5000x64_S64x32_S5000x32_1_0_0_1_n_n.contr.Idx) :
    (dot_S5000x64_S64x32_S5000x32_1_0_0_1_n_n.lhsIdx i q 1).val = (q ⟨0, by decide⟩).val :=
  dot_S5000x64_S64x32_S5000x32_1_0_0_1_n_n.lhsIdx_val_of_single rfl i q
/-- the right operand at the summation index on its first axis -/
theorem rhs_row (i : S5000x32.Idx) (q : dot_S5000x64_S64x32_S5000x32_1_0_0_1_n_n.contr.Idx) :
    (dot_S5000x64_S64x32_S5000x32_1_0_0_1_n_n.rhsIdx i q 0).val = (q ⟨0, by decide⟩).val :=
  dot_S5000x64_S64x32_S5000x32_1_0_0_1_n_n.rhsIdx_val_of_single rfl i q
/-- and at the output's column. -/
theorem rhs_col (i : S5000x32.Idx) (q : dot_S5000x64_S64x32_S5000x32_1_0_0_1_n_n.contr.Idx) :
    (dot_S5000x64_S64x32_S5000x32_1_0_0_1_n_n.rhsIdx i q 1).val = (i 1).val := by
  unfold DotDims.rhsIdx
  rw [dif_neg (show ¬(1 : Fin S64x32.rank) ∈ dot_S5000x64_S64x32_S5000x32_1_0_0_1_n_n.rhsBatch by decide), dif_pos (show (1 : Fin S64x32.rank) ∈ dot_S5000x64_S64x32_S5000x32_1_0_0_1_n_n.rhsNonContracting by decide)]
  rfl

/-- What the body stores, at row `p` and column `q` of the block: row `p` of the node block against column `q` of the
    weight, times the row's factor. -/
theorem pay_ix2 (x0 : Vec Ideal S5000x64 .f32) (x1 : Vec Ideal S64x32 .f32) (x2 : Vec Ideal S5000x1 .f32)
    (p : Fin 5000) (q : Fin 32) :
    k2_pay1 x0 x1 x2 (ix2 p q) = (∑ j : Fin 64, x0 (ix2 p j) * x1 (ix2 j q)) * x2 (ix2 p (0 : Fin 1)) := by
  unfold k2_pay1
  rw [mulf_apply]
  refine congrArg₂ (· * ·) ?_ ?_
  · refine (Ideal.matmul_constant_zero_apply dot_S5000x64_S64x32_S5000x32_1_0_0_1_n_n none _ _ (ix2 p q)).trans ?_
    rw [← Equiv.sum_comp (ValueIdx.contrEquiv1 dot_S5000x64_S64x32_S5000x32_1_0_0_1_n_n 64 rfl rfl).symm]
    refine Finset.sum_congr rfl fun k _ => ?_
    have hk := ValueIdx.contrEquiv1_symm_val dot_S5000x64_S64x32_S5000x32_1_0_0_1_n_n 64 rfl rfl k
    have el : dot_S5000x64_S64x32_S5000x32_1_0_0_1_n_n.lhsIdx (ix2 p q)
        ((ValueIdx.contrEquiv1 dot_S5000x64_S64x32_S5000x32_1_0_0_1_n_n 64 rfl rfl).symm k) = ix2 p k :=
      funext fun a => Fin.ext (by
        match a with
        | ⟨0, _⟩ => exact lhs_row _ _
        | ⟨1, _⟩ => exact (lhs_col _ _).trans hk)
    have er : dot_S5000x64_S64x32_S5000x32_1_0_0_1_n_n.rhsIdx (ix2 p q)
        ((ValueIdx.contrEquiv1 dot_S5000x64_S64x32_S5000x32_1_0_0_1_n_n 64 rfl rfl).symm k) = ix2 k q :=
      funext fun a => Fin.ext (by
        match a with
        | ⟨0, _⟩ => exact (rhs_row _ _).trans hk
        | ⟨1, _⟩ => exact rhs_col _ _)
    rw [truncf_apply, truncf_apply, shapeCast_self, el, er]
  · rw [shapeCast_self]
    exact broadcastTo_apply x2 broadcasts_S5000x1_S5000x32 (ix2 p q) (ix2 p (0 : Fin 1)) (fun a => by
      match a with
      | ⟨0, _⟩ => rfl
      | ⟨1, _⟩ => rfl)

/-- A block whose row `p` is row `r` of the node table and of the factors, and whose weight is the whole weight, stores
    at row `p` what the scaled product has at row `r`. -/
theorem pay_of_rows (A0 : Cert.Gcn.Mat 100000 64) (A1 : Cert.Gcn.Mat 64 32) (A2 : Cert.Gcn.Mat 100000 1)
    (x0 : Vec Ideal S5000x64 .f32) (x1 : Vec Ideal S64x32 .f32) (x2 : Vec Ideal S5000x1 .f32)
    (r : Fin 100000) (p : Fin 5000) (q : Fin 32)
    (h0 : ∀ j : Fin 64, x0 (ix2 p j) = A0 (ix2 r j))
    (h1 : ∀ j : Fin 64, x1 (ix2 j q) = A1 (ix2 j q))
    (h2 : x2 (ix2 p (0 : Fin 1)) = A2 (ix2 r (0 : Fin 1))) :
    k2_pay1 x0 x1 x2 (ix2 p q) = Cert.Gcn.scaledProd A0 A1 A2 (ix2 r q) := by
  rw [pay_ix2, Cert.Gcn.scaledProd_ix2, h2]
  exact congrArg (· * A2 (ix2 r (0 : Fin 1))) (Finset.sum_congr rfl fun j _ => by rw [h0 j, h1 j])

/-! ## From the blocks to the array -/

variable (V : (c : Dev nD) → (b : Ref sig .tc) → Buf (Elt Ideal) ((c : Thread nD τ).loc b))

theorem zero_offsets : (![0, 0] : Fin 2 → Nat) = fun _ => 0 := funext fun a => by fin_cases a <;> rfl

/-- The block numbers over the grid: the node table's and the factors' row block is the output's, which is the grid
    point's own number; every column block, and the weight's only block, is the first. -/
theorem block_numbers : ∀ t : Fin cfg2.N,
    win2_0.index t (0 : Fin 2) = win2_3.index t (0 : Fin 2) ∧ win2_0.index t (1 : Fin 2) = 0
    ∧ win2_1.index t (0 : Fin 2) = 0 ∧ win2_1.index t (1 : Fin 2) = 0
    ∧ win2_2.index t (0 : Fin 2) = win2_3.index t (0 : Fin 2) ∧ win2_2.index t (1 : Fin 2) = 0
    ∧ win2_3.index t (0 : Fin 2) = t.val ∧ win2_3.index t (1 : Fin 2) = 0 ∧ t.val ≤ 19 :=
  (by decide +kernel : ∀ t : Fin grid2.N, _)

/-- What grid point `t` writes back is its block of the scaled product of the arrays the region finds. -/
theorem flushed_eq (c : Dev nD) (t : Fin cfg2.N) :
    (dat2 (F := Ideal) V c).flushed 3 t
      = ((cfg2.win 3).blk t).view.read (Elt Ideal) (Cert.Gcn.scaledProd (V c main_v18) (V c main_arg4) (V c main_v11)) := by
  show (cfg2.win 3).cut (grid2.coords t) ((dat2 V c).after 3 t) = _
  rw [after2_3]
  unfold out2_3
  rw [View.canon_unit_zero zero_offsets]
  simp only [View.ld_unit_zero (S := S5000x64) zero_offsets, View.ld_unit_zero (S := S64x32) zero_offsets,
    View.ld_unit_zero (S := S5000x1) zero_offsets]
  obtain ⟨e00, e01, e10, e11, e20, e21, e30, e31, ht⟩ := block_numbers t
  funext j
  obtain ⟨p, q, rfl⟩ : ∃ (p : Fin 5000) (q : Fin 32), j = ix2 p q := ⟨j 0, j 1, eq_ix2 j⟩
  have hp : p.val < 5000 := p.isLt
  -- the block's row `p` is the array's row `t * 5000 + p`
  have hr : ((cfg2.win 3).blk t).view.emb (ix2 p q) = ix2 (⟨t.val * 5000 + p.val, by omega⟩ : Fin 100000) q :=
    funext fun a => Fin.ext (by
      match a with
      | ⟨0, _⟩ => show win2_3.index t (0 : Fin 2) * 5000 + 1 * p.val = t.val * 5000 + p.val; omega
      | ⟨1, _⟩ => show win2_3.index t (1 : Fin 2) * 32 + 1 * q.val = q.val; omega)
  have hx : (cfg2.win 3).xinj (grid2.coords t) (ix2 p q) = ix2 p q :=
    funext fun a => by match a with | ⟨0, _⟩ => rfl | ⟨1, _⟩ => rfl
  refine (congrArg (k2_pay1 (iblk2 V c 0 t) (iblk2 V c 1 t) (iblk2 V c 2 t)) hx).trans ?_
  refine (pay_of_rows (V c main_v18) (V c main_arg4) (V c main_v11) (iblk2 V c 0 t) (iblk2 V c 1 t) (iblk2 V c 2 t)
    ⟨t.val * 5000 + p.val, by omega⟩ p q ?_ ?_ ?_).trans ?_
  · intro j
    show V c main_v18 (((cfg2.win 0).blk t).view.emb (ix2 p j)) = _
    refine congrArg (V c main_v18) (funext fun a => Fin.ext ?_)
    match a with
    | ⟨0, _⟩ => show win2_0.index t (0 : Fin 2) * 5000 + 1 * p.val = t.val * 5000 + p.val; omega
    | ⟨1, _⟩ => show win2_0.index t (1 : Fin 2) * 64 + 1 * j.val = j.val; omega
  · intro j
    show V c main_arg4 (((cfg2.win 1).blk t).view.emb (ix2 j q)) = _
    refine congrArg (V c main_arg4) (funext fun a => Fin.ext ?_)
    match a with
    | ⟨0, _⟩ => show win2_1.index t (0 : Fin 2) * 64 + 1 * j.val = j.val; omega
    | ⟨1, _⟩ => show win2_1.index t (1 : Fin 2) * 32 + 1 * q.val = q.val; omega
  · show V c main_v11 (((cfg2.win 2).blk t).view.emb (ix2 p (0 : Fin 1))) = _
    refine congrArg (V c main_v11) (funext fun a => Fin.ext ?_)
    match a with
    | ⟨0, _⟩ => show win2_2.index t (0 : Fin 2) * 5000 + 1 * p.val = t.val * 5000 + p.val; omega
    | ⟨1, _⟩ => show win2_2.index t (1 : Fin 2) * 1 + 1 * (0 : Fin 1).val = (0 : Fin 1).val; omega
  · exact (congrArg (Cert.Gcn.scaledProd (V c main_v18) (V c main_arg4) (V c main_v11)) hr).symm

/-- An index of the array is in grid point `t`'s block iff each coordinate is in the block's range on its axis. -/
theorem mem_block (t : Fin cfg2.N) (i : S100000x32.Idx) :
    i ∈ ((cfg2.win 3).blk t).view.set ↔ ∀ a : Fin 2, win2_3.index t a * S5000x32.size a ≤ (i a).val
      ∧ (i a).val < win2_3.index t a * S5000x32.size a + S5000x32.size a := by
  show i ∈ ((View.whole main_v19).slice (win2_3.rect t)).set ↔ _
  rw [View.set_slice_whole, Rect.mem_set_unit]
  exact Iff.rfl

/-- Every block of twenty row blocks is some grid point's. -/
theorem block_onto : ∀ b : Fin 20, ∃ t : Fin cfg2.N, win2_3.index t = ![b.val, 0] :=
  (by decide +kernel : ∀ b : Fin 20, ∃ t : Fin grid2.N, win2_3.index t = ![b.val, 0])

/-- Row `r` of the array is in the block of row block `r / 5000`: the blocks cover the array. -/
theorem cover (i : S100000x32.Idx) :
    ∃ t : Fin cfg2.N, (cfg2.win 3).flush t = true ∧ i ∈ ((cfg2.win 3).blk t).view.set := by
  have hi0 : (i 0).val < 100000 := (i 0).isLt
  have hi1 : (i 1).val < 32 := (i 1).isLt
  obtain ⟨t, ht⟩ := block_onto ⟨(i 0).val / 5000, by omega⟩
  have q0 : win2_3.index t (0 : Fin 2) = (i 0).val / 5000 := congrFun ht 0
  have q1 : win2_3.index t (1 : Fin 2) = 0 := congrFun ht 1
  refine ⟨t, flush2_3 t, ?_⟩
  rw [mem_block]
  intro a
  match a with
  | ⟨0, _⟩ => show win2_3.index t (0 : Fin 2) * 5000 ≤ (i 0).val ∧ (i 0).val < win2_3.index t (0 : Fin 2) * 5000 + 5000; omega
  | ⟨1, _⟩ => show win2_3.index t (1 : Fin 2) * 32 ≤ (i 1).val ∧ (i 1).val < win2_3.index t (1 : Fin 2) * 32 + 32; omega

/-- THE ARRAY the region leaves: the node table times the weight, every row scaled by its node's factor. -/
theorem final2 (c : Dev nD) :
    (dat2 (F := Ideal) V c).arrAt 3 cfg2.N = Cert.Gcn.scaledProd (V c main_v18) (V c main_arg4) (V c main_v11) :=
  (dat2 (F := Ideal) V c).arrAt_eq_of_cover 3 (Cert.Gcn.scaledProd (V c main_v18) (V c main_arg4) (V c main_v11))
    (fun t _ => flushed_eq V c t) cover

end Cert.KernelIdeal.Region2

end
-- ==== Proof.Region3.lean ====
/-
  The second combine region of the kernel with its sigmoid head, as one function of whole tables: the region's grid walks
  twenty row blocks of 5000 rows; at each point the body reads the point's blocks of the edge sums `s`, of the nodes' own
  scaled rows `h'`, of the per-node factors `d`, and the whole bias row `b`, column weight `w` and its bias `c`, forms
  `max (d · (s + h') + b) 0`, multiplies its rows against `w`, adds `c`, applies the logistic function and stores the
  result into the point's block of the output column.  Read index by index that payload is `Cert.Gcn.head` of the six
  tables at the block's place in the column; the twenty blocks cover the column, so after the region the output column is
  `head s h' d b w c`.
-/
import proofs.«408456_j58695023067297_3_alg».proof.Proof.Gen.KernelIdeal.Frame
import proofs.«408456_j58695023067297_3_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.Gcn.Region3

open Cert.Gcn Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-! ## The payload at an index -/

/-- A column `[a, 1]` broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The left operand of the product with the column weight is read at the output's row … -/
theorem lhs_fc_0 (i : S5000x1.Idx) (q : dot_S5000x32_S32x1_S5000x1_1_0_0_1_n_n.contr.Idx) :
    (dot_S5000x32_S32x1_S5000x1_1_0_0_1_n_n.lhsIdx i q 0).val = (i 0).val := by
  unfold DotDims.lhsIdx
  rw [dif_neg (show ¬(0 : Fin S5000x32.rank) ∈ dot_S5000x32_S32x1_S5000x1_1_0_0_1_n_n.lhsBatch by decide), dif_pos (show (0 : Fin S5000x32.rank) ∈ dot_S5000x32_S32x1_S5000x1_1_0_0_1_n_n.lhsNonContracting by decide)]
  rfl
/-- … and at the summation index on its second axis; -/
theorem lhs_fc_1 (i : S5000x1.Idx) (q : dot_S5000x32_S32x1_S5000x1_1_0_0_1_n_n.contr.Idx) :
    (dot_S5000x32_S32x1_S5000x1_1_0_0_1_n_n.lhsIdx i q 1).val = (q ⟨0, by decide⟩).val :=
  dot_S5000x32_S32x1_S5000x1_1_0_0_1_n_n.lhsIdx_val_of_single rfl i q
/-- the right operand at the summation index on its first axis … -/
theorem rhs_fc_0 (i : S5000x1.Idx) (q : dot_S5000x32_S32x1_S5000x1_1_0_0_1_n_n.contr.Idx) :
    (dot_S5000x32_S32x1_S5000x1_1_0_0_1_n_n.rhsIdx i q 0).val = (q ⟨0, by decide⟩).val :=
  dot_S5000x32_S32x1_S5000x1_1_0_0_1_n_n.rhsIdx_val_of_single rfl i q
/-- … and at the output's column. -/
theorem rhs_fc_1 (i : S5000x1.Idx) (q : dot_S5000x32_S32x1_S5000x1_1_0_0_1_n_n.contr.Idx) :
    (dot_S5000x32_S32x1_S5000x1_1_0_0_1_n_n.rhsIdx i q 1).val = (i 1).val := by
  unfold DotDims.rhsIdx
  rw [dif_neg (show ¬(1 : Fin S32x1.rank) ∈ dot_S5000x32_S32x1_S5000x1_1_0_0_1_n_n.rhsBatch by decide), dif_pos (show (1 : Fin S32x1.rank) ∈ dot_S5000x32_S32x1_S5000x1_1_0_0_1_n_n.rhsNonContracting by decide)]
  rfl

/-- The matrix product into the zero accumulator, read at an index: the sum over the 32 columns of the left operand's
    row against the right operand's column. -/
theorem fc_apply (l : FVec Ideal S5000x32 .bf16) (r : FVec Ideal S32x1 .bf16) (i : S5000x1.Idx) :
    matmul dot_S5000x32_S32x1_S5000x1_1_0_0_1_n_n none l r (constant (F := Ideal) S5000x1 .f32 0x00000000#32) i
      = ∑ k : Fin 32, l (ix2 (i 0) k) * r (ix2 k (i 1)) := by
  simp only [matmul]
  rw [Ideal.matmul_constant_zero_apply, ← Equiv.sum_comp (ValueIdx.contrEquiv1 dot_S5000x32_S32x1_S5000x1_1_0_0_1_n_n 32 rfl rfl).symm]
  refine Finset.sum_congr rfl fun k _ => ?_
  have hk := ValueIdx.contrEquiv1_symm_val dot_S5000x32_S32x1_S5000x1_1_0_0_1_n_n 32 rfl rfl k
  have el : dot_S5000x32_S32x1_S5000x1_1_0_0_1_n_n.lhsIdx i ((ValueIdx.contrEquiv1 dot_S5000x32_S32x1_S5000x1_1_0_0_1_n_n 32 rfl rfl).symm k) = ix2 (i 0) k := funext fun a => Fin.ext (by
    match a with
    | ⟨0, _⟩ => exact lhs_fc_0 _ _
    | ⟨1, _⟩ => exact (lhs_fc_1 _ _).trans hk)
  have er : dot_S5000x32_S32x1_S5000x1_1_0_0_1_n_n.rhsIdx i ((ValueIdx.contrEquiv1 dot_S5000x32_S32x1_S5000x1_1_0_0_1_n_n 32 rfl rfl).symm k) = ix2 k (i 1) := funext fun a => Fin.ext (by
    match a with
    | ⟨0, _⟩ => exact (rhs_fc_0 _ _).trans hk
    | ⟨1, _⟩ => exact rhs_fc_1 _ _)
  exact congrArg₂ (· * ·) (congrArg l el) (congrArg r er)

/-- The cut-off combination of a block at row `p`, column `k`: the row's factor times the sum of the two tables'
    entries, plus the bias of the column, cut off below at zero. -/
theorem relu_ix2 (v0 : Vec Ideal S5000x1 .f32) (v2 v4 : Vec Ideal S5000x32 .f32) (v9 : Vec Ideal S1x32 .f32)
    (p : Fin 5000) (k : Fin 32) :
    maximumf (F := Ideal)
        (addf (mulf (broadcastTo S5000x32 v0 broadcasts_S5000x1_S5000x32) (addf v2 v4))
          (broadcastTo S5000x32 v9 broadcasts_S1x32_S5000x32))
        (broadcast S5000x32 (FloatOps.ofBits .f32 0x00000000#32)) (ix2 p k)
      = max (v0 (ix2 p (0 : Fin 1)) * (v2 (ix2 p k) + v4 (ix2 p k)) + v9 (ix2 (0 : Fin 1) k)) 0 := by
  rw [maximumf_apply, addf_apply, mulf_apply, addf_apply, broadcast_apply, broadcastTo_1b_ab_apply,
    broadcastTo_a1_ab_apply]
  exact congrArg (max _) Ideal.ofBits_zero_f32

/-- The body's payload at row `p` of a block: the logistic function of (the row of the cut-off combination against
    the column weight, plus the bias). -/
theorem pay_ix2 (v0 : Vec Ideal S5000x1 .f32) (v2 v4 : Vec Ideal S5000x32 .f32) (v9 : Vec Ideal S1x32 .f32)
    (v16 : Vec Ideal S32x1 .f32) (v19 : Vec Ideal S1x1 .f32) (p : Fin 5000) :
    k3_pay1 (F := Ideal) v0 v2 v4 v9 v16 v19 (ix2 p (0 : Fin 1))
      = Ideal.logistic ((∑ k : Fin 32,
            max (v0 (ix2 p (0 : Fin 1)) * (v2 (ix2 p k) + v4 (ix2 p k)) + v9 (ix2 (0 : Fin 1) k)) 0
              * v16 (ix2 k (0 : Fin 1)))
          + v19 (ix2 (0 : Fin 1) (0 : Fin 1))) := by
  unfold k3_pay1
  simp only [shapeCast_self]
  show Ideal.logistic (matmul dot_S5000x32_S32x1_S5000x1_1_0_0_1_n_n none _ _
      (constant (F := Ideal) S5000x1 .f32 0x00000000#32) (ix2 p (0 : Fin 1))
    + broadcastTo S5000x1 v19 broadcasts_S1x1_S5000x1 (ix2 p (0 : Fin 1))) = _
  rw [fc_apply, broadcastTo_1b_ab_apply]
  refine congrArg Ideal.logistic (congrArg (· + _) (Finset.sum_congr rfl fun k _ => ?_))
  exact congrArg (· * _) (relu_ix2 v0 v2 v4 v9 p k)

/-- The same at any index of the block, read through its row. -/
theorem pay_at (v0 : Vec Ideal S5000x1 .f32) (v2 v4 : Vec Ideal S5000x32 .f32) (v9 : Vec Ideal S1x32 .f32)
    (v16 : Vec Ideal S32x1 .f32) (v19 : Vec Ideal S1x1 .f32) (j : S5000x1.Idx) :
    k3_pay1 (F := Ideal) v0 v2 v4 v9 v16 v19 j
      = Ideal.logistic ((∑ k : Fin 32,
            max (v0 (ix2 (j 0) (0 : Fin 1)) * (v2 (ix2 (j 0) k) + v4 (ix2 (j 0) k)) + v9 (ix2 (0 : Fin 1) k)) 0
              * v16 (ix2 k (0 : Fin 1)))
          + v19 (ix2 (0 : Fin 1) (0 : Fin 1))) := by
  obtain ⟨p, q, rfl⟩ : ∃ (p : Fin 5000) (q : Fin 1), j = ix2 p q := ⟨j 0, j 1, eq_ix2 j⟩
  obtain rfl : q = 0 := Subsingleton.elim _ _
  exact pay_ix2 v0 v2 v4 v9 v16 v19 p

/-- The payload of six blocks at a block index is `head` of six tables at an array index, when each block's entries the
    payload reads are the tables' entries `head` reads. -/
theorem pay_eq_head (s hp : Mat 100000 32) (d : Mat 100000 1) (b : Mat 1 32) (wfc : Mat 32 1) (bfc : Mat 1 1)
    (x0 x1 : Vec Ideal S5000x32 .f32) (x2 : Vec Ideal S5000x1 .f32) (x3 : Vec Ideal S1x32 .f32)
    (x4 : Vec Ideal S32x1 .f32) (x5 : Vec Ideal S1x1 .f32) (j : S5000x1.Idx) (i : S100000x1.Idx)
    (h0 : ∀ k : Fin 32, x0 (ix2 (j 0) k) = s (ix2 (i 0) k))
    (h1 : ∀ k : Fin 32, x1 (ix2 (j 0) k) = hp (ix2 (i 0) k))
    (h2 : x2 (ix2 (j 0) (0 : Fin 1)) = d (ix2 (i 0) (0 : Fin 1)))
    (h3 : ∀ k : Fin 32, x3 (ix2 (0 : Fin 1) k) = b (ix2 (0 : Fin 1) k))
    (h4 : ∀ k : Fin 32, x4 (ix2 k (0 : Fin 1)) = wfc (ix2 k (0 : Fin 1)))
    (h5 : x5 (ix2 (0 : Fin 1) (0 : Fin 1)) = bfc (ix2 (0 : Fin 1) (0 : Fin 1))) :
    k3_pay1 (F := Ideal) x2 x0 x1 x3 x4 x5 j = head s hp d b wfc bfc i := by
  rw [pay_at, h2, h5]
  show _ = Ideal.logistic ((∑ k : Fin 32,
      max (d (ix2 (i 0) (0 : Fin 1)) * (s (ix2 (i 0) k) + hp (ix2 (i 0) k)) + b (ix2 (0 : Fin 1) k)) 0
        * wfc (ix2 k (0 : Fin 1))) + bfc (ix2 (0 : Fin 1) (0 : Fin 1)))
  refine congrArg Ideal.logistic (congrArg (· + _) (Finset.sum_congr rfl fun k _ => ?_))
  rw [h0, h1, h3, h4]

/-! ## The blocks of the windows -/

theorem zeros : (![0, 0] : Fin 2 → Nat) = fun _ => 0 :=
  funext fun a => match a with | ⟨0, _⟩ => rfl | ⟨1, _⟩ => rfl

/-- The index maps over the grid: the three row-blocked inputs and the output are at row block `t`, column block `0`;
    the bias row, the column weight and its bias are at block `(0, 0)` at every point. -/
theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = t.val ∧ win3_6.index t (1 : Fin 2) = 0 :=
  (by decide +kernel : ∀ t : Fin grid3.N, _)

/-- An entry of a window's block at point `t` is its table's entry at the block's offset plus the entry's place in the
    block: the edge sums, -/
theorem blk_s (c : Dev nD) (t : Fin cfg3.N) (x : S5000x32.Idx) (k : S100000x32.Idx)
    (hk0 : (k 0).val = win3_0.index t (0 : Fin 2) * 5000 + (x 0).val)
    (hk1 : (k 1).val = win3_0.index t (1 : Fin 2) * 32 + (x 1).val) :
    (iblk3 V c 0 t : Vec Ideal S5000x32 .f32) x = (V c main_v23 : S100000x32.Idx → EReal) k := by
  unfold iblk3
  rw [View.read_apply]
  show V c main_v23 _ = V c main_v23 _
  congr 1
  funext a
  apply Fin.ext
  match a with
  | ⟨0, _⟩ => show win3_0.index t (0 : Fin 2) * 5000 + 1 * (x 0).val = (k 0).val; omega
  | ⟨1, _⟩ => show win3_0.index t (1 : Fin 2) * 32 + 1 * (x 1).val = (k 1).val; omega

/-- the nodes' own scaled rows, -/
theorem blk_hp (c : Dev nD) (t : Fin cfg3.N) (x : S5000x32.Idx) (k : S100000x32.Idx)
    (hk0 : (k 0).val = win3_1.index t (0 : Fin 2) * 5000 + (x 0).val)
    (hk1 : (k 1).val = win3_1.index t (1 : Fin 2) * 32 + (x 1).val) :
    (iblk3 V c 1 t : Vec Ideal S5000x32 .f32) x = (V c main_v19 : S100000x32.Idx → EReal) k := by
  unfold iblk3
  rw [View.read_apply]
  show V c main_v19 _ = V c main_v19 _
  congr 1
  funext a
  apply Fin.ext
  match a with
  | ⟨0, _⟩ => show win3_1.index t (0 : Fin 2) * 5000 + 1 * (x 0).val = (k 0).val; omega
  | ⟨1, _⟩ => show win3_1.index t (1 : Fin 2) * 32 + 1 * (x 1).val = (k 1).val; omega

/-- the per-node factors, -/
theorem blk_d (c : Dev nD) (t : Fin cfg3.N) (x : S5000x1.Idx) (k : S100000x1.Idx)
    (hk0 : (k 0).val = win3_2.index t (0 : Fin 2) * 5000 + (x 0).val)
    (hk1 : (k 1).val = win3_2.index t (1 : Fin 2) * 1 + (x 1).val) :
    (iblk3 V c 2 t : Vec Ideal S5000x1 .f32) x = (V c main_v11 : S100000x1.Idx → EReal) k := by
  unfold iblk3
  rw [View.read_apply]
  show V c main_v11 _ = V c main_v11 _
  congr 1
  funext a
  apply Fin.ext
  match a with
  | ⟨0, _⟩ => show win3_2.index t (0 : Fin 2) * 5000 + 1 * (x 0).val = (k 0).val; omega
  | ⟨1, _⟩ => show win3_2.index t (1 : Fin 2) * 1 + 1 * (x 1).val = (k 1).val; omega

/-- the bias row, -/
theorem blk_b (c : Dev nD) (t : Fin cfg3.N) (x : S1x32.Idx) (k : S1x32.Idx)
    (hk0 : (k 0).val = win3_3.index t (0 : Fin 2) * 1 + (x 0).val)
    (hk1 : (k 1).val = win3_3.index t (1 : Fin 2) * 32 + (x 1).val) :
    (iblk3 V c 3 t : Vec Ideal S1x32 .f32) x = (V c main_v24 : S1x32.Idx → EReal) k := by
  unfold iblk3
  rw [View.read_apply]
  show V c main_v24 _ = V c main_v24 _
  congr 1
  funext a
  apply Fin.ext
  match a with
  | ⟨0, _⟩ => show win3_3.index t (0 : Fin 2) * 1 + 1 * (x 0).val = (k 0).val; omega
  | ⟨1, _⟩ => show win3_3.index t (1 : Fin 2) * 32 + 1 * (x 1).val = (k 1).val; omega

/-- the column weight, -/
theorem blk_w (c : Dev nD) (t : Fin cfg3.N) (x : S32x1.Idx) (k : S32x1.Idx)
    (hk0 : (k 0).val = win3_4.index t (0 : Fin 2) * 32 + (x 0).val)
    (hk1 : (k 1).val = win3_4.index t (1 : Fin 2) * 1 + (x 1).val) :
    (iblk3 V c 4 t : Vec Ideal S32x1 .f32) x = (V c main_arg6 : S32x1.Idx → EReal) k := by
  unfold iblk3
  rw [View.read_apply]
  show V c main_arg6 _ = V c main_arg6 _
  congr 1
  funext a
  apply Fin.ext
  match a with
  | ⟨0, _⟩ => show win3_4.index t (0 : Fin 2) * 32 + 1 * (x 0).val = (k 0).val; omega
  | ⟨1, _⟩ => show win3_4.index t (1 : Fin 2) * 1 + 1 * (x 1).val = (k 1).val; omega

/-- and the column weight's bias. -/
theorem blk_c (c : Dev nD) (t : Fin cfg3.N) (x : S1x1.Idx) (k : S1x1.Idx)
    (hk0 : (k 0).val = win3_5.index t (0 : Fin 2) * 1 + (x 0).val)
    (hk1 : (k 1).val = win3_5.index t (1 : Fin 2) * 1 + (x 1).val) :
    (iblk3 V c 5 t : Vec Ideal S1x1 .f32) x = (V c main_v25 : S1x1.Idx → EReal) k := by
  unfold iblk3
  rw [View.read_apply]
  show V c main_v25 _ = V c main_v25 _
  congr 1
  funext a
  apply Fin.ext
  match a with
  | ⟨0, _⟩ => show win3_5.index t (0 : Fin 2) * 1 + 1 * (x 0).val = (k 0).val; omega
  | ⟨1, _⟩ => show win3_5.index t (1 : Fin 2) * 1 + 1 * (x 1).val = (k 1).val; omega

/-! ## What a point writes back, the cover, the array -/

/-- The whole output column: `head` of the six input tables as the region finds them. -/
abbrev G (c : Dev nD) : Mat 100000 1 :=
  head (V c main_v23) (V c main_v19) (V c main_v11) (V c main_v24) (V c main_arg6) (V c main_v25)

/-- What point `t` writes back is block `t` of `head` of the six tables. -/
theorem flushed_eq (c : Dev nD) (t : Fin cfg3.N) :
    (dat3 (F := Ideal) V c).flushed 6 t = ((cfg3.win 6).blk t).view.read (Elt Ideal) (G V c) := by
  show (cfg3.win 6).cut (grid3.coords t) ((dat3 V c).after 6 t) = _
  rw [after3_6]
  unfold out3_6
  rw [View.canon_unit_zero zeros]
  simp only [View.ld_unit_zero (S := S5000x32) zeros, View.ld_unit_zero (S := S5000x1) zeros,
    View.ld_unit_zero (S := S1x32) zeros, View.ld_unit_zero (S := S32x1) zeros, View.ld_unit_zero (S := S1x1) zeros]
  obtain ⟨e00, e01, e10, e11, e20, e21, e30, e31, e40, e41, e50, e51, e60, e61⟩ := idx_facts t
  funext j
  show k3_pay1 (F := Ideal) (iblk3 V c 2 t) (iblk3 V c 0 t) (iblk3 V c 1 t) (iblk3 V c 3 t) (iblk3 V c 4 t)
      (iblk3 V c 5 t) j
    = G V c (((cfg3.win 6).blk t).view.emb j)
  have hi0 : ((((cfg3.win 6).blk t).view.emb j) 0).val = win3_6.index t (0 : Fin 2) * 5000 + 1 * (j 0).val := rfl
  refine pay_eq_head _ _ _ _ _ _ _ _ _ _ _ _ j _ (fun k => ?_) (fun k => ?_) ?_ (fun k => ?_) (fun k => ?_) ?_
  · exact blk_s V c t _ _ (by show _ = _ + (j 0).val; rw [hi0]; omega) (by show k.val = _ + k.val; omega)
  · exact blk_hp V c t _ _ (by show _ = _ + (j 0).val; rw [hi0]; omega) (by show k.val = _ + k.val; omega)
  · exact blk_d V c t _ _ (by show _ = _ + (j 0).val; rw [hi0]; omega) (by show (0 : Nat) = _ + 0; omega)
  · exact blk_b V c t _ _ (by show (0 : Nat) = _ + 0; omega) (by show k.val = _ + k.val; omega)
  · exact blk_w V c t _ _ (by show k.val = _ + k.val; omega) (by show (0 : Nat) = _ + 0; omega)
  · exact blk_c V c t _ _ (by show (0 : Nat) = _ + 0; omega) (by show (0 : Nat) = _ + 0; omega)

/-- An index of the column is in point `t`'s block iff each coordinate is in the block's range on its axis. -/
theorem mem_blk (t : Fin cfg3.N) (i : S100000x1.Idx) :
    i ∈ ((cfg3.win 6).blk t).view.set ↔ ∀ a : Fin 2, win3_6.index t a * S5000x1.size a ≤ (i a).val
      ∧ (i a).val < win3_6.index t a * S5000x1.size a + S5000x1.size a := by
  show i ∈ ((View.whole main_v26).slice (win3_6.rect t)).set ↔ _
  rw [View.set_slice_whole, Rect.mem_set_unit]
  exact Iff.rfl

/-- Row `r` of the column is in the block of point `r / 5000`. -/
theorem cover (i : S100000x1.Idx) :
    ∃ t : Fin cfg3.N, (cfg3.win 6).flush t = true ∧ i ∈ ((cfg3.win 6).blk t).view.set := by
  have hi0 : (i 0).val < 100000 := (i 0).isLt
  have hi1 : (i 1).val < 1 := (i 1).isLt
  let t : Fin cfg3.N := ⟨(i 0).val / 5000, by show _ < 20; omega⟩
  obtain ⟨-, -, -, -, -, -, -, -, -, -, -, -, e60, e61⟩ := idx_facts t
  refine ⟨t, flush3_6 t, ?_⟩
  rw [mem_blk]
  intro a
  match a with
  | ⟨0, _⟩ =>
    show win3_6.index t (0 : Fin 2) * 5000 ≤ (i 0).val ∧ (i 0).val < win3_6.index t (0 : Fin 2) * 5000 + 5000
    rw [e60]; show (i 0).val / 5000 * 5000 ≤ (i 0).val ∧ (i 0).val < (i 0).val / 5000 * 5000 + 5000; omega
  | ⟨1, _⟩ =>
    show win3_6.index t (1 : Fin 2) * 1 ≤ (i 1).val ∧ (i 1).val < win3_6.index t (1 : Fin 2) * 1 + 1
    rw [e61]; omega

/-- After the region the output column is `head` of the six input tables as the region found them. -/
theorem final3 (c : Dev nD) : (dat3 (F := Ideal) V c).arrAt 6 cfg3.N
    = head (V c main_v23) (V c main_v19) (V c main_v11) (V c main_v24) (V c main_arg6) (V c main_v25) :=
  (dat3 (F := Ideal) V c).arrAt_eq_of_cover 6 (G V c) (fun t _ => flushed_eq V c t) cover

end Cert.Gcn.Region3

end
-- ==== Proof.RefLayer1.lean ====
/-
  The reference program's first layer, and its head, read at an index.

  The edge array's two rows are the start and the end node of every edge. A node number below zero counts from the end
  of the table; a gather clamps the number it reads into the table, a scatter-add drops a row whose number lies outside.
  The first layer adds, at every node, over the edges ending there, the start node's row of (node table × weight) weighed
  by the product of the two end nodes' factors; it adds the node's own row weighed by the square of its factor, adds the
  bias and cuts the negative part off. The head multiplies the second layer's result by a column weight, adds a bias and
  takes the quotient 1 / (1 + e^(-y)).
-/
import proofs.«408456_j58695023067297_3_alg».proof.Proof.Gen.ReferenceIdeal.Read
import proofs.«408456_j58695023067297_3_alg».proof.Proof.Spec
import proofs.«408456_j58695023067297_3_alg».proof.Proof.LibRowGather
import proofs.«408456_j58695023067297_3_alg».proof.Proof.LibRowScatter
import Idealize.ShloMosaic.Lib.StableHlo.Predicate
import Idealize.ShloMosaic.Lib.ValueIdx
import Idealize.ShloMosaic.Lib.Pipeline.Value
import Idealize.ShloMosaic.PureOps.Ideal.Laws
import Idealize.ShloMosaic.Lib.IdealHost

noncomputable section

namespace Cert.Gcn.RefRead

open Cert.ReferenceIdeal Cert.ReferenceIdeal.Gen Cert.ReferenceIdeal.Read Idealize.ShloMosaic Idealize.ShloMosaic.ValueIdx
  Idealize.ShloMosaic.StableHlo

/-- A rank-1 index written either way. -/
theorem ofFin_eq_ix1 {n : Nat} (p : Fin n) : Shape.Idx.ofFin p = ix1 p := by
  funext d; match d with | ⟨0, _⟩ => rfl

/-- Row `p` of a column written either way. -/
theorem ixP_eq_ix2 {n : Nat} (p : Fin n) : Predicate.ixP p = ix2 p (0 : Fin 1) := by
  funext d; match d with | ⟨0, _⟩ => rfl | ⟨1, _⟩ => rfl

/-- The first row of the edge array, flattened, at edge `e`. -/
theorem src_word (a1 : S2x3200000.Idx → BitVec 32) (e : Fin 3200000) :
    val_main_v1 (F := Ideal) a1 (ix1 e) = a1 (ix2 (0 : Fin 2) e) := by
  rw [val_main_v1_apply, val_main_v0_apply]
  refine congrArg a1 (funext fun a => Fin.ext ?_)
  match a with
  | ⟨0, _⟩ => rfl
  | ⟨1, _⟩ => exact Nat.mod_eq_of_lt e.isLt

/-- The second row of the edge array, flattened, at edge `e`. -/
theorem dst_word (a1 : S2x3200000.Idx → BitVec 32) (e : Fin 3200000) :
    val_main_v3 (F := Ideal) a1 (ix1 e) = a1 (ix2 (1 : Fin 2) e) := by
  rw [val_main_v3_apply, val_main_v2_apply]
  refine congrArg a1 (funext fun a => Fin.ext ?_)
  match a with
  | ⟨0, _⟩ => rfl
  | ⟨1, _⟩ => exact Nat.mod_eq_of_lt e.isLt

/-- The start node's number, counted from the end when negative (first use). -/
theorem src_wrap16 (a1 : S2x3200000.Idx → BitVec 32) (e : Fin 3200000) :
    val_main_v16 (F := Ideal) a1 (ix1 e) = Cert.Gcn.wrapN (a1 (ix2 (0 : Fin 2) e)) := by
  rw [val_main_v16_apply, val_main_v13_apply, val_main_v15_apply, val_main_v12_apply, val_main_v14_apply,
    val_main_c_apply, val_main_c_2_apply, src_word]
  rfl

/-- The end node's number, counted from the end when negative. -/
theorem dst_wrap23 (a1 : S2x3200000.Idx → BitVec 32) (e : Fin 3200000) :
    val_main_v23 (F := Ideal) a1 (ix1 e) = Cert.Gcn.wrapN (a1 (ix2 (1 : Fin 2) e)) := by
  rw [val_main_v23_apply, val_main_v20_apply, val_main_v22_apply, val_main_v19_apply, val_main_v21_apply,
    val_main_c_3_apply, val_main_c_4_apply, dst_word]
  rfl

/-- The start node's number, counted from the end when negative (second use). -/
theorem src_wrap31 (a1 : S2x3200000.Idx → BitVec 32) (e : Fin 3200000) :
    val_main_v31 (F := Ideal) a1 (ix1 e) = Cert.Gcn.wrapN (a1 (ix2 (0 : Fin 2) e)) := by
  rw [val_main_v31_apply, val_main_v28_apply, val_main_v30_apply, val_main_v27_apply, val_main_v29_apply,
    val_main_c_5_apply, val_main_c_6_apply, src_word]
  rfl

/-- The columns of node numbers the gathers and the scatter read. -/
theorem col17 (a1 : S2x3200000.Idx → BitVec 32) (e : Fin 3200000) :
    val_main_v17 (F := Ideal) a1 (ix2 e (0 : Fin 1)) = Cert.Gcn.wrapN (a1 (ix2 (0 : Fin 2) e)) := by
  rw [val_main_v17_apply, ← src_wrap16]
  exact congrArg _ (funext fun a => Fin.ext (by match a with | ⟨0, _⟩ => rfl))

theorem col24 (a1 : S2x3200000.Idx → BitVec 32) (e : Fin 3200000) :
    val_main_v24 (F := Ideal) a1 (ix2 e (0 : Fin 1)) = Cert.Gcn.wrapN (a1 (ix2 (1 : Fin 2) e)) := by
  rw [val_main_v24_apply, ← dst_wrap23]
  exact congrArg _ (funext fun a => Fin.ext (by match a with | ⟨0, _⟩ => rfl))

theorem col32 (a1 : S2x3200000.Idx → BitVec 32) (e : Fin 3200000) :
    val_main_v32 (F := Ideal) a1 (ix2 e (0 : Fin 1)) = Cert.Gcn.wrapN (a1 (ix2 (0 : Fin 2) e)) := by
  rw [val_main_v32_apply, ← src_wrap31]
  exact congrArg _ (funext fun a => Fin.ext (by match a with | ⟨0, _⟩ => rfl))

theorem col38 (a1 : S2x3200000.Idx → BitVec 32) (e : Fin 3200000) :
    val_main_v38 (F := Ideal) a1 (ix2 e (0 : Fin 1)) = a1 (ix2 (1 : Fin 2) e) := by
  rw [val_main_v38_apply]
  refine Eq.trans (congrArg _ (funext fun a => Fin.ext ?_)) (dst_word a1 e)
  match a with | ⟨0, _⟩ => rfl

/-- The per-node factor taken at an edge's start node. -/
theorem take18 (a1 : S2x3200000.Idx → BitVec 32) (e : Fin 3200000) :
    val_main_v18 (F := Ideal) a1 (ix1 e)
      = val_main_v11 (F := Ideal) a1 (ix1 (Cert.Gcn.clampN (Cert.Gcn.wrapN (a1 (ix2 (0 : Fin 2) e))))) := by
  unfold val_main_v18
  rw [← ofFin_eq_ix1 e]
  refine (Predicate.gather_take gather_S100000_S3200000x1_S3200000_n_0_n_n_0_1_1 rfl rfl rfl rfl
    (val_main_v11 (F := Ideal) a1) (val_main_v17 (F := Ideal) a1) e (by decide)).trans ?_
  rw [ofFin_eq_ix1]
  refine congrArg _ (congrArg ix1 (Fin.ext ?_))
  show min (val_main_v17 (F := Ideal) a1 (Predicate.ixP e)).toInt.toNat (100000 - 1) = _
  rw [ixP_eq_ix2, col17]
  rfl

/-- The per-node factor taken at an edge's end node. -/
theorem take25 (a1 : S2x3200000.Idx → BitVec 32) (e : Fin 3200000) :
    val_main_v25 (F := Ideal) a1 (ix1 e)
      = val_main_v11 (F := Ideal) a1 (ix1 (Cert.Gcn.clampN (Cert.Gcn.wrapN (a1 (ix2 (1 : Fin 2) e))))) := by
  unfold val_main_v25
  rw [← ofFin_eq_ix1 e]
  refine (Predicate.gather_take gather_S100000_S3200000x1_S3200000_n_0_n_n_0_1_1 rfl rfl rfl rfl
    (val_main_v11 (F := Ideal) a1) (val_main_v24 (F := Ideal) a1) e (by decide)).trans ?_
  rw [ofFin_eq_ix1]
  refine congrArg _ (congrArg ix1 (Fin.ext ?_))
  show min (val_main_v24 (F := Ideal) a1 (Predicate.ixP e)).toInt.toNat (100000 - 1) = _
  rw [ixP_eq_ix2, col24]
  rfl

/-- The product of the node table with the weight, as the specification writes it. -/
theorem prod4 (x0 : S100000x128.Idx → EReal) (x2 : S128x64.Idx → EReal) :
    val_main_v4 (F := Ideal) x0 x2 = Cert.Gcn.prod x0 x2 := by
  funext i
  obtain ⟨p, q, rfl⟩ : ∃ (p : Fin 100000) (q : Fin 64), i = ix2 p q := ⟨i 0, i 1, eq_ix2 i⟩
  rw [val_main_v4_apply, Cert.Gcn.prod_ix2]
  refine Finset.sum_congr rfl fun k _ => ?_
  have el : lidx_main_v4 (ix2 p q) k = ix2 p k :=
    funext fun a => Fin.ext (by match a with | ⟨0, _⟩ => rfl | ⟨1, _⟩ => rfl)
  have er : ridx_main_v4 (ix2 p q) k = ix2 k q :=
    funext fun a => Fin.ext (by match a with | ⟨0, _⟩ => rfl | ⟨1, _⟩ => rfl)
  rw [el, er]

/-- The row of the product gathered at an edge's start node. -/
theorem rows33 (x0 : S100000x128.Idx → EReal) (a1 : S2x3200000.Idx → BitVec 32) (x2 : S128x64.Idx → EReal)
    (e : Fin 3200000) (q : Fin 64) :
    val_main_v33 (F := Ideal) x0 a1 x2 (ix2 e q)
      = Cert.Gcn.prod x0 x2 (ix2 (Cert.Gcn.clampN (Cert.Gcn.wrapN (a1 (ix2 (0 : Fin 2) e)))) q) := by
  unfold val_main_v33
  refine (RowGather.gather_rows_apply (by decide) gather_S100000x64_S3200000x1_S3200000x64_1_0_n_n_0_1_164_wf
    (val_main_v4 (F := Ideal) x0 x2) (val_main_v32 (F := Ideal) a1) e q).trans ?_
  rw [prod4]
  refine congrArg _ (congrArg (fun r => ix2 r q) (Fin.ext ?_))
  show min (val_main_v32 (F := Ideal) a1 (ix2 e (0 : Fin 1))).toInt.toNat (100000 - 1) = _
  rw [col32]
  rfl

/-- What one edge brings: its start node's row of the product, weighed by the two end nodes' factors. -/
theorem edge36 (x0 : S100000x128.Idx → EReal) (a1 : S2x3200000.Idx → BitVec 32) (x2 : S128x64.Idx → EReal)
    (e : Fin 3200000) (q : Fin 64) :
    val_main_v36 (F := Ideal) x0 a1 x2 (ix2 e q)
      = Cert.Gcn.prod x0 x2 (ix2 (Cert.Gcn.clampN (Cert.Gcn.wrapN (a1 (ix2 (0 : Fin 2) e)))) q)
        * (val_main_v11 (F := Ideal) a1 (ix1 (Cert.Gcn.clampN (Cert.Gcn.wrapN (a1 (ix2 (0 : Fin 2) e)))))
          * val_main_v11 (F := Ideal) a1 (ix1 (Cert.Gcn.clampN (Cert.Gcn.wrapN (a1 (ix2 (1 : Fin 2) e)))))) := by
  rw [val_main_v36_apply, rows33, val_main_v35_apply, val_main_v34_apply]
  have ei : idx_main_v34 (idx_main_v35 (ix2 e q)) = ix1 e :=
    funext fun a => Fin.ext (by match a with | ⟨0, _⟩ => rfl)
  rw [ei, val_main_v26_apply, take18, take25]
  rfl

/-- The scatter's dimension numbers are those of a row scatter. -/
theorem scatterRec_eq : scatter_S100000x64_S3200000x1_S3200000x64_1_0_0_1
    = RowScatter.rowDims 100000 64 3200000 scatter_S100000x64_S3200000x1_S3200000x64_1_0_0_1_wf := rfl

/-- Over the extended reals the host's accumulating scatter is the exact one. -/
theorem hostScatter_eq {s si su : Shape} (d : ScatterDims s si su) {w : Nat} (x : s.Idx → EReal) (idx : IVec si w)
    (upd : su.Idx → EReal) : Host.scatterAdd (F := Ideal) (φ := .f32) d x idx upd = Ideal.hostScatterAdd d x idx upd := rfl

/-- The sum over the edges ending at a node of what each brings. -/
theorem sum39 (x0 : S100000x128.Idx → EReal) (a1 : S2x3200000.Idx → BitVec 32) (x2 : S128x64.Idx → EReal)
    (r : Fin 100000) (q : Fin 64) :
    val_main_v39 (F := Ideal) x0 a1 x2 (ix2 r q)
      = Cert.Gcn.edgeSum (fun e : Fin 3200000 => a1 (ix2 (1 : Fin 2) e))
          (fun e => Cert.Gcn.prod x0 x2 (ix2 (Cert.Gcn.clampN (Cert.Gcn.wrapN (a1 (ix2 (0 : Fin 2) e)))) q)
            * (val_main_v11 (F := Ideal) a1 (ix1 (Cert.Gcn.clampN (Cert.Gcn.wrapN (a1 (ix2 (0 : Fin 2) e)))))
              * val_main_v11 (F := Ideal) a1 (ix1 (Cert.Gcn.clampN (Cert.Gcn.wrapN (a1 (ix2 (1 : Fin 2) e))))))) r := by
  unfold val_main_v39
  refine (congrFun (hostScatter_eq scatter_S100000x64_S3200000x1_S3200000x64_1_0_0_1 (val_main_v37 (F := Ideal))
    (val_main_v38 (F := Ideal) a1) (val_main_v36 (F := Ideal) x0 a1 x2)) (ix2 r q)).trans ?_
  rw [scatterRec_eq]
  refine (RowScatter.scatterAdd_rows_apply scatter_S100000x64_S3200000x1_S3200000x64_1_0_0_1_wf
    (val_main_v37 (F := Ideal)) (val_main_v38 (F := Ideal) a1) (val_main_v36 (F := Ideal) x0 a1 x2) r q).trans ?_
  have hz : val_main_v37 (F := Ideal) (ix2 r q) = 0 := by
    rw [val_main_v37_apply, val_main_cst_7_apply, Ideal.ofBits_def, Ideal.ofBits_zero_f32]
  rw [hz, zero_add]
  unfold Cert.Gcn.edgeSum
  simp only [col38]
  exact Finset.sum_congr rfl fun e _ => edge36 x0 a1 x2 e q

/-- THE FIRST LAYER of the reference: every edge's start row of the product weighed by the two end nodes' factors and summed
    at the edge's end node, the node's own row weighed by the square of its factor, the bias, cut off below at zero. -/
theorem ref_layer1 (x0 : S100000x128.Idx → EReal) (a1 : S2x3200000.Idx → BitVec 32) (x2 : S128x64.Idx → EReal)
    (x3 : S64.Idx → EReal) :
    val_main_v48 (F := Ideal) x0 a1 x2 x3
      = Cert.Gcn.combineR (fun e : Fin 3200000 => a1 (ix2 (0 : Fin 2) e)) (fun e : Fin 3200000 => a1 (ix2 (1 : Fin 2) e))
          (Cert.Gcn.prod x0 x2) (fun r : Fin 100000 => val_main_v11 (F := Ideal) a1 (ix1 r))
          (fun q : Fin 64 => x3 (ix1 q)) := by
  funext i
  obtain ⟨r, q, rfl⟩ : ∃ (r : Fin 100000) (q : Fin 64), i = ix2 r q := ⟨i 0, i 1, eq_ix2 i⟩
  have e1 : idx_main_v41 (idx_main_v42 (ix2 r q)) = ix1 r :=
    funext fun a => Fin.ext (by match a with | ⟨0, _⟩ => rfl)
  have e2 : idx_main_v45 (idx_main_v46 (ix2 r q)) = ix1 q :=
    funext fun a => Fin.ext (by match a with | ⟨0, _⟩ => rfl)
  have hz : val_main_call0_v0 (F := Ideal) (ix2 r q) = 0 := by
    rw [val_main_call0_v0_apply, val_main_call0_cst_apply, Ideal.ofBits_def, Ideal.ofBits_zero_f32]
  have hself : val_main_v43 (F := Ideal) x0 a1 x2 (ix2 r q)
      = Cert.Gcn.prod x0 x2 (ix2 r q) * (val_main_v11 (F := Ideal) a1 (ix1 r) * val_main_v11 (F := Ideal) a1 (ix1 r)) := by
    rw [val_main_v43_apply, prod4, val_main_v42_apply, val_main_v41_apply, e1, val_main_v40_apply]
    rfl
  have hb : val_main_v46 (F := Ideal) x3 (ix2 r q) = x3 (ix1 q) := by
    rw [val_main_v46_apply, val_main_v45_apply, e2]
  rw [Cert.Gcn.combineR_ix2, val_main_v48_apply, val_main_v47_apply, val_main_v44_apply, sum39, hself, hb, hz]
  rfl

/-- THE HEAD of the reference at node `n`: the quotient `1 / (1 + e^(-y))`, `y` the second layer's row `n` against the
    column weight plus the bias. A column of width one flattens row by row, so entry `n` of the result is row `n`. -/
theorem ref_head (x0 : S100000x128.Idx → EReal) (a1 : S2x3200000.Idx → BitVec 32) (x2 : S128x64.Idx → EReal)
    (x3 : S64.Idx → EReal) (x4 : S64x32.Idx → EReal) (x5 : S32.Idx → EReal) (x6 : S32x1.Idx → EReal)
    (x7 : S1.Idx → EReal) (n : Fin 100000) :
    val_main_v104 (F := Ideal) x0 a1 x2 x3 x4 x5 x6 x7 (ix1 n)
      = Cert.Gcn.headR (val_main_v93 (F := Ideal) x0 a1 x2 x3 x4 x5) x6 (x7 (ix1 (0 : Fin 1))) n := by
  rw [val_main_v104_apply, val_main_v103_apply, val_main_v102_apply, val_main_cst_19_apply, val_main_v101_apply,
    val_main_v100_apply, val_main_cst_18_apply, val_main_v99_apply, val_main_v98_apply, val_main_v97_apply,
    val_main_v94_apply, val_main_v96_apply, val_main_v95_apply]
  have el : ∀ k : Fin 32, lidx_main_v94 (idx_main_v104 (ix1 n)) k = ix2 n k := fun k =>
    funext fun a => Fin.ext (by match a with | ⟨0, _⟩ => exact Nat.div_one n.val | ⟨1, _⟩ => rfl)
  have er : ∀ k : Fin 32, ridx_main_v94 (idx_main_v104 (ix1 n)) k = ix2 k (0 : Fin 1) := fun k =>
    funext fun a => Fin.ext (by match a with | ⟨0, _⟩ => rfl | ⟨1, _⟩ => rfl)
  have eb : idx_main_v95 (idx_main_v96 (idx_main_v104 (ix1 n))) = ix1 (0 : Fin 1) :=
    funext fun a => Fin.ext (by match a with | ⟨0, _⟩ => rfl)
  simp only [el, er, eb, Ideal.hostDivf_def, Ideal.ofBits_def, Ideal.addf_def, Ideal.hostUnary_exp_def,
    Ideal.hostNegf_def, Ideal.negf_def, Ideal.ofBits_one_f32]
  rfl

end Cert.Gcn.RefRead

end
-- ==== Proof.RefLayer2.lean ====
/-
  The reference's second layer read at an index.

  The reference computes a graph-convolution layer edge by edge: every edge's source row of the product
  `h1 · W2` is weighed by the product of the per-node factors of the edge's two end nodes, the weighed rows are
  added up at the edge's end node, the node's own row weighed by the square of its factor is added, then the
  bias, and the negative part is cut off.  A negative node number counts from the end of the table, and a read
  of a table clamps the node number into it.  This file reads that computation at one element `(r, q)` and
  identifies it with `Cert.Gcn.combineR`.
-/
import proofs.«408456_j58695023067297_3_alg».proof.Proof.Gen.ReferenceIdeal.Read
import proofs.«408456_j58695023067297_3_alg».proof.Proof.Spec
import proofs.«408456_j58695023067297_3_alg».proof.Proof.LibRowGather
import proofs.«408456_j58695023067297_3_alg».proof.Proof.LibRowScatter
import Idealize.ShloMosaic.Lib.StableHlo.Predicate
import Idealize.ShloMosaic.Lib.ValueIdx
import Idealize.ShloMosaic.Lib.Pipeline.Value
import Idealize.ShloMosaic.PureOps.Ideal.Laws

noncomputable section

namespace Cert.Gcn.RefLayer2

open Cert.ReferenceIdeal Cert.ReferenceIdeal.Gen Cert.ReferenceIdeal.Read
open Idealize.ShloMosaic Idealize.ShloMosaic.ValueIdx Idealize.ShloMosaic.StableHlo

/-- The reference computes the per-node factor `rsqrt (deg + 1)` twice, by the same operations on the same
    operands: the two arrays are one. -/
theorem dinv_again (a1 : S2x3200000.Idx → BitVec 32) :
    val_main_v56 (F := Ideal) a1 = val_main_v11 (F := Ideal) a1 := by
  unfold val_main_v56 val_main_v55 val_main_v53 val_main_v54 val_main_v52 val_main_v51 val_main_v50
    val_main_cst_8 val_main_cst_9 val_main_cst_10
  unfold val_main_v11 val_main_v10 val_main_v8 val_main_v9 val_main_v7 val_main_v6 val_main_v5
    val_main_cst val_main_cst_0 val_main_cst_1
  rfl

/-! ## The edge list's two rows, and node numbers counted from the end -/

/-- The first row of the edge list, as a vector: the edges' start nodes. -/
theorem src_read (a1 : S2x3200000.Idx → BitVec 32) (e : Fin 3200000) :
    val_main_v1 (F := Ideal) a1 (ix1 e) = a1 (ix2 (0 : Fin 2) e) := by
  rw [val_main_v1_apply, val_main_v0_apply]
  refine congrArg a1 (funext fun a => Fin.ext ?_)
  match a with
  | ⟨0, _⟩ => rfl
  | ⟨1, _⟩ => exact Nat.mod_eq_of_lt e.isLt

/-- The second row of the edge list, as a vector: the edges' end nodes. -/
theorem dst_read (a1 : S2x3200000.Idx → BitVec 32) (e : Fin 3200000) :
    val_main_v3 (F := Ideal) a1 (ix1 e) = a1 (ix2 (1 : Fin 2) e) := by
  rw [val_main_v3_apply, val_main_v2_apply]
  refine congrArg a1 (funext fun a => Fin.ext ?_)
  match a with
  | ⟨0, _⟩ => rfl
  | ⟨1, _⟩ => exact Nat.mod_eq_of_lt e.isLt

/-- The start nodes with a negative number counted from the end (for the take of the factor). -/
theorem src_wrap_a (a1 : S2x3200000.Idx → BitVec 32) (e : Fin 3200000) :
    val_main_v61 (F := Ideal) a1 (ix1 e) = wrapN (a1 (ix2 (0 : Fin 2) e)) := by
  rw [val_main_v61_apply, val_main_v58_apply, val_main_v60_apply, val_main_v57_apply, val_main_v59_apply,
    val_main_c_11_apply, val_main_c_12_apply, src_read]
  rfl

/-- The end nodes with a negative number counted from the end. -/
theorem dst_wrap (a1 : S2x3200000.Idx → BitVec 32) (e : Fin 3200000) :
    val_main_v68 (F := Ideal) a1 (ix1 e) = wrapN (a1 (ix2 (1 : Fin 2) e)) := by
  rw [val_main_v68_apply, val_main_v65_apply, val_main_v67_apply, val_main_v64_apply, val_main_v66_apply,
    val_main_c_13_apply, val_main_c_14_apply, dst_read]
  rfl

/-- The start nodes with a negative number counted from the end (for the row gather). -/
theorem src_wrap_b (a1 : S2x3200000.Idx → BitVec 32) (e : Fin 3200000) :
    val_main_v76 (F := Ideal) a1 (ix1 e) = wrapN (a1 (ix2 (0 : Fin 2) e)) := by
  rw [val_main_v76_apply, val_main_v73_apply, val_main_v75_apply, val_main_v72_apply, val_main_v74_apply,
    val_main_c_15_apply, val_main_c_16_apply, src_read]
  rfl

/-! ## The take of a vector and the clamped node number -/

/-- A take of a vector of 100000 entries by a column of 3200000 node numbers reads, at edge `e`, the entry at the
    clamped node number. -/
theorem take_read (x : S100000.Idx → EReal) (idx : S3200000x1.Idx → BitVec 32) (e : Fin 3200000) :
    Host.gather gather_S100000_S3200000x1_S3200000_n_0_n_n_0_1_1 x idx (ix1 e)
      = x (ix1 (clampN (idx (ix2 e (0 : Fin 1))))) := by
  have h := Predicate.gather_take gather_S100000_S3200000x1_S3200000_n_0_n_n_0_1_1 rfl rfl rfl rfl x idx e
    (by decide)
  have e1 : (Shape.Idx.ofFin e : S3200000.Idx) = ix1 e := funext fun a => match a with | ⟨0, _⟩ => rfl
  have e2 : (Predicate.ixP e : S3200000x1.Idx) = ix2 e (0 : Fin 1) :=
    funext fun a => match a with | ⟨0, _⟩ => rfl | ⟨1, _⟩ => rfl
  rw [e1] at h
  refine h.trans (congrArg x ?_)
  funext a
  match a with
  | ⟨0, _⟩ => exact Fin.ext (congrArg (fun j => min (idx j).toInt.toNat (100000 - 1)) e2)

/-- The weight of an edge: the product of the factors of its two end nodes, each node number counted from the end
    when negative and clamped into the table. -/
theorem weight_read (a1 : S2x3200000.Idx → BitVec 32) (e : Fin 3200000) :
    val_main_v71 (F := Ideal) a1 (ix1 e)
      = val_main_v11 (F := Ideal) a1 (ix1 (clampN (wrapN (a1 (ix2 (0 : Fin 2) e)))))
        * val_main_v11 (F := Ideal) a1 (ix1 (clampN (wrapN (a1 (ix2 (1 : Fin 2) e))))) := by
  rw [val_main_v71_apply]
  unfold val_main_v63 val_main_v70
  rw [take_read, take_read, val_main_v62_apply, val_main_v69_apply, dinv_again]
  have c1 : idx_main_v62 (ix2 e (0 : Fin 1)) = ix1 e := funext fun a => match a with | ⟨0, _⟩ => rfl
  have c2 : idx_main_v69 (ix2 e (0 : Fin 1)) = ix1 e := funext fun a => match a with | ⟨0, _⟩ => rfl
  rw [c1, c2, src_wrap_a, dst_wrap]
  rfl

/-! ## The row gather and the row scatter-add of this program -/

/-- A gather of rows of a table of 100000 rows by a column of 3200000 node numbers reads, at `(e, q)`, the table at the
    clamped node number and column `q`. -/
theorem rows_read (x : S100000x32.Idx → EReal) (idx : S3200000x1.Idx → BitVec 32) (e : Fin 3200000) (q : Fin 32) :
    Host.gather gather_S100000x32_S3200000x1_S3200000x32_1_0_n_n_0_1_132 x idx (ix2 e q)
      = x (ix2 (clampN (idx (ix2 e (0 : Fin 1)))) q) :=
  RowGather.gather_rows_apply (by decide) gather_S100000x32_S3200000x1_S3200000x32_1_0_n_n_0_1_132_wf x idx e q

/-- A scatter-add of 3200000 rows into a table of 100000 rows reads, at `(r, q)`, the table's element plus the sum of
    the rows' elements in column `q` over the rows numbered `r`. -/
theorem scatter_read (x : S100000x32.Idx → EReal) (idx : S3200000x1.Idx → BitVec 32)
    (upd : S3200000x32.Idx → EReal) (r : Fin 100000) (q : Fin 32) :
    Host.scatterAdd (F := Ideal) (φ := .f32) scatter_S100000x32_S3200000x1_S3200000x32_1_0_0_1 x idx upd (ix2 r q)
      = x (ix2 r q) + ∑ e ∈ Finset.univ.filter
          (fun e : Fin 3200000 => (idx (ix2 e (0 : Fin 1))).toInt = (r.val : Int)), upd (ix2 e q) :=
  RowScatter.scatterAdd_rows_apply scatter_S100000x32_S3200000x1_S3200000x32_1_0_0_1_wf x idx upd r q

/-! ## The layer's pieces at an element -/

/-- The product of the first layer's output with the second weight, at an element. -/
theorem prod_read (x0 : S100000x128.Idx → EReal) (a1 : S2x3200000.Idx → BitVec 32) (x2 : S128x64.Idx → EReal)
    (x3 : S64.Idx → EReal) (x4 : S64x32.Idx → EReal) (p : Fin 100000) (c : Fin 32) :
    val_main_v49 (F := Ideal) x0 a1 x2 x3 x4 (ix2 p c)
      = prod (val_main_v48 (F := Ideal) x0 a1 x2 x3) x4 (ix2 p c) := by
  rw [val_main_v49_apply, prod_ix2]
  refine Finset.sum_congr rfl fun k _ => ?_
  have el : lidx_main_v49 (ix2 p c) k = ix2 p k :=
    funext fun a => match a with | ⟨0, _⟩ => rfl | ⟨1, _⟩ => rfl
  have er : ridx_main_v49 (ix2 p c) k = ix2 k c :=
    funext fun a => match a with | ⟨0, _⟩ => rfl | ⟨1, _⟩ => rfl
  rw [el, er]

/-- An edge's source row of the product, weighed by the product of its two end nodes' factors. -/
theorem edge_read (x0 : S100000x128.Idx → EReal) (a1 : S2x3200000.Idx → BitVec 32) (x2 : S128x64.Idx → EReal)
    (x3 : S64.Idx → EReal) (x4 : S64x32.Idx → EReal) (e : Fin 3200000) (q : Fin 32) :
    val_main_v81 (F := Ideal) x0 a1 x2 x3 x4 (ix2 e q)
      = prod (val_main_v48 (F := Ideal) x0 a1 x2 x3) x4 (ix2 (clampN (wrapN (a1 (ix2 (0 : Fin 2) e)))) q)
        * (val_main_v11 (F := Ideal) a1 (ix1 (clampN (wrapN (a1 (ix2 (0 : Fin 2) e)))))
          * val_main_v11 (F := Ideal) a1 (ix1 (clampN (wrapN (a1 (ix2 (1 : Fin 2) e)))))) := by
  rw [val_main_v81_apply, val_main_v80_apply, val_main_v79_apply]
  unfold val_main_v78
  rw [rows_read, val_main_v77_apply, prod_read]
  have c1 : idx_main_v77 (ix2 e (0 : Fin 1)) = ix1 e := funext fun a => match a with | ⟨0, _⟩ => rfl
  have c2 : idx_main_v79 (idx_main_v80 (ix2 e q)) = ix1 e := funext fun a => match a with | ⟨0, _⟩ => rfl
  rw [c1, c2, src_wrap_b, weight_read]
  rfl

/-- What the edges ending at node `r` bring: the sum of their weighed source rows (the table scattered into is zero). -/
theorem agg_read (x0 : S100000x128.Idx → EReal) (a1 : S2x3200000.Idx → BitVec 32) (x2 : S128x64.Idx → EReal)
    (x3 : S64.Idx → EReal) (x4 : S64x32.Idx → EReal) (r : Fin 100000) (q : Fin 32) :
    val_main_v84 (F := Ideal) x0 a1 x2 x3 x4 (ix2 r q)
      = edgeSum (fun e : Fin 3200000 => a1 (ix2 (1 : Fin 2) e))
          (fun e => prod (val_main_v48 (F := Ideal) x0 a1 x2 x3) x4 (ix2 (clampN (wrapN (a1 (ix2 (0 : Fin 2) e)))) q)
            * (val_main_v11 (F := Ideal) a1 (ix1 (clampN (wrapN (a1 (ix2 (0 : Fin 2) e)))))
              * val_main_v11 (F := Ideal) a1 (ix1 (clampN (wrapN (a1 (ix2 (1 : Fin 2) e))))))) r := by
  unfold val_main_v84
  rw [scatter_read, val_main_v82_apply, val_main_cst_17_apply]
  show Ideal.ofBits .f32 0x00000000#32 + _ = _
  rw [Ideal.ofBits_zero_f32, zero_add]
  unfold edgeSum
  have hidx : ∀ e : Fin 3200000,
      val_main_v83 (F := Ideal) a1 (ix2 e (0 : Fin 1)) = a1 (ix2 (1 : Fin 2) e) := fun e => by
    rw [val_main_v83_apply]
    have c : idx_main_v83 (ix2 e (0 : Fin 1)) = ix1 e := funext fun a => match a with | ⟨0, _⟩ => rfl
    rw [c, dst_read]
  have hf : Finset.univ.filter
        (fun e : Fin 3200000 => (val_main_v83 (F := Ideal) a1 (ix2 e (0 : Fin 1))).toInt = (r.val : Int))
      = Finset.univ.filter (fun e : Fin 3200000 => (a1 (ix2 (1 : Fin 2) e)).toInt = (r.val : Int)) :=
    Finset.filter_congr fun e _ => by rw [hidx e]
  rw [hf]
  exact Finset.sum_congr rfl fun e _ => edge_read x0 a1 x2 x3 x4 e q

/-- The node's own row of the product, weighed by the square of its factor. -/
theorem self_read (x0 : S100000x128.Idx → EReal) (a1 : S2x3200000.Idx → BitVec 32) (x2 : S128x64.Idx → EReal)
    (x3 : S64.Idx → EReal) (x4 : S64x32.Idx → EReal) (r : Fin 100000) (q : Fin 32) :
    val_main_v88 (F := Ideal) x0 a1 x2 x3 x4 (ix2 r q)
      = prod (val_main_v48 (F := Ideal) x0 a1 x2 x3) x4 (ix2 r q)
        * (val_main_v11 (F := Ideal) a1 (ix1 r) * val_main_v11 (F := Ideal) a1 (ix1 r)) := by
  rw [val_main_v88_apply, val_main_v87_apply, val_main_v86_apply, val_main_v85_apply, prod_read, dinv_again]
  have c : idx_main_v86 (idx_main_v87 (ix2 r q)) = ix1 r := funext fun a => match a with | ⟨0, _⟩ => rfl
  rw [c]
  rfl

/-- The bias, the same in every row. -/
theorem bias_read (x5 : S32.Idx → EReal) (r : Fin 100000) (q : Fin 32) :
    val_main_v91 (F := Ideal) x5 (ix2 r q) = x5 (ix1 q) := by
  rw [val_main_v91_apply, val_main_v90_apply]
  exact congrArg x5 (funext fun a => match a with | ⟨0, _⟩ => rfl)

/-! ## The second layer -/

/-- THE REFERENCE'S SECOND LAYER: the sum over the edges ending at the node of their weighed source rows, plus the node's
    own weighed row, plus the bias, cut off below at zero. -/
theorem ref_layer2 (x0 : S100000x128.Idx → EReal) (a1 : S2x3200000.Idx → BitVec 32) (x2 : S128x64.Idx → EReal)
    (x3 : S64.Idx → EReal) (x4 : S64x32.Idx → EReal) (x5 : S32.Idx → EReal) :
    val_main_v93 (F := Ideal) x0 a1 x2 x3 x4 x5
      = combineR (fun e : Fin 3200000 => a1 (ix2 (0 : Fin 2) e)) (fun e : Fin 3200000 => a1 (ix2 (1 : Fin 2) e))
          (prod (val_main_v48 (F := Ideal) x0 a1 x2 x3) x4)
          (fun r : Fin 100000 => val_main_v11 (F := Ideal) a1 (ix1 r)) (fun q : Fin 32 => x5 (ix1 q)) := by
  funext i
  obtain ⟨r, q, rfl⟩ : ∃ (r : Fin 100000) (q : Fin 32), i = ix2 r q := ⟨i 0, i 1, eq_ix2 i⟩
  rw [combineR_ix2, val_main_v93_apply, val_main_v92_apply, val_main_v89_apply, agg_read, self_read, bias_read,
    val_main_call1_v0_apply, val_main_call1_cst_apply]
  show max (_ + _ + _) (Ideal.ofBits .f32 0x00000000#32) = _
  rw [Ideal.ofBits_zero_f32]

end Cert.Gcn.RefLayer2

end
-- ==== Proof.Bridge.lean ====
/-
  The two arrangements of a graph-convolution layer agree on real data.

  Over the extended reals a factor may be moved into a sum, and a product of two factors split, only where nothing is
  infinite.  Here every entry involved is a real number: the node features are finite sums of products of finite inputs,
  and a node's factor is the inverse square root of a positive count.  On real entries both arrangements of a layer are
  the same real expression: `d r · (Σ_e h(s e)·d(s e) + h r·d r) = Σ_e h(s e)·(d(s e)·d r) + h r·(d r·d r)`.  The two
  arrangements also read the edge list differently: one counts a negative node number from the end of the table before it
  clamps it.  On an edge whose start number is not negative the two readings name the same node, and an edge that ends at
  node `r` has the non-negative end number `r`.
-/
import Mathlib.Data.EReal.Basic
import Mathlib.Algebra.BigOperators.Ring.Finset
import Mathlib.Tactic.Ring
import proofs.«408456_j58695023067297_3_alg».proof.Proof.Spec

noncomputable section

namespace Cert.Gcn

open Idealize.ShloMosaic Idealize.ShloMosaic.ValueIdx

/-- An extended real that is a real number. -/
def IsReal (v : EReal) : Prop := ∃ r : ℝ, v = (r : EReal)

theorem IsReal.zero : IsReal 0 := ⟨0, rfl⟩

theorem IsReal.add {a b : EReal} (ha : IsReal a) (hb : IsReal b) : IsReal (a + b) := by
  obtain ⟨x, rfl⟩ := ha; obtain ⟨y, rfl⟩ := hb; exact ⟨x + y, (EReal.coe_add x y).symm⟩

theorem IsReal.mul {a b : EReal} (ha : IsReal a) (hb : IsReal b) : IsReal (a * b) := by
  obtain ⟨x, rfl⟩ := ha; obtain ⟨y, rfl⟩ := hb; exact ⟨x * y, (EReal.coe_mul x y).symm⟩

theorem IsReal.sum {ι : Type} (S : Finset ι) (f : ι → EReal) (h : ∀ i ∈ S, IsReal (f i)) : IsReal (∑ i ∈ S, f i) := by
  classical
  induction S using Finset.induction_on with
  | empty => rw [Finset.sum_empty]; exact IsReal.zero
  | insert a s ha ih =>
    rw [Finset.sum_insert ha]
    exact (h a (Finset.mem_insert_self a s)).add (ih fun i hi => h i (Finset.mem_insert_of_mem hi))

theorem IsReal.max_zero {a : EReal} (ha : IsReal a) : IsReal (max a 0) := by
  obtain ⟨x, rfl⟩ := ha
  rcases le_total x 0 with h | h
  · exact ⟨0, by rw [max_eq_right (by exact_mod_cast h)]; rfl⟩
  · exact ⟨x, by rw [max_eq_left (by exact_mod_cast h)]⟩

/-- The inverse square root of a positive real is a real. -/
theorem IsReal.rsqrt_of_pos {r : ℝ} (hr : 0 < r) : IsReal (Ideal.rsqrt (r : EReal)) := by
  rw [Ideal.rsqrt_coe, if_neg (not_lt.mpr hr.le), if_neg hr.ne']
  exact ⟨_, rfl⟩

/-- Sums of products of reals: the sum with every term weighed once more by the real `d` is the sum times `d`. -/
theorem sum_weighed {ι : Type} (S : Finset ι) (h w : ι → EReal) (d : ℝ)
    (hh : ∀ e ∈ S, IsReal (h e)) (hw : ∀ e ∈ S, IsReal (w e)) :
    ∃ t : ℝ, (∑ e ∈ S, h e * w e) = (t : EReal) ∧ (∑ e ∈ S, h e * (w e * (d : EReal))) = ((t * d : ℝ) : EReal) := by
  classical
  induction S using Finset.induction_on with
  | empty => exact ⟨0, by simp, by simp⟩
  | insert a s ha ih =>
    obtain ⟨t, h1, h2⟩ := ih (fun e he => hh e (Finset.mem_insert_of_mem he)) (fun e he => hw e (Finset.mem_insert_of_mem he))
    obtain ⟨p, hp⟩ := hh a (Finset.mem_insert_self a s)
    obtain ⟨q, hq⟩ := hw a (Finset.mem_insert_self a s)
    refine ⟨p * q + t, ?_, ?_⟩
    · rw [Finset.sum_insert ha, h1, hp, hq, ← EReal.coe_mul, ← EReal.coe_add]
    · rw [Finset.sum_insert ha, h2, hp, hq, ← EReal.coe_mul, ← EReal.coe_mul, ← EReal.coe_add]
      congr 1; ring

/-- THE LAW that joins the two arrangements, on real entries: the node's factor moved into the sum over its incoming
    edges and onto its own row. -/
theorem agg_eq {ι : Type} (S : Finset ι) (h w : ι → EReal) (hn dn : EReal)
    (hh : ∀ e ∈ S, IsReal (h e)) (hw : ∀ e ∈ S, IsReal (w e)) (hhn : IsReal hn) (hdn : IsReal dn) :
    dn * ((∑ e ∈ S, h e * w e) + hn * dn) = (∑ e ∈ S, h e * (w e * dn)) + hn * (dn * dn) := by
  obtain ⟨d, rfl⟩ := hdn
  obtain ⟨x, rfl⟩ := hhn
  obtain ⟨t, h1, h2⟩ := sum_weighed S h w d hh hw
  rw [h1, h2, ← EReal.coe_mul, ← EReal.coe_mul, ← EReal.coe_mul, ← EReal.coe_add, ← EReal.coe_add, ← EReal.coe_mul]
  congr 1; ring

/-- A node number that is not negative is not counted from the end. -/
theorem wrapN_of_nonneg {w : BitVec 32} (h : 0 ≤ w.toInt) : wrapN w = w := by
  have hs : w.slt 0#32 = false := by
    rw [BitVec.slt]
    simp only [BitVec.toInt_zero, decide_eq_false_iff_not, not_lt]
    exact h
  unfold wrapN IntOp.cmpi Scalar.select
  simp [hs]

/-- A node number that reads as the node `r` is clamped to `r`. -/
theorem clampN_of_toInt {w : BitVec 32} {r : Fin 100000} (h : w.toInt = (r.val : Int)) : clampN w = r := by
  apply Fin.ext
  show min w.toInt.toNat (100000 - 1) = r.val
  have := r.isLt
  omega

/-- ONE LAYER: on real products and factors, and an edge list whose start numbers are not negative, the arrangement that
    scales rows first and the node once more afterwards is the arrangement that weighs every edge by both factors. -/
theorem layer_eq {c : ℕ} (src dst : Fin 3200000 → BitVec 32) (P : Mat 100000 c) (dv : Fin 100000 → EReal)
    (D : Mat 100000 1) (B : Mat 1 c) (b : Fin c → EReal)
    (hD : ∀ r, D (ix2 r (0 : Fin 1)) = dv r) (hB : ∀ q, B (ix2 (0 : Fin 1) q) = b q)
    (hP : ∀ i, IsReal (P i)) (hdv : ∀ r, IsReal (dv r)) (hsrc : ∀ e, 0 ≤ (src e).toInt) :
    combine (gatherSum src dst (fun i => P i * D (ix2 (n0 := 100000) (i 0) (0 : Fin 1))))
        (fun i => P i * D (ix2 (n0 := 100000) (i 0) (0 : Fin 1))) D B
      = combineR src dst P dv b := by
  funext i
  obtain ⟨r, q, rfl⟩ : ∃ (r : Fin 100000) (q : Fin c), i = ix2 r q := ⟨i 0, i 1, eq_ix2 i⟩
  rw [combine_ix2, combineR_ix2, gatherSum_ix2]
  show max (D (ix2 r (0 : Fin 1)) * (edgeSum dst (fun e => P (ix2 (clampN (src e)) q) * D (ix2 (clampN (src e)) (0 : Fin 1))) r
      + P (ix2 r q) * D (ix2 r (0 : Fin 1))) + B (ix2 (0 : Fin 1) q)) 0 = _
  rw [hD, hB]
  simp only [hD]
  refine congrArg (fun z => max (z + b q) 0) ?_
  unfold edgeSum
  have hR : (∑ e ∈ Finset.univ.filter (fun e : Fin 3200000 => (dst e).toInt = (r.val : Int)),
        P (ix2 (clampN (wrapN (src e))) q) * (dv (clampN (wrapN (src e))) * dv (clampN (wrapN (dst e)))))
      = ∑ e ∈ Finset.univ.filter (fun e : Fin 3200000 => (dst e).toInt = (r.val : Int)),
        P (ix2 (clampN (src e)) q) * (dv (clampN (src e)) * dv r) := by
    refine Finset.sum_congr rfl fun e he => ?_
    have hd : (dst e).toInt = (r.val : Int) := (Finset.mem_filter.mp he).2
    rw [wrapN_of_nonneg (hsrc e), wrapN_of_nonneg (by rw [hd]; exact Int.natCast_nonneg _), clampN_of_toInt hd]
  rw [hR]
  exact agg_eq _ (fun e => P (ix2 (clampN (src e)) q)) (fun e => dv (clampN (src e))) (P (ix2 r q)) (dv r)
    (fun e _ => hP _) (fun e _ => hdv _) (hP _) (hdv r)

/-- A product of real tables has real entries. -/
theorem prod_real {n k c : ℕ} (x : Mat n k) (W : Mat k c) (hx : ∀ i, IsReal (x i)) (hW : ∀ i, IsReal (W i))
    (i : (⟨2, ![n, c]⟩ : Shape).Idx) : IsReal (prod x W i) :=
  IsReal.sum _ _ fun _ _ => (hx _).mul (hW _)

/-- A layer of real products, factors and biases has real entries. -/
theorem combineR_real {c : ℕ} (src dst : Fin 3200000 → BitVec 32) (P : Mat 100000 c) (dv : Fin 100000 → EReal)
    (b : Fin c → EReal) (hP : ∀ i, IsReal (P i)) (hdv : ∀ r, IsReal (dv r)) (hb : ∀ q, IsReal (b q))
    (i : (⟨2, ![100000, c]⟩ : Shape).Idx) : IsReal (combineR src dst P dv b i) := by
  unfold combineR edgeSum
  exact (((IsReal.sum _ _ fun _ _ => (hP _).mul ((hdv _).mul (hdv _))).add
    ((hP i).mul ((hdv _).mul (hdv _)))).add (hb _)).max_zero

/-- THE NETWORK: two layers and the head.  On real inputs and real factors, and an edge list whose start numbers are not
    negative, the two arrangements give the same output at every node; the logistic function IS the quotient
    `1 / (1 + e^(-y))`. -/
theorem net_eq (src dst : Fin 3200000 → BitVec 32) (x0 : Mat 100000 128) (W1 : Mat 128 64) (W2 : Mat 64 32)
    (wfc : Mat 32 1) (D : Mat 100000 1) (dv : Fin 100000 → EReal) (B1 : Mat 1 64) (b1 : Fin 64 → EReal) (B2 : Mat 1 32)
    (b2 : Fin 32 → EReal) (Bfc : Mat 1 1) (bfc : EReal)
    (hD : ∀ r, D (ix2 r (0 : Fin 1)) = dv r) (hB1 : ∀ q, B1 (ix2 (0 : Fin 1) q) = b1 q)
    (hB2 : ∀ q, B2 (ix2 (0 : Fin 1) q) = b2 q) (hBfc : Bfc (ix2 (0 : Fin 1) (0 : Fin 1)) = bfc)
    (hx0 : ∀ i, IsReal (x0 i)) (hW1 : ∀ i, IsReal (W1 i)) (hW2 : ∀ i, IsReal (W2 i)) (hb1 : ∀ q, IsReal (b1 q))
    (hdv : ∀ r, IsReal (dv r)) (hsrc : ∀ e, 0 ≤ (src e).toInt) (n : Fin 100000) :
    head (gatherSum src dst (scaledProd (combine (gatherSum src dst (scaledProd x0 W1 D)) (scaledProd x0 W1 D) D B1) W2 D))
        (scaledProd (combine (gatherSum src dst (scaledProd x0 W1 D)) (scaledProd x0 W1 D) D B1) W2 D) D B2 wfc Bfc
        (ix2 n (0 : Fin 1))
      = headR (combineR src dst (prod (combineR src dst (prod x0 W1) dv b1) W2) dv b2) wfc bfc n := by
  have e1 : combine (gatherSum src dst (scaledProd x0 W1 D)) (scaledProd x0 W1 D) D B1
      = combineR src dst (prod x0 W1) dv b1 :=
    layer_eq src dst (prod x0 W1) dv D B1 b1 hD hB1 (prod_real x0 W1 hx0 hW1) hdv hsrc
  rw [e1]
  have hR1 : ∀ i, IsReal (combineR src dst (prod x0 W1) dv b1 i) :=
    combineR_real src dst _ dv b1 (prod_real x0 W1 hx0 hW1) hdv hb1
  have e2 : combine (gatherSum src dst (scaledProd (combineR src dst (prod x0 W1) dv b1) W2 D))
        (scaledProd (combineR src dst (prod x0 W1) dv b1) W2 D) D B2
      = combineR src dst (prod (combineR src dst (prod x0 W1) dv b1) W2) dv b2 :=
    layer_eq src dst (prod (combineR src dst (prod x0 W1) dv b1) W2) dv D B2 b2 hD hB2
      (prod_real _ W2 hR1 hW2) hdv hsrc
  rw [head_ix2, e2, hBfc]
  rfl

end Cert.Gcn

end
-- ==== Proof.RefDinv.lean ====
/-
  A node's factor is a real number.

  The factor of node `r` is the inverse square root of one plus the number of edges that end at `r`: the scatter-add of a
  one per edge onto a table of zeros leaves at `r` a finite sum of ones, a real that is not negative, and adding one makes
  it positive, where the inverse square root is a real.
-/
import proofs.«408456_j58695023067297_3_alg».proof.Proof.Gen.ReferenceIdeal.Read
import proofs.«408456_j58695023067297_3_alg».proof.Proof.Bridge
import Idealize.ShloMosaic.Lib.Pipeline.Value
import Idealize.ShloMosaic.Lib.ValueIdx
import Idealize.ShloMosaic.PureOps.Ideal.Laws
import Idealize.ShloMosaic.Lib.IdealHost

noncomputable section

namespace Cert.Gcn.RefDinv

open Cert.ReferenceIdeal Cert.ReferenceIdeal.Gen Cert.ReferenceIdeal.Read Cert.Gcn
open Idealize.ShloMosaic Idealize.ShloMosaic.ValueIdx

/-- The float word of one is the real one. -/
theorem ofBits_one : Ideal.ofBits .f32 0x3F800000#32 = (1 : EReal) := Ideal.ofBits_one_f32

/-- A finite sum of ones is a real that is not negative. -/
theorem sum_ones {ι : Type} (S : Finset ι) : ∃ t : ℝ, 0 ≤ t ∧ (∑ _j ∈ S, (1 : EReal)) = (t : EReal) := by
  classical
  induction S using Finset.induction_on with
  | empty => exact ⟨0, le_refl _, by simp⟩
  | insert a s ha ih =>
    obtain ⟨t, ht, h⟩ := ih
    refine ⟨1 + t, by linarith, ?_⟩
    rw [Finset.sum_insert ha, h, EReal.coe_add, EReal.coe_one]

/-- At the extended reals the accumulating scatter is the operand plus the sum of the updates landing on the element. -/
theorem hostScatter_eq {s si u : Shape} {w : Nat} (d : ScatterDims s si u) (x : s.Idx → EReal) (idx : IVec si w)
    (upd : u.Idx → EReal) :
    Host.scatterAdd (F := Ideal) (φ := .f32) d x idx upd = Ideal.hostScatterAdd d x idx upd := rfl

/-- The count of edges ending at a node, as the scatter of ones onto zeros leaves it: a real that is not negative. -/
theorem count_real (x : S100000.Idx → EReal) (idx : S3200000x1.Idx → BitVec 32) (upd : S3200000.Idx → EReal)
    (r : Fin 100000) (hx : x (ix1 r) = 0) (hu : ∀ j, upd j = 1) :
    ∃ t : ℝ, 0 ≤ t ∧ Host.scatterAdd (F := Ideal) (φ := .f32) scatter_S100000_S3200000x1_S3200000_n_0_0_1 x idx upd (ix1 r)
      = (t : EReal) := by
  rw [hostScatter_eq]
  unfold Ideal.hostScatterAdd
  simp only [hx, hu, zero_add]
  exact sum_ones _

theorem dv_real (a1 : S2x3200000.Idx → BitVec 32) (r : Fin 100000) :
    IsReal (val_main_v11 (F := Ideal) a1 (ix1 r)) := by
  rw [val_main_v11_apply, Ideal.hostUnary_rsqrt_def, val_main_v10_apply]
  have h9 : val_main_v9 (F := Ideal) (ix1 r) = 1 := by
    rw [val_main_v9_apply, val_main_cst_1_apply]; exact ofBits_one
  have h8 : ∃ t : ℝ, 0 ≤ t ∧ val_main_v8 (F := Ideal) a1 (ix1 r) = (t : EReal) := by
    have h6 : val_main_v6 (F := Ideal) (ix1 r) = 0 := by
      rw [val_main_v6_apply, val_main_cst_0_apply]; exact Ideal.ofBits_zero_f32
    have h5 : ∀ j, val_main_v5 (F := Ideal) j = 1 := fun j => by
      rw [val_main_v5_apply, val_main_cst_apply]; exact ofBits_one
    unfold val_main_v8
    exact count_real _ _ _ r h6 h5
  obtain ⟨t, ht, h8⟩ := h8
  rw [h8, h9]
  show IsReal (Ideal.rsqrt ((t : EReal) + 1))
  rw [← EReal.coe_one, ← EReal.coe_add]
  exact IsReal.rsqrt_of_pos (by linarith)

end Cert.Gcn.RefDinv

end
-- ==== Proof.PreFacts.lean ====
/-
  What the precondition says of the input arrays. The precondition is a conjunction, over the seven real-valued inputs, of
  "every entry has absolute value below +∞", and last of "every entry of row 0 of the index array is at least 0"
  (signed). Each conjunct is an all-quantifier printed as a reduction by `and` from 1; the conjunction is a chain of `and`s
  of one-bit words. Read back: every entry of every real-valued input is a real number (neither infinity), and every word
  of row 0 of the index array is nonnegative as a signed integer.
-/
import proofs.«408456_j58695023067297_3_alg».proof.Pre_finite_inputs
import proofs.«408456_j58695023067297_3_alg».proof.Proof.Gen.Pre_finite_inputs
import Idealize.ShloMosaic.Lib.ValueIdx
import Idealize.ShloMosaic.Lib.ReduceAll
import Idealize.ShloMosaic.Lib.StableHlo.Predicate
import Idealize.ShloMosaic.Lib.Pipeline.Value
import Idealize.ShloMosaic.PureOps.Ideal.Laws

noncomputable section

namespace Cert.PreFacts

open Idealize.ShloMosaic Idealize.ShloMosaic.ValueIdx Cert.Pre_finite_inputs

/-- The scalar shape has one index. -/
instance : Subsingleton S_.Idx := ⟨fun a b => funext fun d => d.elim0⟩

/-- The word 0x7F800000 is +∞. -/
theorem ofBits_inf : Ideal.ofBits .f32 0x7F800000#32 = (⊤ : EReal) := by
  simp [Ideal.ofBits, Ideal.ieee]

/-- An extended real whose absolute value max x (-x) is strictly below +∞ is a real number. -/
theorem real_of_abs_lt_top (x : EReal) (h : max x (-x) < (⊤ : EReal)) : ∃ r : ℝ, x = (r : EReal) := by
  induction x using EReal.rec with
  | bot => simp at h
  | coe r => exact ⟨r, rfl⟩
  | top => simp at h

/-- The element fact: the comparison |x| < +∞ holding (word 1) says x is a real number. -/
theorem real_of_cmp (x : EReal)
    (h : Ideal.cmp .olt (max x (-x)) (Ideal.ofBits .f32 0x7F800000#32) = 1#1) : ∃ r : ℝ, x = (r : EReal) := by
  rw [ofBits_inf] at h
  refine real_of_abs_lt_top x ?_
  unfold Ideal.cmp at h
  by_contra hc
  simp [hc] at h

/-- One conjunct, for any shape: if the `and` over all entries of "|x| < +∞" is 1, every entry of x is a real number. -/
theorem all_real {s : Shape} {axes : List (Fin s.rank)} (x : FVec Ideal s .f32)
    (hb : S_.BroadcastsInDim s (![] : Fin 0 → Fin s.rank)) (hr : s.ReducesTo axes S_) (h0 : 0 < S_.numel)
    (e : Host.reduce IntOp.andi
        (cmpf .olt (Host.absf x) (broadcastInDim s ![] hb (constant (F := Ideal) S_ .f32 0x7F800000#32)))
        (constantI S_ 1 1#1) hr h0 ix0 = 1#1) :
    ∀ i, ∃ r : ℝ, x i = (r : EReal) := by
  intro i
  have hi := Host.reduce_andi_all _ _ hr h0 ix0 e i
  exact real_of_cmp (x i) hi

/-- The integer conjunct: if the `and` over row 0 of "word ≥ 0 (signed)" is 1, every word of row 0 is nonnegative. Row 0 is
    read as a slice at offset (0, 0) of extent 1 × n, reshaped to length n: entry e of the result is entry (0, e) of the array. -/
theorem row0_nonneg (a1 : IVec S2x3200000 32) (hs : S2x3200000.Slices ![0, 0] S1x3200000)
    (hc : S1x3200000.ShapeCasts S3200000) (hb : S_.BroadcastsInDim S3200000 (![] : Fin 0 → Fin S3200000.rank))
    (hr : S3200000.ReducesTo [0] S_) (h0 : 0 < S_.numel)
    (e : Host.reduce IntOp.andi
        (cmpi .sge (shapeCast S3200000 (extractStridedSlice S1x3200000 ![0, 0] a1 hs) hc)
          (broadcastInDim S3200000 ![] hb (constantI S_ 32 0#32)))
        (constantI S_ 1 1#1) hr h0 ix0 = 1#1) :
    ∀ k : Fin 3200000, 0 ≤ (a1 (ix2 (0 : Fin 2) k)).toInt := by
  intro k
  have hi := Host.reduce_andi_all _ _ hr h0 ix0 e (ix1 k)
  have hle : (0#32 : BitVec 32).toInt
      ≤ (shapeCast S3200000 (extractStridedSlice S1x3200000 ![0, 0] a1 hs) hc (ix1 k)).toInt :=
    IntOp.cmpi_sge.1 hi
  have e1 : shapeCast S3200000 (extractStridedSlice S1x3200000 ![0, 0] a1 hs) hc (ix1 k)
      = extractStridedSlice S1x3200000 ![0, 0] a1 hs (ix2 (0 : Fin 1) k) := by
    refine shapeCast_apply _ hc (ix1 k) (ix2 (0 : Fin 1) k) ?_
    rw [Shape.rowMajor_val_two, Shape.rowMajor_val_one]
    show (0 : ℕ) * 3200000 + k.val = k.val
    omega
  have e2 : extractStridedSlice S1x3200000 ![0, 0] a1 hs (ix2 (0 : Fin 1) k) = a1 (ix2 (0 : Fin 2) k) := by
    refine extractStridedSlice_apply _ a1 hs (ix2 (0 : Fin 1) k) (ix2 (0 : Fin 2) k) ?_
    intro a
    fin_cases a
    · show (0 : ℕ) = 0 + 0
      rfl
    · show k.val = 0 + k.val
      omega
  rw [e1, e2] at hle
  exact hle

/-- A conjunction of two one-bit scalar words being 1 says both are 1. -/
theorem and_ix0 (a b : IVec S_ 1) (h : andi a b ix0 = 1#1) : a ix0 = 1#1 ∧ b ix0 = 1#1 :=
  IntOp.andi_eq_one.1 h

/-- THE PRECONDITION READ BACK: every entry of each real-valued input is a real number, and every word of row 0 of the index
    array is nonnegative (signed). -/
theorem facts_of_pre [Cert.Pre_finite_inputs.Facts] (x0 : S100000x128.Idx → EReal) (a1 : S2x3200000.Idx → BitVec 32)
    (x2 : S128x64.Idx → EReal) (x3 : S64.Idx → EReal) (x4 : S64x32.Idx → EReal) (x5 : S32.Idx → EReal)
    (x6 : S32x1.Idx → EReal) (x7 : S1.Idx → EReal)
    (h : Cert.Pre_finite_inputs.fn (F := Ideal) x0 a1 x2 x3 x4 x5 x6 x7 = fun _ => 1#1) :
    (∀ i, ∃ r : ℝ, x0 i = (r : EReal)) ∧ (∀ i, ∃ r : ℝ, x2 i = (r : EReal)) ∧ (∀ i, ∃ r : ℝ, x3 i = (r : EReal))
      ∧ (∀ i, ∃ r : ℝ, x4 i = (r : EReal)) ∧ (∀ i, ∃ r : ℝ, x5 i = (r : EReal)) ∧ (∀ i, ∃ r : ℝ, x6 i = (r : EReal))
      ∧ (∀ i, ∃ r : ℝ, x7 i = (r : EReal)) ∧ (∀ e : Fin 3200000, 0 ≤ (a1 (ix2 (0 : Fin 2) e)).toInt) := by
  have e := congrFun h ix0
  unfold Cert.Pre_finite_inputs.fn Cert.Pre_finite_inputs.fn_part1 Cert.Pre_finite_inputs.fn_part2 at e
  dsimp only at e
  obtain ⟨e, ea⟩ := and_ix0 _ _ e
  obtain ⟨e, e7⟩ := and_ix0 _ _ e
  obtain ⟨e, e6⟩ := and_ix0 _ _ e
  obtain ⟨e, e5⟩ := and_ix0 _ _ e
  obtain ⟨e, e4⟩ := and_ix0 _ _ e
  obtain ⟨e, e3⟩ := and_ix0 _ _ e
  obtain ⟨e0, e2⟩ := and_ix0 _ _ e
  exact ⟨all_real x0 _ _ _ e0, all_real x2 _ _ _ e2, all_real x3 _ _ _ e3, all_real x4 _ _ _ e4, all_real x5 _ _ _ e5,
    all_real x6 _ _ _ e6, all_real x7 _ _ _ e7, row0_nonneg a1 _ _ _ _ _ ea⟩

end Cert.PreFacts

end
-- ==== Proof.Final.lean ====
/-
  The kernel program and the reference program end with the same output.

  Both programs are read as functions of the same argument arrays.  The kernel's four tiled passes, followed through the
  whole-array operations between them, give at node `n` the head of the arrangement that scales rows first; the
  reference's operations give the head of the arrangement that weighs every edge by both end nodes' factors.  The two
  programs build the edge rows, the per-node factor and the bias rows by the same operations on the same arguments, so
  these read alike; every float input is finite and the factor is the inverse square root of a positive count, so every
  entry is real; and the precondition keeps every edge's start number from being negative, where the two arrangements read
  it alike.  On such data the two arrangements are one function.
-/
import proofs.«408456_j58695023067297_3_alg».proof.Defs
import proofs.«408456_j58695023067297_3_alg».proof.Proof.Gen.Pre_finite_inputs
import proofs.«408456_j58695023067297_3_alg».proof.Proof.Gen.ReferenceIdeal.Run
import proofs.«408456_j58695023067297_3_alg».proof.Proof.Gen.ReferenceIdeal.Read
import proofs.«408456_j58695023067297_3_alg».proof.Proof.KRun
import proofs.«408456_j58695023067297_3_alg».proof.Proof.KWalk
import proofs.«408456_j58695023067297_3_alg».proof.Proof.Region0
import proofs.«408456_j58695023067297_3_alg».proof.Proof.Region1
import proofs.«408456_j58695023067297_3_alg».proof.Proof.Region2
import proofs.«408456_j58695023067297_3_alg».proof.Proof.Region3
import proofs.«408456_j58695023067297_3_alg».proof.Proof.RefLayer1
import proofs.«408456_j58695023067297_3_alg».proof.Proof.RefLayer2
import proofs.«408456_j58695023067297_3_alg».proof.Proof.RefDinv
import proofs.«408456_j58695023067297_3_alg».proof.Proof.PreFacts
import proofs.«408456_j58695023067297_3_alg».proof.Proof.Bridge
import Idealize.ShloMosaic.Lib.ValueLayout

set_option maxRecDepth 16384

noncomputable section

namespace Cert.Proof.Final

open Idealize.ShloMosaic Idealize.ShloMosaic.TcCoe Idealize.ShloMosaic.ValueIdx Idealize.ShloMosaic.StableHlo
open Idealize.SL.Sem Cert.Gcn
open Cert.KernelIdeal Cert.KernelIdeal.Gen Cert.KernelIdeal.KValue

variable (m : (ℓ : Loc nD τ sig) → Buf (Elt Ideal) ℓ) (ρ : Dev nD → PrngReg)

/-! ## What the operations before the first pass leave, in the reference's words -/

/-- The edges' start numbers: row 0 of the edge list, flattened. -/
theorem W1_v1 (c : Dev nD) : W1 m ρ c (Proc.devRef .tc main_v1)
    = Cert.ReferenceIdeal.Read.val_main_v1 (F := Ideal) (m ((c : Thread nD τ).loc main_arg1)) := by
  show StableHlo.after hostOps0 (W0 m ρ c) (Proc.devRef .tc main_v1) = _
  host_walk
  rfl
/-- The edges' end numbers: row 1 of the edge list, flattened. -/
theorem W1_v3 (c : Dev nD) : W1 m ρ c (Proc.devRef .tc main_v3)
    = Cert.ReferenceIdeal.Read.val_main_v3 (F := Ideal) (m ((c : Thread nD τ).loc main_arg1)) := by
  show StableHlo.after hostOps0 (W0 m ρ c) (Proc.devRef .tc main_v3) = _
  host_walk
  rfl
/-- The per-node factor, as a column. -/
theorem W1_v11 (c : Dev nD) : W1 m ρ c (Proc.devRef .tc main_v11)
    = shapeCast S100000x1 (Cert.ReferenceIdeal.Read.val_main_v11 (F := Ideal) (m ((c : Thread nD τ).loc main_arg1)))
        shapeCasts_S100000_S100000x1 := by
  show StableHlo.after hostOps0 (W0 m ρ c) (Proc.devRef .tc main_v11) = _
  host_walk
  rfl

theorem col_read (x : S3200000.Idx → BitVec 32) (e : Fin 3200000) :
    (broadcastInDim S3200000x1 ![0] bcast_S3200000_S3200000x1_0 x : IVec S3200000x1 32) (ix2 e (0 : Fin 1)) = x (ix1 e) :=
  broadcastInDim_apply _ bcast_S3200000_S3200000x1_0 x (ix2 e (0 : Fin 1)) (ix1 e) (fun a => match a with
    | ⟨0, _⟩ => by show e.val = if (3200000 : Nat) = 1 then 0 else e.val; rw [if_neg (by decide)])

theorem srcK_eq (c : Dev nD) :
    srcK m ρ c = fun e : Fin 3200000 => (m ((c : Thread nD τ).loc main_arg1)) (ix2 (0 : Fin 2) e) := by
  funext e
  unfold srcK
  rw [W1_v1, col_read]
  exact Cert.Gcn.RefLayer2.src_read _ e

theorem dstK_eq (c : Dev nD) :
    dstK m ρ c = fun e : Fin 3200000 => (m ((c : Thread nD τ).loc main_arg1)) (ix2 (1 : Fin 2) e) := by
  funext e
  unfold dstK
  rw [W1_v3, col_read]
  exact Cert.Gcn.RefLayer2.dst_read _ e

theorem Dk_read (c : Dev nD) (r : Fin 100000) : Dk m ρ c (ix2 r (0 : Fin 1))
    = Cert.ReferenceIdeal.Read.val_main_v11 (F := Ideal) (m ((c : Thread nD τ).loc main_arg1)) (ix1 r) := by
  unfold Dk
  rw [W1_v11]
  exact shapeCast_apply _ shapeCasts_S100000_S100000x1 (ix2 r (0 : Fin 1)) (ix1 r) (by
    rw [Shape.rowMajor_val_two, Shape.rowMajor_val_one]
    show r.val = r.val * 1 + 0
    omega)

theorem B1_read (c : Dev nD) (q : Fin 64) :
    B1 m c (ix2 (0 : Fin 1) q) = (m ((c : Thread nD τ).loc main_arg3)) (ix1 q) :=
  shapeCast_a_1a_apply _ shapeCasts_S64_S1x64 0 q
theorem B2_read (c : Dev nD) (q : Fin 32) :
    B2 m c (ix2 (0 : Fin 1) q) = (m ((c : Thread nD τ).loc main_arg5)) (ix1 q) :=
  shapeCast_a_1a_apply _ shapeCasts_S32_S1x32 0 q
theorem Bfc_read (c : Dev nD) :
    Bfc m c (ix2 (0 : Fin 1) (0 : Fin 1)) = (m ((c : Thread nD τ).loc main_arg7)) (ix1 (0 : Fin 1)) :=
  shapeCast_a_1a_apply _ shapeCasts_S1_S1x1 0 0

/-! ## The two outputs -/

/-- THE VALUE: under the precondition the reference's result term, at the kernel's arguments, is the kernel's result. -/
theorem value_eq (c : Dev nD) (hpre : Cert.Pre_finite_inputs.fn (F := Ideal) (m ((c : Thread nD τ).loc main_arg0))
      (m ((c : Thread nD τ).loc main_arg1)) (m ((c : Thread nD τ).loc main_arg2)) (m ((c : Thread nD τ).loc main_arg3))
      (m ((c : Thread nD τ).loc main_arg4)) (m ((c : Thread nD τ).loc main_arg5)) (m ((c : Thread nD τ).loc main_arg6))
      (m ((c : Thread nD τ).loc main_arg7)) = fun _ => 1#1) :
    Cert.ReferenceIdeal.Read.val_main_v104 (F := Ideal) (m ((c : Thread nD τ).loc main_arg0))
      (m ((c : Thread nD τ).loc main_arg1)) (m ((c : Thread nD τ).loc main_arg2)) (m ((c : Thread nD τ).loc main_arg3))
      (m ((c : Thread nD τ).loc main_arg4)) (m ((c : Thread nD τ).loc main_arg5)) (m ((c : Thread nD τ).loc main_arg6))
      (m ((c : Thread nD τ).loc main_arg7))
    = W10 m ρ c (Proc.devRef .tc main_v27) := by
  obtain ⟨hx0, hx2, hx3, hx4, hx5, hx6, hx7, hsrc⟩ := Cert.PreFacts.facts_of_pre _ _ _ _ _ _ _ _ hpre
  funext i
  obtain ⟨n, rfl⟩ : ∃ n : Fin 100000, i = ix1 n := ⟨i 0, eq_ix1 i⟩
  rw [Cert.Gcn.RefRead.ref_head, Cert.Gcn.RefLayer2.ref_layer2, Cert.Gcn.RefRead.ref_layer1,
    result_eq m ρ Cert.KernelIdeal.Region0.final0 Cert.Gcn.Region1.final1 Cert.KernelIdeal.Region2.final2
      Cert.Gcn.Region3.final3 c]
  refine Eq.symm ((shapeCast_apply (OUT m ρ c) shapeCasts_S100000x1_S100000 (ix1 n) (ix2 n (0 : Fin 1)) (by
    rw [Shape.rowMajor_val_two, Shape.rowMajor_val_one]
    show n.val * 1 + 0 = n.val
    omega)).trans ?_)
  unfold OUT HP2 H1 HP1
  rw [srcK_eq, dstK_eq]
  exact net_eq _ _ _ _ _ _ (Dk m ρ c)
    (fun r => Cert.ReferenceIdeal.Read.val_main_v11 (F := Ideal) (m ((c : Thread nD τ).loc main_arg1)) (ix1 r))
    (B1 m c) (fun q => (m ((c : Thread nD τ).loc main_arg3)) (ix1 q)) (B2 m c)
    (fun q => (m ((c : Thread nD τ).loc main_arg5)) (ix1 q)) (Bfc m c) _
    (Dk_read m ρ c) (B1_read m c) (B2_read m c) (Bfc_read m c) hx0 hx2 hx4 (fun q => hx3 _)
    (fun r => Cert.Gcn.RefDinv.dv_real _ r) hsrc n

/-! ## The claim about the two idealized programs -/

/-- From memories that agree on the arguments both programs run, and the reference ends with the kernel's result. -/
theorem algebraic : Cert.algebraic_KernelIdeal_ReferenceIdeal := by
  intro m ρ m' ρ' hpre hagree
  refine ⟨fun c => W10 m ρ c (Proc.devRef .tc main_v27), Cert.KernelIdeal.GenRun.run_main (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v104_eq, (hagree c).1, (hagree c).2.1, (hagree c).2.2.1, (hagree c).2.2.2.1,
    (hagree c).2.2.2.2.1, (hagree c).2.2.2.2.2.1, (hagree c).2.2.2.2.2.2.1, (hagree c).2.2.2.2.2.2.2]
  exact value_eq m ρ c (hpre c)

end Cert.Proof.Final

end
-- ==== Proof.lean ====
/-
  Kernel against reference for a two-layer graph convolution with a sigmoid head on 100000 nodes and 3200000 edges.

  The kernel program computes each layer as  relu(dinv · (Σ_{edges into the node} h'[src] + h') + b)  with
  h' = (x · W) · dinv  scaled once in a tiled pass, the reference as
  relu(Σ_{edges into the node} h[src] · (dinv[src] · dinv[dst]) + h · dinv² + b)  with  h = x · W.  Over the extended reals
  the two agree where every entry is real — the float inputs are finite, and dinv is the inverse square root of a positive
  count — and where no edge's start number is negative: the reference counts a negative number from the end of the table,
  the kernel clamps it to the first row.  The frames of the two kernel programs are their generated frame certificates;
  the reference's frame is its generated run; nothing was rewritten by the idealization, so `preserves` is trivial; the
  value claim is Proof/Final.lean over the region values (Proof/Region0 … Region3), the walk between the regions
  (Proof/KWalk), the reference read at an index (Proof/RefLayer1, RefLayer2, RefDinv), what the precondition says
  (Proof/PreFacts) and the law that joins the two arrangements (Proof/Bridge).
-/
import proofs.«408456_j58695023067297_3_alg».proof.Defs
import proofs.«408456_j58695023067297_3_alg».proof.Proof.Gen.Kernel
import proofs.«408456_j58695023067297_3_alg».proof.Proof.Gen.Kernel.Skeleton
import proofs.«408456_j58695023067297_3_alg».proof.Proof.Gen.Kernel.Launch
import proofs.«408456_j58695023067297_3_alg».proof.Proof.Gen.Kernel.Points
import proofs.«408456_j58695023067297_3_alg».proof.Proof.Gen.Kernel.Frame
import proofs.«408456_j58695023067297_3_alg».proof.Proof.Gen.KernelIdeal
import proofs.«408456_j58695023067297_3_alg».proof.Proof.Gen.KernelIdeal.Skeleton
import proofs.«408456_j58695023067297_3_alg».proof.Proof.Gen.KernelIdeal.Launch
import proofs.«408456_j58695023067297_3_alg».proof.Proof.Gen.KernelIdeal.Points
import proofs.«408456_j58695023067297_3_alg».proof.Proof.Gen.KernelIdeal.Frame
import proofs.«408456_j58695023067297_3_alg».proof.Proof.Gen.ReferenceIdeal
import proofs.«408456_j58695023067297_3_alg».proof.Proof.Gen.Pre_finite_inputs
import proofs.«408456_j58695023067297_3_alg».proof.Proof.Gen.ReferenceIdeal.Run
import proofs.«408456_j58695023067297_3_alg».proof.Proof.Gen.ReferenceIdeal.Read
import proofs.«408456_j58695023067297_3_alg».proof.Proof.Final
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    fun m ρ _ => Cert.Kernel.Gen.frame m ρ,
    fun m ρ _ => Cert.KernelIdeal.Gen.frame m ρ,
    fun m ρ _ => (θ_run Cert.ReferenceIdeal.defs _ _).mono (fun _ h c => (h c).2)
      (Cert.ReferenceIdeal.Value.run (F := Ideal) m ρ),
    trivial,
    Cert.Proof.Final.algebraic⟩

end Cert.Proof

end
